-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x8192 : Shape := ⟨3, ![1, 8192, 8192]⟩
abbrev S8192 : Shape := ⟨1, ![8192]⟩
abbrev S128 : Shape := ⟨1, ![128]⟩
abbrev S_ : Shape := ⟨0, ![]⟩

class Facts : Prop where
  bcast_S_S1x8192x8192 : S_.BroadcastsInDim S1x8192x8192 (![] : Fin 0 → Fin S1x8192x8192.rank)
  reducesTo_S1x8192x8192_S_d0_1_2 : S1x8192x8192.ReducesTo [0, 1, 2] S_
  h_S_ : 0 < S_.numel

variable [Facts]

def fn {F : FTy → Type} [FloatOps F] (main_arg0 : FVec F S1x8192x8192 .f32) (main_arg1 : IVec S8192 32) (main_arg2 : IVec S128 32) (main_arg3 : IVec S128 32) : IVec S_ 1 :=
  let main_v0 : FVec F S1x8192x8192 .f32 := Host.absf main_arg0
  let main_cst : FVec F S_ .f32 := constant S_ .f32 0x7F800000#32
  let main_v1 : FVec F S1x8192x8192 .f32 := broadcastInDim S1x8192x8192 ![] bcast_S_S1x8192x8192 main_cst
  let main_v2 : IVec S1x8192x8192 1 := cmpf .olt main_v0 main_v1
  let main_c : IVec S_ 1 := constantI S_ 1 1#1
  let main_v3 : IVec S_ 1 := (fun x v => Host.reduce IntOp.andi x v reducesTo_S1x8192x8192_S_d0_1_2 h_S_) main_v2 main_c
  main_v3
-- ==== Kernel.lean ====
abbrev S1x8192x8192 : Shape := ⟨3, ![1, 8192, 8192]⟩
abbrev S8192 : Shape := ⟨1, ![8192]⟩
abbrev S128 : Shape := ⟨1, ![128]⟩
abbrev S1 : Shape := ⟨1, ![1]⟩
abbrev S127 : Shape := ⟨1, ![127]⟩
abbrev S_ : Shape := ⟨0, ![]⟩
abbrev S128x1 : Shape := ⟨2, ![128, 1]⟩
abbrev S8192x1 : Shape := ⟨2, ![8192, 1]⟩
abbrev S1x1 : Shape := ⟨2, ![1, 1]⟩
abbrev S1x8192 : Shape := ⟨2, ![1, 8192]⟩
abbrev S8192x3 : Shape := ⟨2, ![8192, 3]⟩
abbrev S1x512x4096 : Shape := ⟨3, ![1, 512, 4096]⟩
abbrev S512x1 : Shape := ⟨2, ![512, 1]⟩
abbrev S1x4096 : Shape := ⟨2, ![1, 4096]⟩
abbrev S1x512 : Shape := ⟨2, ![1, 512]⟩
abbrev S512x4096 : Shape := ⟨2, ![512, 4096]⟩
abbrev S512 : Shape := ⟨1, ![512]⟩

abbrev nBuf : Space → Nat
  | .hbm => 90
  | .vmem => 13
  | .smem => 0
  | _ => 0

abbrev bufTy : (tb : Table) → Fin (tcTables nBuf tb) → BufTy
  | .hbm, ⟨0, _⟩ => ⟨S1x8192x8192, .f32⟩
  | .hbm, ⟨1, _⟩ => ⟨S8192, .i32⟩
  | .hbm, ⟨2, _⟩ => ⟨S128, .i32⟩
  | .hbm, ⟨3, _⟩ => ⟨S128, .i32⟩
  | .hbm, ⟨4, _⟩ => ⟨S1, .i32⟩
  | .hbm, ⟨5, _⟩ => ⟨S127, .i32⟩
  | .hbm, ⟨6, _⟩ => ⟨S128, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S128, .i32⟩
  | .hbm, ⟨11, _⟩ => ⟨S_, .i32⟩
  | .hbm, ⟨12, _⟩ => ⟨S_, .i32⟩
  | .hbm, ⟨13, _⟩ => ⟨S128, .i32⟩
  | .hbm, ⟨14, _⟩ => ⟨S_, .i32⟩
  | .hbm, ⟨15, _⟩ => ⟨S8192, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S_, .i32⟩
  | .hbm, ⟨25, _⟩ => ⟨S128, .i32⟩
  | .hbm, ⟨26, _⟩ => ⟨S8192, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S1, .i32⟩
  | .hbm, ⟨42, _⟩ => ⟨S_, .i32⟩
  | .hbm, ⟨43, _⟩ => ⟨S8192x1, .i32⟩
  | .hbm, ⟨44, _⟩ => ⟨S8192x1, .i1⟩
  | .hbm, ⟨45, _⟩ => ⟨S1x1, .i32⟩
  | .hbm, ⟨46, _⟩ => ⟨S8192x1, .i32⟩
  | .hbm, ⟨47, _⟩ => ⟨S8192x1, .i1⟩
  | .hbm, ⟨48, _⟩ => ⟨S8192x1, .i1⟩
  | .hbm, ⟨49, _⟩ => ⟨S_, .i1⟩
  | .hbm, ⟨50, _⟩ => ⟨S8192, .i1⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S1x8192, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x1, .i32⟩
  | .hbm, ⟨77, _⟩ => ⟨S8192x1, .i32⟩
  | .hbm, ⟨78, _⟩ => ⟨S8192x3, .i32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192x1, .f32⟩
  | .hbm, ⟨85, _⟩ => ⟨S1x8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1x512x4096, .f32⟩
  | .local _ .vmem, ⟨1, _⟩ => ⟨S1x512x4096, .f32⟩
  | .local _ .vmem, ⟨2, _⟩ => ⟨S512x1, .i32⟩
  | .local _ .vmem, ⟨3, _⟩ => ⟨S512x1, .i32⟩
  | .local _ .vmem, ⟨4, _⟩ => ⟨S1x4096, .i32⟩
  | .local _ .vmem, ⟨5, _⟩ => ⟨S1x4096, .i32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_call1_call0_c : Ref sig .tc := ⟨.hbm, 11, rfl⟩
abbrev main_call1_call0_v0 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_call2_call0_c : Ref sig .tc := ⟨.hbm, 27, rfl⟩
abbrev main_call2_call0_v0 : Ref sig .tc := ⟨.hbm, 28, rfl⟩
abbrev main_v13 : Ref sig .tc := ⟨.hbm, 29, rfl⟩
abbrev main_c_5 : Ref sig .tc := ⟨.hbm, 30, rfl⟩
abbrev main_v14 : Ref sig .tc := ⟨.hbm, 31, rfl⟩
abbrev main_v15 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c_6 : Ref sig .tc := ⟨.hbm, 58, rfl⟩
abbrev main_v20 : Ref sig .tc := ⟨.hbm, 59, rfl⟩
abbrev main_v21 : Ref sig .tc := ⟨.hbm, 60, rfl⟩
abbrev main_c_7 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_8 : Ref sig .tc := ⟨.hbm, 65, rfl⟩
abbrev main_v25 : Ref sig .tc := ⟨.hbm, 66, rfl⟩
abbrev main_v26 : Ref sig .tc := ⟨.hbm, 67, rfl⟩
abbrev main_c_9 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_c_10 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_11 : Ref sig .tc := ⟨.hbm, 86, rfl⟩
abbrev main_v42 : Ref sig .tc := ⟨.hbm, 87, rfl⟩
abbrev main_cst_12 : Ref sig .tc := ⟨.hbm, 88, rfl⟩
abbrev main_v43 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v39 : BitVec 1 := Scalar.cmpi .eq arg1 c1_i32
  let v40 : BitVec 32 := Scalar.extui v39
  let c0_i32_23 : BitVec 32 := 0#32
  let v41 : BitVec 1 := Scalar.cmpi .ne v40 c0_i32_23
  v41

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S128_S1_127 : S128.Slices ![127] S1
  slices_S128_S127_0 : S128.Slices ![0] S127
  concatenates_S1_S127_S128_d0 : Shape.Concatenates [S1, S127] S128 0
  bcast_S_S1 : S_.BroadcastsInDim S1 (![] : Fin 0 → Fin S1.rank)
  bcast_S_S_ : S_.BroadcastsInDim S_ (![] : Fin 0 → Fin S_.rank)
  reduceWindows_S128_S128_w128s1p127_0 : S128.ReduceWindows (![128] : Fin 1 → Nat) ![1] ![127] ![0] S128
  h_S_ : 0 < S_.numel
  bcast_S_S8192 : S_.BroadcastsInDim S8192 (![] : Fin 0 → Fin S8192.rank)
  bcast_S_S128 : S_.BroadcastsInDim S128 (![] : Fin 0 → Fin S128.rank)
  bcast_S128_S128x1_0 : S128.BroadcastsInDim S128x1 (![0] : Fin 1 → Fin S128x1.rank)
  reduceWindows_S8192_S8192_w8192s1p8191_0 : S8192.ReduceWindows (![8192] : Fin 1 → Nat) ![1] ![8191] ![0] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  shapeCasts_S8192_S8192x1 : S8192.ShapeCasts S8192x1
  shapeCasts_S8192_S1x8192 : S8192.ShapeCasts S1x8192
  concatenates_S8192x1_S8192x1_S8192x1_S8192x3_d1 : Shape.Concatenates [S8192x1, S8192x1, S8192x1] S8192x3 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  reduces_S512x4096_S512 : S512x4096.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  reducesTo_S1x8192_S_d0_1 : S1x8192.ReducesTo [0, 1] S_
  scatter_S128_S1_S__n_0_0_0_wf : ScatterDims.WF S128 S1 S_ [] [0] [0] 0
  scatter_S8192_S128x1_S128_n_0_0_1_wf : ScatterDims.WF S8192 S128x1 S128 [] [0] [0] 1
  gather_S128_S8192x1_S8192_n_0_n_n_0_1_1_wf : GatherDims.WF S128 S8192x1 S8192 [] [0] [] [0] [] 1 ![1]
  gather_S1x8192x8192_S8192x3_S8192_n_012_n_n_012_1_111_wf : GatherDims.WF S1x8192x8192 S8192x3 S8192 [] [0, 1, 2] [] [0, 1, 2] [] 1 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S1x8192x8192.size a
  hwx0_0 : ∀ i : grid0.Coords, EltTy.bits .f32 = 32 ∨ (Rect.block (s := S1x8192x8192) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x8192.size a
  hwx0_2 : ∀ i : grid0.Coords, EltTy.bits .i32 = 32 ∨ (Rect.block (s := S1x8192) S1x4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)

variable [Facts₀]

def scatter_S128_S1_S__n_0_0_0 : ScatterDims S128 S1 S_ where
  updateWindowDims := []
  insertedWindowDims := [0]
  scatterDimsToOperandDims := [0]
  indexVectorDim := 0
  wf := scatter_S128_S1_S__n_0_0_0_wf
def scatter_S8192_S128x1_S128_n_0_0_1 : ScatterDims S8192 S128x1 S128 where
  updateWindowDims := []
  insertedWindowDims := [0]
  scatterDimsToOperandDims := [0]
  indexVectorDim := 1
  wf := scatter_S8192_S128x1_S128_n_0_0_1_wf
def gather_S128_S8192x1_S8192_n_0_n_n_0_1_1 : GatherDims S128 S8192x1 S8192 where
  offsetDims := []
  collapsedSliceDims := [0]
  operandBatchingDims := []
  startIndicesBatchingDims := []
  startIndexMap := [0]
  indexVectorDim := 1
  sliceSizes := ![1]
  wf := gather_S128_S8192x1_S8192_n_0_n_n_0_1_1_wf
def gather_S1x8192x8192_S8192x3_S8192_n_012_n_n_012_1_111 : GatherDims S1x8192x8192 S8192x3 S8192 where
  offsetDims := []
  collapsedSliceDims := [0, 1, 2]
  operandBatchingDims := []
  startIndicesBatchingDims := []
  startIndexMap := [0, 1, 2]
  indexVectorDim := 1
  sliceSizes := ![1, 1, 1]
  wf := gather_S1x8192x8192_S8192x3_S8192_n_012_n_n_012_1_111_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x8192x8192 : Shape := ⟨3, ![1, 8192, 8192]⟩
abbrev S8192 : Shape := ⟨1, ![8192]⟩
abbrev S128 : Shape := ⟨1, ![128]⟩
abbrev S8192x8192 : Shape := ⟨2, ![8192, 8192]⟩
abbrev S_ : Shape := ⟨0, ![]⟩
abbrev S8192x1 : Shape := ⟨2, ![8192, 1]⟩
abbrev S8192x2 : Shape := ⟨2, ![8192, 2]⟩
abbrev S1 : Shape := ⟨1, ![1]⟩
abbrev S127 : Shape := ⟨1, ![127]⟩
abbrev S128x1 : Shape := ⟨2, ![128, 1]⟩
abbrev S1x1 : Shape := ⟨2, ![1, 1]⟩
abbrev S1x8192 : Shape := ⟨2, ![1, 8192]⟩

abbrev nBuf : Space → Nat
  | .hbm => 122
  | .vmem => 0
  | .smem => 0
  | _ => 0

abbrev bufTy : (tb : Table) → Fin (tcTables nBuf tb) → BufTy
  | .hbm, ⟨0, _⟩ => ⟨S1x8192x8192, .f32⟩
  | .hbm, ⟨1, _⟩ => ⟨S8192, .i32⟩
  | .hbm, ⟨2, _⟩ => ⟨S128, .i32⟩
  | .hbm, ⟨3, _⟩ => ⟨S128, .i32⟩
  | .hbm, ⟨4, _⟩ => ⟨S8192x8192, .f32⟩
  | .hbm, ⟨5, _⟩ => ⟨S8192, .i32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192x1, .i32⟩
  | .hbm, ⟨26, _⟩ => ⟨S8192x2, .i32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S1, .i32⟩
  | .hbm, ⟨32, _⟩ => ⟨S127, .i32⟩
  | .hbm, ⟨33, _⟩ => ⟨S128, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S_, .i32⟩
  | .hbm, ⟨42, _⟩ => ⟨S8192, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S_, .i32⟩
  | .hbm, ⟨52, _⟩ => ⟨S128, .i32⟩
  | .hbm, ⟨53, _⟩ => ⟨S8192, .i32⟩
  | .hbm, ⟨54, _⟩ => ⟨S_, .i32⟩
  | .hbm, ⟨55, _⟩ => ⟨S_, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S1, .i32⟩
  | .hbm, ⟨69, _⟩ => ⟨S_, .i32⟩
  | .hbm, ⟨70, _⟩ => ⟨S8192x1, .i32⟩
  | .hbm, ⟨71, _⟩ => ⟨S8192x1, .i1⟩
  | .hbm, ⟨72, _⟩ => ⟨S1x1, .i32⟩
  | .hbm, ⟨73, _⟩ => ⟨S8192x1, .i32⟩
  | .hbm, ⟨74, _⟩ => ⟨S8192x1, .i1⟩
  | .hbm, ⟨75, _⟩ => ⟨S8192x1, .i1⟩
  | .hbm, ⟨76, _⟩ => ⟨S_, .i1⟩
  | .hbm, ⟨77, _⟩ => ⟨S8192, .i1⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192x1, .i32⟩
  | .hbm, ⟨83, _⟩ => ⟨S1x8192, .i32⟩
  | .hbm, ⟨84, _⟩ => ⟨S8192x8192, .i32⟩
  | .hbm, ⟨85, _⟩ => ⟨S8192x8192, .i32⟩
  | .hbm, ⟨86, _⟩ => ⟨S8192x8192, .i1⟩
  | .hbm, ⟨87, _⟩ => ⟨S_, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192x8192, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S_, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S8192, .f32⟩
  | .hbm, ⟨103, _⟩ => ⟨S_, .f32⟩
  | .hbm, ⟨104, _⟩ => ⟨S_, .f32⟩
  | .hbm, ⟨105, _⟩ => ⟨S8192x8192, .f32⟩
  | .hbm, ⟨106, _⟩ => ⟨S8192x8192, .f32⟩
  | .hbm, ⟨107, _⟩ => ⟨S_, .f32⟩
  | .hbm, ⟨108, _⟩ => ⟨S8192, .f32⟩
  | .hbm, ⟨109, _⟩ => ⟨S8192, .f32⟩
  | .hbm, ⟨110, _⟩ => ⟨S8192, .f32⟩
  | .hbm, ⟨111, _⟩ => ⟨S8192, .f32⟩
  | .hbm, ⟨112, _⟩ => ⟨S8192, .f32⟩
  | .hbm, ⟨113, _⟩ => ⟨S8192, .f32⟩
  | .hbm, ⟨114, _⟩ => ⟨S8192, .f32⟩
  | .hbm, ⟨115, _⟩ => ⟨S8192, .f32⟩
  | .hbm, ⟨116, _⟩ => ⟨S8192, .f32⟩
  | .hbm, ⟨117, _⟩ => ⟨S8192, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_call1_call0_c : Ref sig .tc := ⟨.hbm, 38, rfl⟩
abbrev main_call1_call0_v0 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_9 : Ref sig .tc := ⟨.hbm, 51, rfl⟩
abbrev main_v32 : Ref sig .tc := ⟨.hbm, 52, rfl⟩
abbrev main_v33 : Ref sig .tc := ⟨.hbm, 53, rfl⟩
abbrev main_call2_call0_c : Ref sig .tc := ⟨.hbm, 54, rfl⟩
abbrev main_call2_call0_v0 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_c_4 : Ref sig .tc := ⟨.hbm, 79, rfl⟩
abbrev main_call3_v14 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_11 : Ref sig .tc := ⟨.hbm, 87, rfl⟩
abbrev main_call4_v0 : Ref sig .tc := ⟨.hbm, 88, rfl⟩
abbrev main_call4_v1 : Ref sig .tc := ⟨.hbm, 89, rfl⟩
abbrev main_v43 : Ref sig .tc := ⟨.hbm, 90, rfl⟩
abbrev main_cst_12 : Ref sig .tc := ⟨.hbm, 91, rfl⟩
abbrev main_v44 : Ref sig .tc := ⟨.hbm, 92, rfl⟩
abbrev main_cst_13 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_14 : Ref sig .tc := ⟨.hbm, 97, rfl⟩
abbrev main_call5_v0 : Ref sig .tc := ⟨.hbm, 98, rfl⟩
abbrev main_call5_v1 : Ref sig .tc := ⟨.hbm, 99, rfl⟩
abbrev main_v48 : Ref sig .tc := ⟨.hbm, 100, rfl⟩
abbrev main_cst_15 : Ref sig .tc := ⟨.hbm, 101, rfl⟩
abbrev main_v49 : Ref sig .tc := ⟨.hbm, 102, rfl⟩
abbrev main_cst_16 : Ref sig .tc := ⟨.hbm, 103, rfl⟩
abbrev main_call6_v0 : Ref sig .tc := ⟨.hbm, 104, rfl⟩
abbrev main_call6_v1 : Ref sig .tc := ⟨.hbm, 105, rfl⟩
abbrev main_v50 : Ref sig .tc := ⟨.hbm, 106, rfl⟩
abbrev main_cst_17 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_cst_18 : Ref sig .tc := ⟨.hbm, 118, rfl⟩
abbrev main_v61 : Ref sig .tc := ⟨.hbm, 119, rfl⟩
abbrev main_cst_19 : Ref sig .tc := ⟨.hbm, 120, rfl⟩
abbrev main_v62 : Ref sig .tc := ⟨.hbm, 121, rfl⟩

abbrev nD : Nat := 1
abbrev τ : Topo := Topo.v7x

variable {F : FTy → Type} [FloatOps F]

class Facts₀ : Prop where
  shapeCasts_S1x8192x8192_S8192x8192 : S1x8192x8192.ShapeCasts S8192x8192
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  slices_S128_S1_127 : S128.Slices ![127] S1
  slices_S128_S127_0 : S128.Slices ![0] S127
  concatenates_S1_S127_S128_d0 : Shape.Concatenates [S1, S127] S128 0
  bcast_S_S1 : S_.BroadcastsInDim S1 (![] : Fin 0 → Fin S1.rank)
  bcast_S_S_ : S_.BroadcastsInDim S_ (![] : Fin 0 → Fin S_.rank)
  reduceWindows_S128_S128_w128s1p127_0 : S128.ReduceWindows (![128] : Fin 1 → Nat) ![1] ![127] ![0] S128
  bcast_S_S128 : S_.BroadcastsInDim S128 (![] : Fin 0 → Fin S128.rank)
  bcast_S128_S128x1_0 : S128.BroadcastsInDim S128x1 (![0] : Fin 1 → Fin S128x1.rank)
  reduceWindows_S8192_S8192_w8192s1p8191_0 : S8192.ReduceWindows (![8192] : Fin 1 → Nat) ![1] ![8191] ![0] S8192
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192_S_d0 : S8192.ReducesTo [0] S_
  gather_S8192x8192_S8192x2_S8192_n_01_n_n_01_1_11_wf : GatherDims.WF S8192x8192 S8192x2 S8192 [] [0, 1] [] [0, 1] [] 1 ![1, 1]
  scatter_S128_S1_S__n_0_0_0_wf : ScatterDims.WF S128 S1 S_ [] [0] [0] 0
  scatter_S8192_S128x1_S128_n_0_0_1_wf : ScatterDims.WF S8192 S128x1 S128 [] [0] [0] 1
  gather_S128_S8192x1_S8192_n_0_n_n_0_1_1_wf : GatherDims.WF S128 S8192x1 S8192 [] [0] [] [0] [] 1 ![1]

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def scatter_S8192_S128x1_S128_n_0_0_1 : ScatterDims S8192 S128x1 S128 where
  updateWindowDims := []
  insertedWindowDims := [0]
  scatterDimsToOperandDims := [0]
  indexVectorDim := 1
  wf := scatter_S8192_S128x1_S128_n_0_0_1_wf
def gather_S128_S8192x1_S8192_n_0_n_n_0_1_1 : GatherDims S128 S8192x1 S8192 where
  offsetDims := []
  collapsedSliceDims := [0]
  operandBatchingDims := []
  startIndicesBatchingDims := []
  startIndexMap := [0]
  indexVectorDim := 1
  sliceSizes := ![1]
  wf := gather_S128_S8192x1_S8192_n_0_n_n_0_1_1_wf

class Facts : Prop extends Facts₀ where

variable [Facts]
-- ==== Proof.K.Kit.lean ====
/-
  The launch side of the one pallas_call, shared by the two control cases of its body: the contents every TensorCore
  buffer has when the region is entered (the host operations before it folded over the launch memory), @main as
  "host operations, the region, host operations", the four lines after the region (the mean of the per-row losses)
  touching no array the pipeline stages, each window's block at a grid point, the two branch conditions of the body
  decided over the 16 x 2 grid (the reduction axis is the inner one: a point is at column block j = t mod 2), where
  the output window is idle, and the staging and scratch memrefs the body is called with.
-/
import proofs.«419252_j75419625718616_3_alg».proof.Proof.Gen.Kernel.Launch
import proofs.«419252_j75419625718616_3_alg».proof.Proof.Gen.Kernel.Skeleton
import proofs.«419252_j75419625718616_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: the launch memory after the host operations
    before the region (the row classes by repeat, the positive's exponential by a gather). -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays end as launched: the similarity tensor is the first window's array, an input (its contents at
    the region's entry, which no host operation before the region wrote); the other three bypass the region and no
    later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch conditions -/

/-- The first branch (reset the three accumulators) is taken where the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (finish the rows' losses and store them) is taken where the column-block coordinate is 1, the last. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first column block nothing is stored into the output window: it is idle there and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the last column block the output window is stored whole. -/
theorem liveAt0_4_B : ∀ t : Fin cfg0.N, ¬cond0_0 (grid0.coords t) → cond0_1 (grid0.coords t) → cfg0.idle 4 (grid0.coords t) = false := by decide +kernel

/-! ## The memrefs the body is called with -/

abbrev VO0_4 : View sig .tc .vmem S1x512 .f32 := (Memref.whole cc0_stg4_0 : Memref sig .tc .vmem S1x512 .f32).view
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The three accumulators: whole scoped buffers of the kernel's own, carried from one grid point to the next. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- What the launch hands the region besides the windows: the three accumulators, each whole at some contents, and the
    generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The body at a point of the FIRST column block (the reset branch taken, the finishing branch not): the three
  accumulators are stored zero and then each is read back and stored with the block's row sums added; the output
  window is not touched. Run symbolically on whole staging memrefs; what each accumulator ends with is found as
  the list of pieces the stores wrote.
-/
import proofs.«419252_j75419625718616_3_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each buffer ends with in the first case, with the proof that the body runs: the inputs' buffers at their
    contents and handed back as they were, the output's buffer at any contents handed back untouched, the accumulators at
    anything and left with their pieces written. -/
noncomputable def kernelRun0_A (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) :
    Σ' (L4 : List (View.Piece (Elt F) S1x512 .f32)) (LS0 : List (View.Piece (Elt F) S512x1 .f32)) (LS1 : List (View.Piece (Elt F) S512x1 .f32)), { LS2 : List (View.Piece (Elt F) S512x1 .f32) //
      ∀ (xi4 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__rince_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__rince_kernel_eq_skeleton]; unfold cc0__rince_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.K.RunB.lean ====
/-
  The body at a point of the LAST column block (the reset branch not taken, the finishing branch taken): each
  accumulator is read at what the first column block left, stored with this block's row sums added, read back, and the
  rows' losses are computed from the three totals and the positives' exponentials and stored, transposed, into the
  output window. Run symbolically on whole staging memrefs; the pieces each buffer ends with are what the run finds.
-/
import proofs.«419252_j75419625718616_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each buffer ends with in the second case, with the proof that the body runs: the inputs' buffers at their
    contents and handed back as they were, the output's buffer at anything and left with its pieces written, the
    accumulators at the contents the point before left and left with their pieces written. -/
noncomputable def kernelRun0_B (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    Σ' (L4 : List (View.Piece (Elt F) S1x512 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__rince_kernel i arg2 harg2 arg3 harg3 arg4 harg4 arg5 harg5 arg6 harg6 arg7 harg7 arg8 harg8 arg9 harg9) K } := by
  refine ⟨?_, ?_, ?_, ?_, fun E K => ?run⟩
  case run =>
    simp only [cc0__rince_kernel_eq_skeleton]; unfold cc0__rince_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.K.Frame.lean ====
/-
  What the output window's staging buffer and the three accumulators hold after the body at each grid point — the
  case the point is in (first or last column block), run at the point's memrefs and input blocks, the last column
  block's run started from what the first left in the accumulators —, the proof data of the pipeline over it, the
  body obligation at a generic point, and the run of @main: every array of the pipeline at what the proof data
  computes, every other buffer as the lines after the region leave it. From it, the frame: the four argument arrays
  end as launched.
-/
import proofs.«419252_j75419625718616_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first column block nothing is stored into the output window: a placeholder nothing consults. -/
def out0_A_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S1x512 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

theorem scover0_A_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S512x1.size (by sl_kernel_rfl) y

/-- What this case leaves in accumulator 0: its pieces read back. -/
def sout0_A_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

theorem scover0_A_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x1.size (by sl_kernel_rfl) y

/-- What this case leaves in accumulator 1: its pieces read back. -/
def sout0_A_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

theorem scover0_A_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x1.size (by sl_kernel_rfl) y

/-- What this case leaves in accumulator 2: its pieces read back. -/
def sout0_A_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- At the last column block the one store covers the output window's block. -/
theorem cover0_B_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S1x512.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).1 S1x512.size (by sl_kernel_rfl) y

/-- What the last column block leaves in the output window's staging buffer: the rows' losses, as its pieces read back. -/
def out0_B_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S1x512 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

theorem scover0_B_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What this case leaves in accumulator 0: its pieces read back. -/
def sout0_B_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

theorem scover0_B_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What this case leaves in accumulator 1: its pieces read back. -/
def sout0_B_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

theorem scover0_B_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S512x1.size (by sl_kernel_rfl) y

/-- What this case leaves in accumulator 2: its pieces read back. -/
def sout0_B_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-! ## What the buffers hold after each point -/

/-- The output window's buffer and the three accumulators after a point of the first column block. -/
def caseA (c : Dev nD) (t : Fin cfg0.N) (h0 : t.val % 2 = 0) : Vec F S1x512 .f32 × Vec F S512x1 .f32 × Vec F S512x1 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t))

/-- The same after a point of the last column block, the accumulators found at `p0 p1 p2`. -/
def caseB (c : Dev nD) (t : Fin cfg0.N) (h0 : ¬t.val % 2 = 0) (p0 p1 p2 : Vec F S512x1 .f32) : Vec F S1x512 .f32 × Vec F S512x1 .f32 × Vec F S512x1 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2)

/-- THE ACCUMULATION: after the body at position `n`, the output window's buffer and the three accumulators; a point of the
    last column block starts from what the point before (the same row block's first column block) left. -/
def outsAt0 (c : Dev nD) : (n : ℕ) → n < cfg0.N → Vec F S1x512 .f32 × Vec F S512x1 .f32 × Vec F S512x1 .f32 × Vec F S512x1 .f32
  | 0, hn => caseA m c ⟨0, hn⟩ (Nat.zero_mod _)
  | n + 1, hn =>
    if h0 : (n + 1) % 2 = 0 then caseA m c ⟨n + 1, hn⟩ h0
    else caseB m c ⟨n + 1, hn⟩ h0 (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val % 2 = 0) :
    outsAt0 m c t.val t.isLt = caseA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = caseB m c t h0 (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-- The region invariant before position `n`: before the first point what the launch hands over (the accumulators at
    anything); afterwards the three accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' buffers hold their blocks; the point's parity says which case it is in; the
    invariant hands the body the accumulators at what the point before left (at anything at the very first point) and
    takes them back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 32 := lt_of_lt_of_eq t.isLt (show cfg0.N = 32 from N_0)
  by_cases h0 : t.val % 2 = 0
  · have hcA : cond0_0 (grid0.coords t) := (hcond0_0 t).mpr h0
    have hcA' : ¬cond0_1 (grid0.coords t) := fun h => by have := (hcond0_1 t).mp h; omega
    rw [Dat.leavesExact_idle (dats m 0 c) 4 t (idleAt0_4_A t hcA hcA') (noFlush0_4_A t hcA hcA')]
    rw [outsAt0_A m c t h0]
    unfold caseA; dsimp only
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ hcA hcA' (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ hcA hcA' (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hcB : ¬cond0_0 (grid0.coords t) := fun h => h0 ((hcond0_0 t).mp h)
    have hcB' : cond0_1 (grid0.coords t) := (hcond0_1 t).mpr (by omega)
    have hz : t.val ≠ 0 := fun h => h0 (by rw [h])
    rw [show (dats m 0 c).leavesExact 4 t = owns (c : Thread nD τ) (ms0_4 t) fullShare ((dats m 0 c).after 4 t) from by
      unfold Dat.leavesExact; rw [liveAt0_4_B t hcB hcB'], after0_4]
    rw [outsAt0_B m c t h0]
    unfold caseB; dsimp only
    unfold out0_B_4 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ hcB hcB' (iblk m c 0 t) (iblk m c 1 t) (iblk m c 2 t) (iblk m c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        · unfold owns; iexists _; isplitr
          swap; · iexact HS2
          ipureintro; exact View.read_writes_of_cover _ _ _ _ _ (scover0_B_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, every array of the pipeline at what
    the proof data computes and every other unscoped buffer as the four lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KI.Kit.lean ====
/-
  The launch side of the one pallas_call, shared by the two control cases of its body: the contents every TensorCore
  buffer has when the region is entered (the host operations before it folded over the launch memory), @main as
  "host operations, the region, host operations", the four lines after the region (the mean of the per-row losses)
  touching no array the pipeline stages, each window's block at a grid point, the two branch conditions of the body
  decided over the 16 x 2 grid (the reduction axis is the inner one: a point is at column block j = t mod 2), where
  the output window is idle, and the staging and scratch memrefs the body is called with.
-/
import proofs.«419252_j75419625718616_3_alg».proof.Proof.Gen.KernelIdeal.Launch
import proofs.«419252_j75419625718616_3_alg».proof.Proof.Gen.KernelIdeal.Skeleton
import proofs.«419252_j75419625718616_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: the launch memory after the host operations
    before the region (the row classes by repeat, the positive's exponential by a gather). -/
abbrev V0 (c : Dev nD) : Valuation τ sig (Elt F) := StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four argument arrays end as launched: the similarity tensor is the first window's array, an input (its contents at
    the region's entry, which no host operation before the region wrote); the other three bypass the region and no
    later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch conditions -/

/-- The first branch (reset the three accumulators) is taken where the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second branch (finish the rows' losses and store them) is taken where the column-block coordinate is 1, the last. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first column block nothing is stored into the output window: it is idle there and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
/-- At the last column block the output window is stored whole. -/
theorem liveAt0_4_B : ∀ t : Fin cfg0.N, ¬cond0_0 (grid0.coords t) → cond0_1 (grid0.coords t) → cfg0.idle 4 (grid0.coords t) = false := by decide +kernel

/-! ## The memrefs the body is called with -/

abbrev VO0_4 : View sig .tc .vmem S1x512 .f32 := (Memref.whole cc0_stg4_0 : Memref sig .tc .vmem S1x512 .f32).view
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
/-- The three accumulators: whole scoped buffers of the kernel's own, carried from one grid point to the next. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- What the launch hands the region besides the windows: the three accumulators, each whole at some contents, and the
    generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The body at a point of the FIRST column block (the reset branch taken, the finishing branch not): the three
  accumulators are stored zero and then each is read back and stored with the block's row sums added; the output
  window is not touched. Run symbolically on whole staging memrefs; what each accumulator ends with is found as
  the list of pieces the stores wrote.
-/
import proofs.«419252_j75419625718616_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each buffer ends with in the first case, with the proof that the body runs: the inputs' buffers at their
    contents and handed back as they were, the output's buffer at any contents handed back untouched, the accumulators at
    anything and left with their pieces written. -/
noncomputable def kernelRun0_A (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) :
    Σ' (L4 : List (View.Piece (Elt F) S1x512 .f32)) (LS0 : List (View.Piece (Elt F) S512x1 .f32)) (LS1 : List (View.Piece (Elt F) S512x1 .f32)), { LS2 : List (View.Piece (Elt F) S512x1 .f32) //
      ∀ (xi4 : Vec F S1x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__rince_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__rince_kernel_eq_skeleton]; unfold cc0__rince_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.RunB.lean ====
/-
  The body at a point of the LAST column block (the reset branch not taken, the finishing branch taken): each
  accumulator is read at what the first column block left, stored with this block's row sums added, read back, and the
  rows' losses are computed from the three totals and the positives' exponentials and stored, transposed, into the
  output window. Run symbolically on whole staging memrefs; the pieces each buffer ends with are what the run finds.
-/
import proofs.«419252_j75419625718616_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each buffer ends with in the second case, with the proof that the body runs: the inputs' buffers at their
    contents and handed back as they were, the output's buffer at anything and left with its pieces written, the
    accumulators at the contents the point before left and left with their pieces written. -/
noncomputable def kernelRun0_B (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    Σ' (L4 : List (View.Piece (Elt F) S1x512 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__rince_kernel i arg2 harg2 arg3 harg3 arg4 harg4 arg5 harg5 arg6 harg6 arg7 harg7 arg8 harg8 arg9 harg9) K } := by
  refine ⟨?_, ?_, ?_, ?_, fun E K => ?run⟩
  case run =>
    simp only [cc0__rince_kernel_eq_skeleton]; unfold cc0__rince_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KI.Frame.lean ====
/-
  What the output window's staging buffer and the three accumulators hold after the body at each grid point — the
  case the point is in (first or last column block), run at the point's memrefs and input blocks, the last column
  block's run started from what the first left in the accumulators —, the proof data of the pipeline over it, the
  body obligation at a generic point, and the run of @main: every array of the pipeline at what the proof data
  computes, every other buffer as the lines after the region leave it. From it, the frame: the four argument arrays
  end as launched.
-/
import proofs.«419252_j75419625718616_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first column block nothing is stored into the output window: a placeholder nothing consults. -/
def out0_A_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S1x512 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

theorem scover0_A_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S512x1.size (by sl_kernel_rfl) y

/-- What this case leaves in accumulator 0: its pieces read back. -/
def sout0_A_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

theorem scover0_A_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S512x1.size (by sl_kernel_rfl) y

/-- What this case leaves in accumulator 1: its pieces read back. -/
def sout0_A_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

theorem scover0_A_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) (y : S512x1.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S512x1.size (by sl_kernel_rfl) y

/-- What this case leaves in accumulator 2: its pieces read back. -/
def sout0_A_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- At the last column block the one store covers the output window's block. -/
theorem cover0_B_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S1x512.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).1 S1x512.size (by sl_kernel_rfl) y

/-- What the last column block leaves in the output window's staging buffer: the rows' losses, as its pieces read back. -/
def out0_B_4 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S1x512 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

theorem scover0_B_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S512x1.size (by sl_kernel_rfl) y

/-- What this case leaves in accumulator 0: its pieces read back. -/
def sout0_B_0 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

theorem scover0_B_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S512x1.size (by sl_kernel_rfl) y

/-- What this case leaves in accumulator 1: its pieces read back. -/
def sout0_B_1 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

theorem scover0_B_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) (y : S512x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S512x1.size (by sl_kernel_rfl) y

/-- What this case leaves in accumulator 2: its pieces read back. -/
def sout0_B_2 (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-! ## What the buffers hold after each point -/

/-- The output window's buffer and the three accumulators after a point of the first column block. -/
def caseA (c : Dev nD) (t : Fin cfg0.N) (h0 : t.val % 2 = 0) : Vec F S1x512 .f32 × Vec F S512x1 .f32 × Vec F S512x1 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
   sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t))

/-- The same after a point of the last column block, the accumulators found at `p0 p1 p2`. -/
def caseB (c : Dev nD) (t : Fin cfg0.N) (h0 : ¬t.val % 2 = 0) (p0 p1 p2 : Vec F S512x1 .f32) : Vec F S1x512 .f32 × Vec F S512x1 .f32 × Vec F S512x1 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2,
   sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t) p0 p1 p2)

/-- THE ACCUMULATION: after the body at position `n`, the output window's buffer and the three accumulators; a point of the
    last column block starts from what the point before (the same row block's first column block) left. -/
def outsAt0 (c : Dev nD) : (n : ℕ) → n < cfg0.N → Vec F S1x512 .f32 × Vec F S512x1 .f32 × Vec F S512x1 .f32 × Vec F S512x1 .f32
  | 0, hn => caseA m c ⟨0, hn⟩ (Nat.zero_mod _)
  | n + 1, hn =>
    if h0 : (n + 1) % 2 = 0 then caseA m c ⟨n + 1, hn⟩ h0
    else caseB m c ⟨n + 1, hn⟩ h0 (outsAt0 c n (Nat.lt_of_succ_lt hn)).2.1 (outsAt0 c n (Nat.lt_of_succ_lt hn)).2.2.1 (outsAt0 c n (Nat.lt_of_succ_lt hn)).2.2.2

theorem outsAt0_A (c : Dev nD) (t : Fin cfg0.N) (h0 : t.val % 2 = 0) :
    outsAt0 m c t.val t.isLt = caseA m c t h0 := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = caseB m c t h0 (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-- The region invariant before position `n`: before the first point what the launch hands over (the accumulators at
    anything); afterwards the three accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The arrays as the region finds them; after the body at point `t` each input's buffer at its block and the output's at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' buffers hold their blocks; the point's parity says which case it is in; the
    invariant hands the body the accumulators at what the point before left (at anything at the very first point) and
    takes them back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 32 := lt_of_lt_of_eq t.isLt (show cfg0.N = 32 from N_0)
  by_cases h0 : t.val % 2 = 0
  · have hcA : cond0_0 (grid0.coords t) := (hcond0_0 t).mpr h0
    have hcA' : ¬cond0_1 (grid0.coords t) := fun h => by have := (hcond0_1 t).mp h; omega
    rw [Dat.leavesExact_idle (dats m 0 c) 4 t (idleAt0_4_A t hcA hcA') (noFlush0_4_A t hcA hcA')]
    rw [outsAt0_A m c t h0]
    unfold caseA; dsimp only
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ hcA hcA' (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ _ _ hcA hcA' (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          · unfold owns; iexists _; isplitr
            swap; · iexact HS2
            ipureintro; exact View.read_writes_of_cover _ _ _ _ _ (scover0_A_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hcB : ¬cond0_0 (grid0.coords t) := fun h => h0 ((hcond0_0 t).mp h)
    have hcB' : cond0_1 (grid0.coords t) := (hcond0_1 t).mpr (by omega)
    have hz : t.val ≠ 0 := fun h => h0 (by rw [h])
    rw [show (dats m 0 c).leavesExact 4 t = owns (c : Thread nD τ) (ms0_4 t) fullShare ((dats m 0 c).after 4 t) from by
      unfold Dat.leavesExact; rw [liveAt0_4_B t hcB hcB'], after0_4]
    rw [outsAt0_B m c t h0]
    unfold caseB; dsimp only
    unfold out0_B_4 sout0_B_0 sout0_B_1 sout0_B_2; (try dsimp only)
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ _ _ hcB hcB' (iblk m c 0 t) (iblk m c 1 t) (iblk m c 2 t) (iblk m c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_B_1 c _ _ _ _ _ _ _ _ _ _ _ _ _ _ _ _ _ _ _ _ _ _ _ _ _ _)
        · unfold owns; iexists _; isplitr
          swap; · iexact HS2
          ipureintro; exact View.read_writes_of_cover _ _ _ _ _ (scover0_B_2 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- From any memory with zero counters every weakly fair execution of @main terminates, every array of the pipeline at what
    the proof data computes and every other unscoped buffer as the four lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.KI.Blocks.lean ====
/-
  Each input window's block at a grid point, read at an index, is the window's array read at the shifted index: point t
  is at row block t / 2 and column block t mod 2; the similarity tensor's block is rows 512 (t / 2) … and columns
  4096 (t mod 2) …, the row classes' and the positives' blocks are rows 512 (t / 2) …, the column classes' block is
  columns 4096 (t mod 2) ….
-/
import proofs.«419252_j75419625718616_3_alg».proof.Proof.KI.Frame
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps over the 16 x 2 grid: the row block is t / 2, the column block t mod 2. -/
theorem idx_facts : ∀ t : Fin cfg0.N,
    win0_0.index t (0 : Fin 3) = 0 ∧ win0_0.index t (1 : Fin 3) = t.val / 2 ∧ win0_0.index t (2 : Fin 3) = t.val % 2
    ∧ win0_1.index t (0 : Fin 2) = t.val / 2 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = 0
    ∧ win0_4.index t (0 : Fin 2) = 0 ∧ win0_4.index t (1 : Fin 2) = t.val / 2 :=
  (by decide +kernel : ∀ t : Fin grid0.N, _)

/-- The four input blocks at a point, at their literal types. -/
abbrev xb0 (c : Dev nD) (t : Fin cfg0.N) : Vec F S1x512x4096 .f32 := iblk m c 0 t
abbrev xb1 (c : Dev nD) (t : Fin cfg0.N) : Vec F S512x1 .i32 := iblk m c 1 t
abbrev xb2 (c : Dev nD) (t : Fin cfg0.N) : Vec F S1x4096 .i32 := iblk m c 2 t
abbrev xb3 (c : Dev nD) (t : Fin cfg0.N) : Vec F S512x1 .f32 := iblk m c 3 t

/-- The four windows' arrays as the region finds them, at their literal types. -/
abbrev arrX (c : Dev nD) : Vec F S1x8192x8192 .f32 := V m c main_arg0
abbrev arrR (c : Dev nD) : Vec F S8192x1 .i32 := V m c main_v17
abbrev arrC (c : Dev nD) : Vec F S1x8192 .i32 := V m c main_v18
abbrev arrP (c : Dev nD) : Vec F S8192x1 .f32 := V m c main_v40

/-- The similarity block at point t is rows 512 (t / 2) … and columns 4096 (t mod 2) … of the tensor. -/
theorem xb0_apply (c : Dev nD) (t : Fin cfg0.N) (p : Fin 512) (q : Fin 4096) (r s : Fin 8192)
    (hr : r.val = 512 * (t.val / 2) + p.val) (hs : s.val = 4096 * (t.val % 2) + q.val) :
    xb0 m c t (ix3 (0 : Fin 1) p q) = arrX m c (ix3 (0 : Fin 1) r s) := by
  obtain ⟨e0, e1, e2, -⟩ := idx_facts t
  unfold xb0 arrX iblk
  rw [View.read_apply]
  show V m c main_arg0 _ = V m c main_arg0 _
  congr 1
  funext a
  apply Fin.ext
  match a with
  | ⟨0, _⟩ => show win0_0.index t (0 : Fin 3) * 1 + 1 * (0 : Fin 1).val = (0 : Fin 1).val; rw [e0]; rfl
  | ⟨1, _⟩ => show win0_0.index t (1 : Fin 3) * 512 + 1 * p.val = r.val; rw [e1, hr]; omega
  | ⟨2, _⟩ => show win0_0.index t (2 : Fin 3) * 4096 + 1 * q.val = s.val; rw [e2, hs]; omega

/-- The row classes' block at point t is rows 512 (t / 2) … of the column of row classes. -/
theorem xb1_apply (c : Dev nD) (t : Fin cfg0.N) (p : Fin 512) (r : Fin 8192)
    (hr : r.val = 512 * (t.val / 2) + p.val) :
    xb1 m c t (ix2 p (0 : Fin 1)) = arrR m c (ix2 r (0 : Fin 1)) := by
  obtain ⟨-, -, -, e0, e1, -⟩ := idx_facts t
  unfold xb1 arrR iblk
  rw [View.read_apply]
  show V m c main_v17 _ = V m c main_v17 _
  congr 1
  funext a
  apply Fin.ext
  match a with
  | ⟨0, _⟩ => show win0_1.index t (0 : Fin 2) * 512 + 1 * p.val = r.val; rw [e0, hr]; omega
  | ⟨1, _⟩ => show win0_1.index t (1 : Fin 2) * 1 + 1 * (0 : Fin 1).val = (0 : Fin 1).val; rw [e1]; rfl

/-- The column classes' block at point t is columns 4096 (t mod 2) … of the row of column classes. -/
theorem xb2_apply (c : Dev nD) (t : Fin cfg0.N) (q : Fin 4096) (s : Fin 8192)
    (hs : s.val = 4096 * (t.val % 2) + q.val) :
    xb2 m c t (ix2 (0 : Fin 1) q) = arrC m c (ix2 (0 : Fin 1) s) := by
  obtain ⟨-, -, -, -, -, e0, e1, -⟩ := idx_facts t
  unfold xb2 arrC iblk
  rw [View.read_apply]
  show V m c main_v18 _ = V m c main_v18 _
  congr 1
  funext a
  apply Fin.ext
  match a with
  | ⟨0, _⟩ => show win0_2.index t (0 : Fin 2) * 1 + 1 * (0 : Fin 1).val = (0 : Fin 1).val; rw [e0]; rfl
  | ⟨1, _⟩ => show win0_2.index t (1 : Fin 2) * 4096 + 1 * q.val = s.val; rw [e1, hs]; omega

/-- The positives' block at point t is rows 512 (t / 2) … of the column of positives. -/
theorem xb3_apply (c : Dev nD) (t : Fin cfg0.N) (p : Fin 512) (r : Fin 8192)
    (hr : r.val = 512 * (t.val / 2) + p.val) :
    xb3 m c t (ix2 p (0 : Fin 1)) = arrP m c (ix2 r (0 : Fin 1)) := by
  obtain ⟨-, -, -, -, -, -, -, e0, e1, -⟩ := idx_facts t
  unfold xb3 arrP iblk
  rw [View.read_apply]
  show V m c main_v40 _ = V m c main_v40 _
  congr 1
  funext a
  apply Fin.ext
  match a with
  | ⟨0, _⟩ => show win0_3.index t (0 : Fin 2) * 512 + 1 * p.val = r.val; rw [e0, hr]; omega
  | ⟨1, _⟩ => show win0_3.index t (1 : Fin 2) * 1 + 1 * (0 : Fin 1).val = (0 : Fin 1).val; rw [e1]; rfl

end Cert.KernelIdeal.Fr

end
-- ==== Proof.KI.Terms.lean ====
/-
  The two tensors the kernel program's host operations hand the region besides the similarity tensor, as functions
  of the argument contents, each the composition of the program's own operations in program order:
    rowCls a2 a3  the class of every row: the classes a2 repeated by the group sizes a3 up to 8192 rows (the sizes
                  rolled by one, their first entry zeroed, summed cumulatively into the groups' first rows; a one added
                  at each first row, summed cumulatively, minus one: the row's group; the class taken there);
    posExp x a1   the exponential of twice the entry x[0, row, a1(row)], both index columns wrapped when negative.
-/
import proofs.«419252_j75419625718616_3_alg».proof.Proof.Gen.KernelIdeal

noncomputable section

namespace Cert.KernelIdeal.Fr

open Cert.KernelIdeal Cert.KernelIdeal.Gen
open Idealize.ShloMosaic

variable {F : FTy → Type} [FloatOps F]

/-- The group sizes rolled by one place: the last first. -/
def rolled (a3 : IVec S128 32) : IVec S128 32 :=
  concatenate S128 0
    [⟨S1, extractStridedSlice S1 ![127] a3 slices_S128_S1_127⟩, ⟨S127, extractStridedSlice S127 ![0] a3 slices_S128_S127_0⟩]
    concatenates_S1_S127_S128_d0

/-- The groups' first rows: the rolled sizes with a zero written at place 0, summed cumulatively. -/
def starts (a3 : IVec S128 32) : IVec S128 32 :=
  Host.reduceWindow IntOp.addi ![128] ![1] ![127] ![0]
    (Host.scatter scatter_S128_S1_S__n_0_0_0 (fun _ b => b) (rolled a3)
      (broadcastInDim S1 ![] bcast_S_S1 (constantI S_ 32 0#32)) (constantI S_ 32 0#32))
    (broadcastInDim S_ ![] bcast_S_S_ (constantI S_ 32 0#32))
    reduceWindows_S128_S128_w128s1p127_0 h_S_

/-- The first rows wrapped when negative, as a column of scatter indices. -/
def startCol (a3 : IVec S128 32) : IVec S128x1 32 :=
  broadcastInDim S128x1 ![0] bcast_S128_S128x1_0
    (select (cmpi .slt (starts a3) (broadcastInDim S128 ![] bcast_S_S128 (constantI S_ 32 0#32)))
      (addi (starts a3) (broadcastInDim S128 ![] bcast_S_S128 (constantI S_ 32 8192#32)))
      (starts a3))

/-- Every row's group: a one added at each group's first row of a zero vector, summed cumulatively, minus one. -/
def groupOf (a3 : IVec S128 32) : IVec S8192 32 :=
  subi
    (Host.reduceWindow IntOp.addi ![8192] ![1] ![8191] ![0]
      (Host.scatter scatter_S8192_S128x1_S128_n_0_0_1 IntOp.addi
        (broadcastInDim S8192 ![] bcast_S_S8192 (constantI S_ 32 0#32)) (startCol a3)
        (broadcastInDim S128 ![] bcast_S_S128 (constantI S_ 32 1#32)))
      (broadcastInDim S_ ![] bcast_S_S_ (constantI S_ 32 0#32))
      reduceWindows_S8192_S8192_w8192s1p8191_0 h_S_)
    (broadcastInDim S8192 ![] bcast_S_S8192 (constantI S_ 32 1#32))

/-- The groups wrapped when negative, as a column of gather indices. -/
def groupCol (a3 : IVec S128 32) : IVec S8192x1 32 :=
  broadcastInDim S8192x1 ![0] bcast_S8192_S8192x1_0
    (select (cmpi .slt (groupOf a3) (broadcastInDim S8192 ![] bcast_S_S8192 (constantI S_ 32 0#32)))
      (addi (groupOf a3) (broadcastInDim S8192 ![] bcast_S_S8192 (constantI S_ 32 128#32)))
      (groupOf a3))

/-- The class of every row: the class of the row's group where the group is within 0 … 127, the fill value
    elsewhere. -/
def rowCls (a2 a3 : IVec S128 32) : IVec S8192 32 :=
  select
    (Host.reduce IntOp.andi
      (andi (cmpi .sge (groupCol a3) (broadcastInDim S8192x1 ![] bcast_S_S8192x1 (constantI S_ 32 0#32)))
        (cmpi .sle (groupCol a3)
          (broadcastInDim S8192x1 ![0, 1] bcast_S1x1_S8192x1_0_1
            (broadcastInDim S1x1 ![1] bcast_S1_S1x1_1 (constantI S1 32 127#32)))))
      (constantI S_ 1 1#1) reducesTo_S8192x1_S8192_d1 h_S_)
    (Host.gather gather_S128_S8192x1_S8192_n_0_n_n_0_1_1 a2 (groupCol a3))
    (broadcastInDim S8192 ![] bcast_S_S8192 (constantI S_ 32 2147483648#32))

/-- A vector of indices into 8192 places, 8192 added where negative. -/
def wrapped (a : IVec S8192 32) : IVec S8192 32 :=
  select (cmpi .slt a (broadcastInDim S8192 ![] bcast_S_S8192 (constantI S_ 32 0#32)))
    (addi a (broadcastInDim S8192 ![] bcast_S_S8192 (constantI S_ 32 8192#32))) a

/-- The (0, row, column) triples the positives are read at: a zero column, the rows' own numbers and a1, the last two
    wrapped. -/
def posIdx (a1 : IVec S8192 32) : IVec S8192x3 32 :=
  concatenate S8192x3 1
    [⟨S8192x1, broadcastInDim S8192x1 ![0] bcast_S8192_S8192x1_0 (broadcastInDim S8192 ![] bcast_S_S8192 (constantI S_ 32 0#32))⟩,
     ⟨S8192x1, broadcastInDim S8192x1 ![0] bcast_S8192_S8192x1_0 (wrapped (iotaInDim S8192 32 0))⟩,
     ⟨S8192x1, broadcastInDim S8192x1 ![0] bcast_S8192_S8192x1_0 (wrapped a1)⟩]
    concatenates_S8192x1_S8192x1_S8192x1_S8192x3_d1

/-- The positives' exponentials: exp(2 · x[0, row, a1(row)]). -/
def posExp (x : FVec F S1x8192x8192 .f32) (a1 : IVec S8192 32) : FVec F S8192 .f32 :=
  Host.exp (mulf (Host.gather gather_S1x8192x8192_S8192x3_S8192_n_012_n_n_012_1_111 x (posIdx a1))
    (broadcastInDim S8192 ![] bcast_S_S8192 (constant (F := F) S_ .f32 0x40000000#32)))

end Cert.KernelIdeal.Fr

end
-- ==== Proof.Spec.lean ====
/-
  The loss both programs compute, as one function of the similarity matrix x (an array [1, N, N], N = 8192), the
  rows' class labels and the positives' exponentials, over the extended reals:
    e(r,c)   = exp(2 x(0,r,c))                       the exponential at the first temperature, 1/0.5 = 2
    S(r)     = sum over c of e(r,c)
    P(r)     = sum over the columns c of r's class of e(r,c)
    Q(r)     = sum over the columns c of r's class of e(r,c)^2     (the exponential at the second temperature)
    loss(r)  = -log(pos(r) / (P(r) + (S(r) - pos(r)))) - log(Q(r) / (Q(r) + (S(r) - pos(r))))
    result   = (sum over r of loss(r)) / N.
  The kernel accumulates S, P, Q over two column blocks and finishes at the second; the reference sums whole rows.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx

/-- The similarity tensor's shape. -/
abbrev SX : Shape := ⟨3, ![1, 8192, 8192]⟩

/-- The f32 literal 2.0: the reciprocal of the first temperature. -/
abbrev two : EReal := Ideal.ofBits .f32 0x40000000#32
/-- The f32 literal 8192.0: the number of rows. -/
abbrev nRows : EReal := Ideal.ofBits .f32 0x46000000#32

/-- e(r,c) = exp(2 x(0,r,c)). -/
def e1 (x : SX.Idx → EReal) (r c : Fin 8192) : EReal := Ideal.exp (x (ix3 (0 : Fin 1) r c) * two)

/-- S(r): the whole row's sum of exponentials. -/
def sumE (x : SX.Idx → EReal) (r : Fin 8192) : EReal := ∑ c : Fin 8192, e1 x r c

/-- P(r): the sum over the columns of r's class. -/
def sumP (x : SX.Idx → EReal) (cls : Fin 8192 → BitVec 32) (r : Fin 8192) : EReal :=
  ∑ c : Fin 8192, if cls r = cls c then e1 x r c else 0

/-- Q(r): the sum of the squared exponentials over the columns of r's class. -/
def sumQ (x : SX.Idx → EReal) (cls : Fin 8192 → BitVec 32) (r : Fin 8192) : EReal :=
  ∑ c : Fin 8192, if cls r = cls c then e1 x r c * e1 x r c else 0

/-- One row's loss from its three sums and its positive's exponential. -/
def lossOf (s p q pos : EReal) : EReal :=
  (0 - Ideal.log (Ideal.div pos (p + (s - pos)))) + (0 - Ideal.log (Ideal.div q (q + (s - pos))))

/-- loss(r). -/
def rowLoss (x : SX.Idx → EReal) (cls : Fin 8192 → BitVec 32) (pos : Fin 8192 → EReal) (r : Fin 8192) : EReal :=
  lossOf (sumE x r) (sumP x cls r) (sumQ x cls r) (pos r)

/-- The mean of the rows' losses. -/
def mean (x : SX.Idx → EReal) (cls : Fin 8192 → BitVec 32) (pos : Fin 8192 → EReal) : EReal :=
  Ideal.div (∑ r : Fin 8192, rowLoss x cls pos r) nRows

end Cert.Spec

end
-- ==== Proof.KI.Pieces.lean ====
/-
  What the run of the body found, as terms over the body's arithmetic: at a point of the first column block each
  accumulator ends at zero plus the block's row sums; at a point of the last column block each ends at what it held
  plus the block's row sums, and the output window's buffer at the rows' losses computed from those totals. Then the
  same along the grid: after an even point the accumulators hold the first block's sums, after an odd point the
  output's buffer holds the losses of the two blocks' sums.
-/
import proofs.«419252_j75419625718616_3_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of the whole-block rectangle, however spelt, are zero. -/
theorem hz2 : (![0, 0] : Fin 2 → Nat) = fun _ => 0 := funext fun a => by fin_cases a <;> rfl

theorem hz3 : (![0, 0, 0] : Fin 3 → Nat) = fun _ => 0 := funext fun a => by fin_cases a <;> rfl

/-! ## The pieces of the first case -/

theorem sout0_A_0_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) :
    sout0_A_0 c i arg2 harg2 arg3 harg3 arg4 harg4 arg5 harg5 arg6 harg6 arg7 harg7 arg8 harg8 arg9 harg9 hc0 hc1 x0 x1 x2 x3 = k0_pay7 x0 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, View.ld_unit_zero (S := S1x512x4096) hz3, View.readCov_unit_zero (S := S512x1) _ hz2]

theorem sout0_A_1_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) :
    sout0_A_1 c i arg2 harg2 arg3 harg3 arg4 harg4 arg5 harg5 arg6 harg6 arg7 harg7 arg8 harg8 arg9 harg9 hc0 hc1 x0 x1 x2 x3 = k0_pay9 x0 x1 x2 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, View.ld_unit_zero (S := S1x512x4096) hz3, View.ld_unit_zero (S := S512x1) hz2, View.ld_unit_zero (S := S1x4096) hz2, View.readCov_unit_zero (S := S512x1) _ hz2]

theorem sout0_A_2_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S1x512x4096 .f32) (x1 : Vec F S512x1 .i32) (x2 : Vec F S1x4096 .i32) (x3 : Vec F S512x1 .f32) :
    sout0_A_2 c i arg2 harg2 arg3 harg3 arg4 harg4 arg5 harg5 arg6 harg6 arg7 harg7 arg8 harg8 arg9 harg9 hc0 hc1 x0 x1 x2 x3 = k0_pay1 (k0_pay6 x0) (k0_pay8 x0 x1 x2) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz2]
  simp only [View.readAt_eq_ld, harg2.read_unread, harg3.read_unread, harg4.read_unread, View.ld_unit_zero (S := S1x512x4096) hz3, View.ld_unit_zero (S := S512x1) hz2, View.ld_unit_zero (S := S1x4096) hz2, View.readCov_unit_zero (S := S512x1) _ hz2]

/-! ## The pieces of the last case -/

theorem sout0_B_0_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 arg9 harg9 hc0 hc1 x0 x1 x2 x3 xs0 xs1 xs2 = k0_pay7 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  dsimp only
  rw [View.canon_unit_zero (S := S512x1) hz2]
  simp only [View.readAt_eq_ld, harg2.read_unread, harg7.read_unread, View.ld_unit_zero (S := S1x512x4096) hz3, View.ld_unit_zero (S := S512x1) hz2]

theorem sout0_B_1_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 arg9 harg9 hc0 hc1 x0 x1 x2 x3 xs0 xs1 xs2 = k0_pay9 x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  dsimp only
  rw [View.canon_unit_zero (S := S512x1) hz2]
  simp only [View.readAt_eq_ld, harg2.read_unread, harg3.read_unread, harg4.read_unread, harg8.read_unread, View.ld_unit_zero (S := S1x512x4096) hz3, View.ld_unit_zero (S := S1x4096) hz2, View.ld_unit_zero (S := S512x1) hz2]

theorem sout0_B_2_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 arg9 harg9 hc0 hc1 x0 x1 x2 x3 xs0 xs1 xs2 = k0_pay1 (k0_pay6 x0) (k0_pay8 x0 x1 x2) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  dsimp only
  rw [View.canon_unit_zero (S := S512x1) hz2]
  simp only [View.readAt_eq_ld, harg2.read_unread, harg3.read_unread, harg4.read_unread, harg9.read_unread, View.ld_unit_zero (S := S1x512x4096) hz3, View.ld_unit_zero (S := S1x4096) hz2, View.ld_unit_zero (S := S512x1) hz2]

/-- The finishing branch reads the accumulators after this point's updates. -/
theorem out0_B_4_eq (c : Dev nD) (i : grid0.Coords) (arg2 : Memref sig .tc .vmem S1x512x4096 .f32) (harg2 : arg2.IsWhole) (arg3 : Memref sig .tc .vmem S512x1 .i32) (harg3 : arg3.IsWhole) (arg4 : Memref sig .tc .vmem S1x4096 .i32) (harg4 : arg4.IsWhole) (arg5 : Memref sig .tc .vmem S512x1 .f32) (harg5 : arg5.IsWhole) (arg6 : Memref sig .tc .vmem S1x512 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S1x512x4096 .f32) (x1 : Vec F S512x1 .i32) (x2 : Vec F S1x4096 .i32) (x3 : Vec F S512x1 .f32) (xs0 : Vec F S512x1 .f32) (xs1 : Vec F S512x1 .f32) (xs2 : Vec F S512x1 .f32) :
    out0_B_4 c i arg2 harg2 arg3 harg3 arg4 harg4 arg5 harg5 arg6 harg6 arg7 harg7 arg8 harg8 arg9 harg9 hc0 hc1 x0 x1 x2 x3 xs0 xs1 xs2
      = k0_pay2 x3 (k0_pay7 x0 xs0) (k0_pay9 x0 x1 x2 xs1) (k0_pay1 (k0_pay6 x0) (k0_pay8 x0 x1 x2) xs2) (k0_pay1 (k0_pay6 x0) (k0_pay8 x0 x1 x2) xs2) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  dsimp only
  rw [View.canon_unit_zero (S := S1x512) hz2]
  simp only [View.readAt_eq_ld, harg2.read_unread, harg3.read_unread, harg4.read_unread, harg5.read_unread, harg7.read_unread, harg8.read_unread, harg9.read_unread, View.ld_unit_zero (S := S1x512x4096) hz3, View.ld_unit_zero (S := S1x4096) hz2, View.ld_unit_zero (S := S512x1) hz2, View.readCov_unit_zero (S := S512x1) _ hz2]

/-! ## Along the grid -/

/-- The input blocks of a point, at their literal types. -/
abbrev blk0 (c : Dev nD) (t : Fin cfg0.N) : Vec F S1x512x4096 .f32 := iblk m c 0 t
abbrev blk1 (c : Dev nD) (t : Fin cfg0.N) : Vec F S512x1 .i32 := iblk m c 1 t
abbrev blk2 (c : Dev nD) (t : Fin cfg0.N) : Vec F S1x4096 .i32 := iblk m c 2 t
abbrev blk3 (c : Dev nD) (t : Fin cfg0.N) : Vec F S512x1 .f32 := iblk m c 3 t

theorem outsAt0_congr (c : Dev nD) (n n' : ℕ) (h : n < cfg0.N) (h' : n' < cfg0.N) (e : n = n') :
    outsAt0 m c n h = outsAt0 m c n' h' := by
  subst e; rfl

/-- After a point of the first column block the accumulators hold zero plus the block's row sums. -/
theorem outsAt0_even (c : Dev nD) (t : Fin cfg0.N) (h0 : t.val % 2 = 0) :
    (outsAt0 m c t.val t.isLt).2.1 = k0_pay7 (blk0 m c t) (k0_pay3 (F := F))
    ∧ (outsAt0 m c t.val t.isLt).2.2.1 = k0_pay9 (blk0 m c t) (blk1 m c t) (blk2 m c t) (k0_pay4 (F := F))
    ∧ (outsAt0 m c t.val t.isLt).2.2.2 = k0_pay1 (k0_pay6 (blk0 m c t)) (k0_pay8 (blk0 m c t) (blk1 m c t) (blk2 m c t)) (k0_pay5 (F := F)) := by
  rw [outsAt0_A m c t h0]
  unfold caseA
  dsimp only
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => by have := (hcond0_1 t).mp h; omega) (iblk m c 0 t) (iblk m c 1 t) (iblk m c 2 t) (iblk m c 3 t)⟩

/-- After a point of the last column block the output window's buffer holds the rows' losses, computed from the two
    column blocks' row sums added in order onto zero. -/
theorem outsAt0_odd (c : Dev nD) (t : Fin cfg0.N) (h0 : ¬t.val % 2 = 0) (t' : Fin cfg0.N) (ht' : t'.val = t.val - 1) :
    (outsAt0 m c t.val t.isLt).1
      = k0_pay2 (blk3 m c t)
          (k0_pay7 (blk0 m c t) (k0_pay7 (blk0 m c t') (k0_pay3 (F := F))))
          (k0_pay9 (blk0 m c t) (blk1 m c t) (blk2 m c t) (k0_pay9 (blk0 m c t') (blk1 m c t') (blk2 m c t') (k0_pay4 (F := F))))
          (k0_pay1 (k0_pay6 (blk0 m c t)) (k0_pay8 (blk0 m c t) (blk1 m c t) (blk2 m c t)) (k0_pay1 (k0_pay6 (blk0 m c t')) (k0_pay8 (blk0 m c t') (blk1 m c t') (blk2 m c t')) (k0_pay5 (F := F))))
          (k0_pay1 (k0_pay6 (blk0 m c t)) (k0_pay8 (blk0 m c t) (blk1 m c t) (blk2 m c t)) (k0_pay1 (k0_pay6 (blk0 m c t')) (k0_pay8 (blk0 m c t') (blk1 m c t') (blk2 m c t')) (k0_pay5 (F := F)))) := by
  have ht'0 : t'.val % 2 = 0 := by omega
  obtain ⟨e0, e1, e2⟩ := outsAt0_even m c t' ht'0
  have hc : outsAt0 m c (t.val - 1) (Nat.lt_of_le_of_lt (Nat.sub_le _ _) t.isLt) = outsAt0 m c t'.val t'.isLt :=
    outsAt0_congr m c (t.val - 1) t'.val (Nat.lt_of_le_of_lt (Nat.sub_le _ _) t.isLt) t'.isLt ht'.symm
  rw [outsAt0_B m c t h0, hc]
  unfold caseB
  dsimp only
  rw [e0, e1, e2]
  exact out0_B_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr (by omega)) (iblk m c 0 t) (iblk m c 1 t) (iblk m c 2 t) (iblk m c 3 t)
    (k0_pay7 (blk0 m c t') (k0_pay3 (F := F)))
    (k0_pay9 (blk0 m c t') (blk1 m c t') (blk2 m c t') (k0_pay4 (F := F)))
    (k0_pay1 (k0_pay6 (blk0 m c t')) (k0_pay8 (blk0 m c t') (blk1 m c t') (blk2 m c t')) (k0_pay5 (F := F)))

end Cert.KernelIdeal.Fr

end
-- ==== Proof.KI.Payloads.lean ====
/-
  The kernel body's payloads read at one index over the extended reals: each accumulator's new column is the old column
  plus one block's row sum (of the exponentials, of the exponentials at the columns of the row's class, of their squares),
  and the finishing payload at a row is that row's loss from its three sums and its positive's exponential.
-/
import proofs.«419252_j75419625718616_3_alg».proof.Proof.Gen.KernelIdeal.Skeleton
import proofs.«419252_j75419625718616_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.KernelIdeal.Fr

open Cert.KernelIdeal Cert.KernelIdeal.Gen Cert.Spec
open Idealize.ShloMosaic Idealize.ShloMosaic.ValueIdx

/-- One block's row sum of the exponentials. -/
def bS (x0 : Vec Ideal S1x512x4096 .f32) (p : Fin 512) : EReal :=
  ∑ q : Fin 4096, Ideal.exp (x0 (ix3 (0 : Fin 1) p q) * Cert.Spec.two)

/-- One block's row sum of the exponentials over the columns of the row's class. -/
def bP (x0 : Vec Ideal S1x512x4096 .f32) (r1 : Vec Ideal S512x1 .i32) (c2 : Vec Ideal S1x4096 .i32) (p : Fin 512) : EReal :=
  ∑ q : Fin 4096, if r1 (ix2 p (0 : Fin 1)) = c2 (ix2 (0 : Fin 1) q)
    then Ideal.exp (x0 (ix3 (0 : Fin 1) p q) * Cert.Spec.two) else 0

/-- One block's row sum of the squared exponentials over the columns of the row's class. -/
def bQ (x0 : Vec Ideal S1x512x4096 .f32) (r1 : Vec Ideal S512x1 .i32) (c2 : Vec Ideal S1x4096 .i32) (p : Fin 512) : EReal :=
  ∑ q : Fin 4096, if r1 (ix2 p (0 : Fin 1)) = c2 (ix2 (0 : Fin 1) q)
    then Ideal.exp (x0 (ix3 (0 : Fin 1) p q) * Cert.Spec.two) * Ideal.exp (x0 (ix3 (0 : Fin 1) p q) * Cert.Spec.two) else 0

/-! ## The layout operations of the body read at an index -/

/-- A `[512]` array cast to `[512, 1]` reads, at `(p, u)`, the operand at `p`. -/
theorem cast_col {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[512, 1]` column broadcast to `[512, 4096]` reads, at `(p, q)`, the column at `p`. -/
theorem bcast_col {α : Type} (v : S512x1.Idx → α) (h : S512x1.Broadcasts S512x4096) (p : Fin 512) (q : Fin 4096) :
    broadcastTo S512x4096 v h (ix2 p q) = v (ix2 p (0 : Fin 1)) := by
  refine broadcastTo_apply v h (ix2 p q) (ix2 p (0 : Fin 1)) fun ax => ?_
  match ax with
  | ⟨0, _⟩ =>
    exact (if_neg (show ¬ ((512 : ℕ) = 1) by decide)).symm
  | ⟨1, _⟩ => rfl

/-- The sum over the lanes of a `[512, 4096]` array, read at row `p`, is the sum of that row. -/
theorem lane_sum (src : FVec Ideal S512x4096 .f32) (h : S512x4096.Reduces [1] S512) (hφ : FKind.Formats .f32)
    (hacc : (0x00000000#32 : BitVec 32) = FKind.add.neutral .f32 hφ) (p : Fin 512) :
    multiReduction (F := Ideal) .add [1] S512 src 0x00000000#32 h hφ hacc (ix1 p) = ∑ q : Fin 4096, src (ix2 p q) := by
  refine (Ideal.multiReduction_add_single src 0x00000000#32 h hφ hacc (ix1 p)).trans ?_
  show ∑ q : Fin 4096, src (h.lift (ix1 p) q) = ∑ q : Fin 4096, src (ix2 p q)
  refine Finset.sum_congr rfl fun q _ => congrArg src ?_
  funext c
  match c with
  | ⟨0, _⟩ => exact Fin.ext rfl
  | ⟨1, _⟩ => exact Fin.ext rfl

/-! ## The exponentials and the masked exponentials -/

/-- The exponential payload at `(p, q)`. -/
theorem pay6_apply (x0 : Vec Ideal S1x512x4096 .f32) (p : Fin 512) (q : Fin 4096) :
    k0_pay6 (F := Ideal) x0 (ix2 p q) = Ideal.exp (x0 (ix3 (0 : Fin 1) p q) * Cert.Spec.two) := by
  unfold k0_pay6
  show Ideal.exp (shapeCast S512x4096 x0 _ (ix2 p q) * Ideal.ofBits .f32 0x40000000#32) = _
  rw [shapeCast_1ab_ab_apply]

/-- A select on the equality of two words is the `if` on that equality. -/
theorem select_cmpi_eq {α : Type} (a b : BitVec 32) (X Y : α) :
    Scalar.select (IntOp.cmpi .eq a b) X Y = if a = b then X else Y := by
  by_cases h : a = b
  · subst h
    simp [Scalar.select, IntOp.cmpi]
  · simp [Scalar.select, IntOp.cmpi, beq_eq_false_iff_ne.mpr h, h]

/-- The masked exponential payload at `(p, q)`. -/
theorem pay8_apply (x0 : Vec Ideal S1x512x4096 .f32) (r1 : Vec Ideal S512x1 .i32) (c2 : Vec Ideal S1x4096 .i32)
    (p : Fin 512) (q : Fin 4096) :
    k0_pay8 (F := Ideal) x0 r1 c2 (ix2 p q)
      = if r1 (ix2 p (0 : Fin 1)) = c2 (ix2 (0 : Fin 1) q) then Ideal.exp (x0 (ix3 (0 : Fin 1) p q) * Cert.Spec.two) else 0 := by
  unfold k0_pay8
  show Scalar.select (IntOp.cmpi .eq (broadcastTo S512x4096 (shapeCast S512x1 r1 _) _ (ix2 p q))
      (broadcastTo S512x4096 (shapeCast S1x4096 c2 _) _ (ix2 p q))) (k0_pay6 (F := Ideal) x0 (ix2 p q)) (Ideal.ofBits .f32 0x00000000#32) = _
  rw [bcast_col, broadcastTo_1b_ab_apply, shapeCast_self, shapeCast_self, pay6_apply, Ideal.ofBits_zero_f32]
  exact select_cmpi_eq _ _ _ _

/-! ## The payloads the body stores -/

theorem pay3_apply (y : S512x1.Idx) : k0_pay3 (F := Ideal) y = 0 := by
  unfold k0_pay3
  show shapeCast S512x1 (broadcast S512x1 (Ideal.ofBits .f32 0x00000000#32)) _ y = 0
  rw [shapeCast_self]
  exact Ideal.ofBits_zero_f32

theorem pay4_apply (y : S512x1.Idx) : k0_pay4 (F := Ideal) y = 0 := by
  unfold k0_pay4
  show shapeCast S512x1 (broadcast S512x1 (Ideal.ofBits .f32 0x00000000#32)) _ y = 0
  rw [shapeCast_self]
  exact Ideal.ofBits_zero_f32

theorem pay5_apply (y : S512x1.Idx) : k0_pay5 (F := Ideal) y = 0 := by
  unfold k0_pay5
  show shapeCast S512x1 (broadcast S512x1 (Ideal.ofBits .f32 0x00000000#32)) _ y = 0
  rw [shapeCast_self]
  exact Ideal.ofBits_zero_f32

/-- An accumulator's new column: the old column plus the row sums of a `[512, 4096]` array. -/
theorem acc_apply (src : FVec Ideal S512x4096 .f32) (s : Vec Ideal S512x1 .f32) (h1 : S512x4096.Reduces [1] S512)
    (hφ : FKind.Formats .f32) (hacc : (0x00000000#32 : BitVec 32) = FKind.add.neutral .f32 hφ)
    (h2 : S512.ShapeCasts S512x1) (h3 : S512x1.ShapeCasts S512x1) (p : Fin 512) :
    shapeCast S512x1 (addf s (shapeCast S512x1 (multiReduction (F := Ideal) .add [1] S512 src 0x00000000#32 h1 hφ hacc) h2)) h3
        (ix2 p (0 : Fin 1))
      = s (ix2 p (0 : Fin 1)) + ∑ q : Fin 4096, src (ix2 p q) := by
  rw [shapeCast_self]
  show s (ix2 p (0 : Fin 1)) + shapeCast S512x1 _ h2 (ix2 p (0 : Fin 1)) = _
  rw [cast_col, lane_sum]

theorem pay7_apply (x0 : Vec Ideal S1x512x4096 .f32) (s : Vec Ideal S512x1 .f32) (p : Fin 512) :
    k0_pay7 (F := Ideal) x0 s (ix2 p (0 : Fin 1)) = s (ix2 p (0 : Fin 1)) + bS x0 p := by
  unfold k0_pay7 bS
  refine (acc_apply (k0_pay6 x0) s _ _ _ _ _ p).trans ?_
  exact congrArg _ (Finset.sum_congr rfl fun q _ => pay6_apply x0 p q)

theorem pay9_apply (x0 : Vec Ideal S1x512x4096 .f32) (r1 : Vec Ideal S512x1 .i32) (c2 : Vec Ideal S1x4096 .i32)
    (s : Vec Ideal S512x1 .f32) (p : Fin 512) :
    k0_pay9 (F := Ideal) x0 r1 c2 s (ix2 p (0 : Fin 1)) = s (ix2 p (0 : Fin 1)) + bP x0 r1 c2 p := by
  unfold k0_pay9 bP
  refine (acc_apply (k0_pay8 x0 r1 c2) s _ _ _ _ _ p).trans ?_
  exact congrArg _ (Finset.sum_congr rfl fun q _ => pay8_apply x0 r1 c2 p q)

theorem pay1_apply (x0 : Vec Ideal S1x512x4096 .f32) (r1 : Vec Ideal S512x1 .i32) (c2 : Vec Ideal S1x4096 .i32)
    (s : Vec Ideal S512x1 .f32) (p : Fin 512) :
    k0_pay1 (F := Ideal) (k0_pay6 x0) (k0_pay8 x0 r1 c2) s (ix2 p (0 : Fin 1)) = s (ix2 p (0 : Fin 1)) + bQ x0 r1 c2 p := by
  unfold k0_pay1 bQ
  refine (acc_apply (mulf (k0_pay8 x0 r1 c2) (k0_pay6 x0)) s _ _ _ _ _ p).trans ?_
  refine congrArg _ (Finset.sum_congr rfl fun q _ => ?_)
  rw [mulf_apply, pay8_apply, pay6_apply, ite_mul, zero_mul]

theorem pay2_apply (pos s0 s1 s2 : Vec Ideal S512x1 .f32) (p : Fin 512) :
    k0_pay2 (F := Ideal) pos s0 s1 s2 s2 (ix2 (0 : Fin 1) p)
      = Cert.Spec.lossOf (s0 (ix2 p (0 : Fin 1))) (s1 (ix2 p (0 : Fin 1))) (s2 (ix2 p (0 : Fin 1))) (pos (ix2 p (0 : Fin 1))) := by
  unfold k0_pay2
  refine (transpose_ix2_apply _ _ (0 : Fin 1) p).trans ?_
  rw [shapeCast_self]
  show Ideal.ofBits .f32 0x00000000#32 - Ideal.log (Ideal.div (pos (ix2 p (0 : Fin 1))) (s1 (ix2 p (0 : Fin 1)) + (s0 (ix2 p (0 : Fin 1)) - pos (ix2 p (0 : Fin 1)))))
      + (Ideal.ofBits .f32 0x00000000#32 - Ideal.log (Ideal.div (s2 (ix2 p (0 : Fin 1))) (s2 (ix2 p (0 : Fin 1)) + (s0 (ix2 p (0 : Fin 1)) - pos (ix2 p (0 : Fin 1)))))) = _
  rw [Ideal.ofBits_zero_f32]
  rfl

theorem sum_two_blocks (f : Fin 8192 → EReal) :
    (∑ q : Fin 4096, f ⟨q.val, by omega⟩) + (∑ q : Fin 4096, f ⟨4096 + q.val, by omega⟩) = ∑ c : Fin 8192, f c :=
  (Fin.sum_univ_add (a := 4096) (b := 4096) f).symm

end Cert.KernelIdeal.Fr

end
-- ==== Proof.KI.Prefix.lean ====
/-
  What three of the region's input arrays hold when the region is entered, as terms of the launch contents of the
  four arguments: the row classes as a column and as a row, and the positives' exponentials as a column — the host
  operations before the region folded over the launch memory and read at those three buffers.
-/
import proofs.«419252_j75419625718616_3_alg».proof.Proof.KI.Kit
import proofs.«419252_j75419625718616_3_alg».proof.Proof.KI.Terms

set_option maxRecDepth 16384

noncomputable section

namespace Cert.KernelIdeal.Fr

open Cert.KernelIdeal Cert.KernelIdeal.Gen
open Idealize.ShloMosaic Idealize.ShloMosaic.TcCoe Idealize.ShloMosaic.StableHlo
open Idealize.SL.Sem

variable {F : FTy → Type} [FloatOps F]

/-! ## One stretch of host operations over any contents

Each of the eight stretches before the region, folded over ANY contents `W`, read at the buffer the next one needs. -/

set_option maxHeartbeats 4000000 in
attribute [local irreducible] Host.reduce Host.gather Host.scatter Host.reduceWindow concatenate in
/-- The first stretch leaves the rolled sizes. -/
theorem k0_v0 (W : Valuation τ sig (Elt F)) :
    (after hostOps0 W (Proc.devRef .tc main_v0) : IVec S128 32) = rolled (W (Proc.devRef .tc main_arg3) : IVec S128 32) := by
  simp only [after_cons, after_nil]
  rfl
set_option maxHeartbeats 4000000 in
attribute [local irreducible] Host.reduce Host.gather Host.scatter Host.reduceWindow concatenate in
/-- The second writes a zero at place 0. -/
theorem k1_v2 (W : Valuation τ sig (Elt F)) :
    (after hostOps0_1 W (Proc.devRef .tc main_v2) : IVec S128 32) = Host.scatter scatter_S128_S1_S__n_0_0_0 (fun _ b => b) (W (Proc.devRef .tc main_v0) : IVec S128 32) (broadcastInDim S1 ![] bcast_S_S1 (constantI S_ 32 0#32)) (constantI S_ 32 0#32) := by
  simp only [after_cons, after_nil]
  rfl
set_option maxHeartbeats 4000000 in
attribute [local irreducible] Host.reduce Host.gather Host.scatter Host.reduceWindow concatenate in
/-- The third sums cumulatively. -/
theorem k2_v3 (W : Valuation τ sig (Elt F)) :
    (after hostOps0_2 W (Proc.devRef .tc main_v3) : IVec S128 32) = Host.reduceWindow IntOp.addi ![128] ![1] ![127] ![0] (W (Proc.devRef .tc main_v2) : IVec S128 32) (broadcastInDim S_ ![] bcast_S_S_ (constantI S_ 32 0#32)) reduceWindows_S128_S128_w128s1p127_0 h_S_ := by
  simp only [after_cons, after_nil]
  rfl
set_option maxHeartbeats 4000000 in
attribute [local irreducible] Host.reduce Host.gather Host.scatter Host.reduceWindow concatenate in
/-- The fourth adds a one at each wrapped first row. -/
theorem k3_v12 (W : Valuation τ sig (Elt F)) :
    (after hostOps0_3 W (Proc.devRef .tc main_v12) : IVec S8192 32) = Host.scatter scatter_S8192_S128x1_S128_n_0_0_1 IntOp.addi (broadcastInDim S8192 ![] bcast_S_S8192 (constantI S_ 32 0#32)) (broadcastInDim S128x1 ![0] bcast_S128_S128x1_0 (select (cmpi .slt (W (Proc.devRef .tc main_v3) : IVec S128 32) (broadcastInDim S128 ![] bcast_S_S128 (constantI S_ 32 0#32))) (addi (W (Proc.devRef .tc main_v3) : IVec S128 32) (broadcastInDim S128 ![] bcast_S_S128 (constantI S_ 32 8192#32))) (W (Proc.devRef .tc main_v3) : IVec S128 32))) (broadcastInDim S128 ![] bcast_S_S128 (constantI S_ 32 1#32)) := by
  simp only [after_cons, after_nil]
  rfl
set_option maxHeartbeats 4000000 in
attribute [local irreducible] Host.reduce Host.gather Host.scatter Host.reduceWindow concatenate in
/-- The fifth sums cumulatively. -/
theorem k4_v13 (W : Valuation τ sig (Elt F)) :
    (after hostOps0_4 W (Proc.devRef .tc main_v13) : IVec S8192 32) = Host.reduceWindow IntOp.addi ![8192] ![1] ![8191] ![0] (W (Proc.devRef .tc main_v12) : IVec S8192 32) (broadcastInDim S_ ![] bcast_S_S_ (constantI S_ 32 0#32)) reduceWindows_S8192_S8192_w8192s1p8191_0 h_S_ := by
  simp only [after_cons, after_nil]
  rfl
set_option maxHeartbeats 4000000 in
attribute [local irreducible] Host.reduce Host.gather Host.scatter Host.reduceWindow concatenate in
/-- The sixth subtracts one. -/
theorem k5_v15 (W : Valuation τ sig (Elt F)) :
    (after hostOps0_5 W (Proc.devRef .tc main_v15) : IVec S8192 32) = subi (W (Proc.devRef .tc main_v13) : IVec S8192 32) (broadcastInDim S8192 ![] bcast_S_S8192 (constantI S_ 32 1#32)) := by
  simp only [after_cons, after_nil]
  rfl
set_option maxHeartbeats 4000000 in
attribute [local irreducible] Host.reduce Host.gather Host.scatter Host.reduceWindow concatenate in
/-- The seventh takes the class at each row's wrapped group. -/
theorem k6_v16 (W : Valuation τ sig (Elt F)) :
    (after hostOps0_6 W (Proc.devRef .tc main_v16) : IVec S8192 32) = select
      (Host.reduce IntOp.andi
        (andi (cmpi .sge (broadcastInDim S8192x1 ![0] bcast_S8192_S8192x1_0 (select (cmpi .slt (W (Proc.devRef .tc main_v15) : IVec S8192 32) (broadcastInDim S8192 ![] bcast_S_S8192 (constantI S_ 32 0#32))) (addi (W (Proc.devRef .tc main_v15) : IVec S8192 32) (broadcastInDim S8192 ![] bcast_S_S8192 (constantI S_ 32 128#32))) (W (Proc.devRef .tc main_v15) : IVec S8192 32))) (broadcastInDim S8192x1 ![] bcast_S_S8192x1 (constantI S_ 32 0#32)))
          (cmpi .sle (broadcastInDim S8192x1 ![0] bcast_S8192_S8192x1_0 (select (cmpi .slt (W (Proc.devRef .tc main_v15) : IVec S8192 32) (broadcastInDim S8192 ![] bcast_S_S8192 (constantI S_ 32 0#32))) (addi (W (Proc.devRef .tc main_v15) : IVec S8192 32) (broadcastInDim S8192 ![] bcast_S_S8192 (constantI S_ 32 128#32))) (W (Proc.devRef .tc main_v15) : IVec S8192 32)))
            (broadcastInDim S8192x1 ![0, 1] bcast_S1x1_S8192x1_0_1 (broadcastInDim S1x1 ![1] bcast_S1_S1x1_1 (constantI S1 32 127#32)))))
        (constantI S_ 1 1#1) reducesTo_S8192x1_S8192_d1 h_S_)
      (Host.gather gather_S128_S8192x1_S8192_n_0_n_n_0_1_1 (W (Proc.devRef .tc main_arg2) : IVec S128 32) (broadcastInDim S8192x1 ![0] bcast_S8192_S8192x1_0 (select (cmpi .slt (W (Proc.devRef .tc main_v15) : IVec S8192 32) (broadcastInDim S8192 ![] bcast_S_S8192 (constantI S_ 32 0#32))) (addi (W (Proc.devRef .tc main_v15) : IVec S8192 32) (broadcastInDim S8192 ![] bcast_S_S8192 (constantI S_ 32 128#32))) (W (Proc.devRef .tc main_v15) : IVec S8192 32))))
      (broadcastInDim S8192 ![] bcast_S_S8192 (constantI S_ 32 2147483648#32)) := by
  simp only [after_cons, after_nil]
  rfl
set_option maxHeartbeats 4000000 in
attribute [local irreducible] Host.reduce Host.gather Host.scatter Host.reduceWindow concatenate in
/-- The last stretch reshapes the classes to a column, -/
theorem k7_v17 (W : Valuation τ sig (Elt F)) :
    (after hostOps0_7 W (Proc.devRef .tc main_v17) : IVec S8192x1 32) = shapeCast S8192x1 (W (Proc.devRef .tc main_v16) : IVec S8192 32) shapeCasts_S8192_S8192x1 := by
  simp only [after_cons, after_nil]
  rfl
set_option maxHeartbeats 4000000 in
attribute [local irreducible] Host.reduce Host.gather Host.scatter Host.reduceWindow concatenate in
/-- to a row, -/
theorem k7_v18 (W : Valuation τ sig (Elt F)) :
    (after hostOps0_7 W (Proc.devRef .tc main_v18) : IVec S1x8192 32) = shapeCast S1x8192 (W (Proc.devRef .tc main_v16) : IVec S8192 32) shapeCasts_S8192_S1x8192 := by
  simp only [after_cons, after_nil]
  rfl
set_option maxHeartbeats 4000000 in
attribute [local irreducible] Host.reduce Host.gather Host.scatter Host.reduceWindow concatenate in
/-- and computes the positives' exponentials as a column. -/
theorem k7_v40 (W : Valuation τ sig (Elt F)) :
    (after hostOps0_7 W (Proc.devRef .tc main_v40) : FVec F S8192x1 .f32) = shapeCast S8192x1 (posExp (F := F) (W (Proc.devRef .tc main_arg0) : FVec F S1x8192x8192 .f32) (W (Proc.devRef .tc main_arg1) : IVec S8192 32)) shapeCasts_S8192_S8192x1 := by
  simp only [after_cons, after_nil]
  rfl

/-! A stretch keeps the argument buffers it does not write. -/

theorem fr0_arg0 (W : Valuation τ sig (Elt F)) :
    after hostOps0 W (Proc.devRef .tc main_arg0) = W (Proc.devRef .tc main_arg0) := by
  simp only [after_cons, after_nil]
  rfl
theorem fr1_arg0 (W : Valuation τ sig (Elt F)) :
    after hostOps0_1 W (Proc.devRef .tc main_arg0) = W (Proc.devRef .tc main_arg0) := by
  simp only [after_cons, after_nil]
  rfl
theorem fr2_arg0 (W : Valuation τ sig (Elt F)) :
    after hostOps0_2 W (Proc.devRef .tc main_arg0) = W (Proc.devRef .tc main_arg0) := by
  simp only [after_cons, after_nil]
  rfl
theorem fr3_arg0 (W : Valuation τ sig (Elt F)) :
    after hostOps0_3 W (Proc.devRef .tc main_arg0) = W (Proc.devRef .tc main_arg0) := by
  simp only [after_cons, after_nil]
  rfl
theorem fr4_arg0 (W : Valuation τ sig (Elt F)) :
    after hostOps0_4 W (Proc.devRef .tc main_arg0) = W (Proc.devRef .tc main_arg0) := by
  simp only [after_cons, after_nil]
  rfl
theorem fr5_arg0 (W : Valuation τ sig (Elt F)) :
    after hostOps0_5 W (Proc.devRef .tc main_arg0) = W (Proc.devRef .tc main_arg0) := by
  simp only [after_cons, after_nil]
  rfl
theorem fr6_arg0 (W : Valuation τ sig (Elt F)) :
    after hostOps0_6 W (Proc.devRef .tc main_arg0) = W (Proc.devRef .tc main_arg0) := by
  simp only [after_cons, after_nil]
  rfl
theorem fr0_arg1 (W : Valuation τ sig (Elt F)) :
    after hostOps0 W (Proc.devRef .tc main_arg1) = W (Proc.devRef .tc main_arg1) := by
  simp only [after_cons, after_nil]
  rfl
theorem fr1_arg1 (W : Valuation τ sig (Elt F)) :
    after hostOps0_1 W (Proc.devRef .tc main_arg1) = W (Proc.devRef .tc main_arg1) := by
  simp only [after_cons, after_nil]
  rfl
theorem fr2_arg1 (W : Valuation τ sig (Elt F)) :
    after hostOps0_2 W (Proc.devRef .tc main_arg1) = W (Proc.devRef .tc main_arg1) := by
  simp only [after_cons, after_nil]
  rfl
theorem fr3_arg1 (W : Valuation τ sig (Elt F)) :
    after hostOps0_3 W (Proc.devRef .tc main_arg1) = W (Proc.devRef .tc main_arg1) := by
  simp only [after_cons, after_nil]
  rfl
theorem fr4_arg1 (W : Valuation τ sig (Elt F)) :
    after hostOps0_4 W (Proc.devRef .tc main_arg1) = W (Proc.devRef .tc main_arg1) := by
  simp only [after_cons, after_nil]
  rfl
theorem fr5_arg1 (W : Valuation τ sig (Elt F)) :
    after hostOps0_5 W (Proc.devRef .tc main_arg1) = W (Proc.devRef .tc main_arg1) := by
  simp only [after_cons, after_nil]
  rfl
theorem fr6_arg1 (W : Valuation τ sig (Elt F)) :
    after hostOps0_6 W (Proc.devRef .tc main_arg1) = W (Proc.devRef .tc main_arg1) := by
  simp only [after_cons, after_nil]
  rfl
theorem fr0_arg2 (W : Valuation τ sig (Elt F)) :
    after hostOps0 W (Proc.devRef .tc main_arg2) = W (Proc.devRef .tc main_arg2) := by
  simp only [after_cons, after_nil]
  rfl
theorem fr1_arg2 (W : Valuation τ sig (Elt F)) :
    after hostOps0_1 W (Proc.devRef .tc main_arg2) = W (Proc.devRef .tc main_arg2) := by
  simp only [after_cons, after_nil]
  rfl
theorem fr2_arg2 (W : Valuation τ sig (Elt F)) :
    after hostOps0_2 W (Proc.devRef .tc main_arg2) = W (Proc.devRef .tc main_arg2) := by
  simp only [after_cons, after_nil]
  rfl
theorem fr3_arg2 (W : Valuation τ sig (Elt F)) :
    after hostOps0_3 W (Proc.devRef .tc main_arg2) = W (Proc.devRef .tc main_arg2) := by
  simp only [after_cons, after_nil]
  rfl
theorem fr4_arg2 (W : Valuation τ sig (Elt F)) :
    after hostOps0_4 W (Proc.devRef .tc main_arg2) = W (Proc.devRef .tc main_arg2) := by
  simp only [after_cons, after_nil]
  rfl
theorem fr5_arg2 (W : Valuation τ sig (Elt F)) :
    after hostOps0_5 W (Proc.devRef .tc main_arg2) = W (Proc.devRef .tc main_arg2) := by
  simp only [after_cons, after_nil]
  rfl

/-! ## The three arrays at the region's entry -/

variable (m : (ℓ : Loc nD τ sig) → Buf (Elt F) ℓ)

/-- The region-entry contents as the eight stretches folded one after the other. -/
theorem V0_eq (c : Dev nD) :
    V0 m c = after hostOps0_7 (after hostOps0_6 (after hostOps0_5 (after hostOps0_4 (after hostOps0_3 (after hostOps0_2
      (after hostOps0_1 (after hostOps0 (fun b => m (c, b))))))))) := by
  show after (List.flatten [hostOps0, hostOps0_1, hostOps0_2, hostOps0_3, hostOps0_4, hostOps0_5, hostOps0_6, hostOps0_7]) _ = _
  simp only [List.flatten_cons, List.flatten_nil, List.append_nil, StableHlo.after_append]

/-- The row classes, before the two reshapes. -/
theorem W_main_v16 (c : Dev nD) :
    (after hostOps0_6 (after hostOps0_5 (after hostOps0_4 (after hostOps0_3 (after hostOps0_2
      (after hostOps0_1 (after hostOps0 (fun b => m (c, b))))))))
        (Proc.devRef .tc main_v16) : IVec S8192 32)
      = rowCls (m ((c : Thread nD τ).loc main_arg2)) (m ((c : Thread nD τ).loc main_arg3)) := by
  rw [k6_v16, k5_v15, k4_v13, k3_v12, k2_v3, k1_v2, k0_v0, fr5_arg2, fr4_arg2, fr3_arg2, fr2_arg2, fr1_arg2, fr0_arg2]
  rfl

/-- The region finds the row classes as a column: the classes of the class table and the group sizes as launched. -/
theorem V_main_v17 (c : Dev nD) :
    (V m c main_v17 : S8192x1.Idx → BitVec 32)
      = shapeCast S8192x1 (rowCls (m ((c : Thread nD τ).loc main_arg2)) (m ((c : Thread nD τ).loc main_arg3))) shapeCasts_S8192_S8192x1 := by
  show (V0 m c (Proc.devRef .tc main_v17) : S8192x1.Idx → BitVec 32) = _
  rw [V0_eq, k7_v17, W_main_v16]

/-- And the same classes as a row. -/
theorem V_main_v18 (c : Dev nD) :
    (V m c main_v18 : S1x8192.Idx → BitVec 32)
      = shapeCast S1x8192 (rowCls (m ((c : Thread nD τ).loc main_arg2)) (m ((c : Thread nD τ).loc main_arg3))) shapeCasts_S8192_S1x8192 := by
  show (V0 m c (Proc.devRef .tc main_v18) : S1x8192.Idx → BitVec 32) = _
  rw [V0_eq, k7_v18, W_main_v16]

/-- The region finds the positives' exponentials as a column, of the similarity tensor and the targets as launched. -/
theorem V_main_v40 (c : Dev nD) :
    (V m c main_v40 : S8192x1.Idx → F .f32)
      = shapeCast S8192x1 (posExp (F := F) (m ((c : Thread nD τ).loc main_arg0)) (m ((c : Thread nD τ).loc main_arg1))) shapeCasts_S8192_S8192x1 := by
  show (V0 m c (Proc.devRef .tc main_v40) : S8192x1.Idx → F .f32) = _
  rw [V0_eq, k7_v40, fr6_arg0, fr5_arg0, fr4_arg0, fr3_arg0, fr2_arg0, fr1_arg0, fr0_arg0, fr6_arg1, fr5_arg1, fr4_arg1, fr3_arg1, fr2_arg1, fr1_arg1, fr0_arg1]

end Cert.KernelIdeal.Fr

end
-- ==== Proof.KI.RowLoss.lean ====
/-
  The row's loss the kernel stores at a point of the last column block is the loss of the specification at that row:
  each of the three accumulated sums is zero plus the first column block's row sum plus the last column block's, the
  blocks' entries are the arrays' entries at the shifted places, and the two half-row sums make the whole row's sum.
-/
import proofs.«419252_j75419625718616_3_alg».proof.Proof.KI.Blocks
import proofs.«419252_j75419625718616_3_alg».proof.Proof.KI.Pieces
import proofs.«419252_j75419625718616_3_alg».proof.Proof.KI.Payloads
import proofs.«419252_j75419625718616_3_alg».proof.Proof.KI.Prefix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## A reshaped vector read at an index -/

/-- A vector of 8192 entries as a column reads, at row r, the vector at r. -/
theorem cast_col8192 {α : Type} (x : S8192.Idx → α) (h : S8192.ShapeCasts S8192x1) (r : Fin 8192) (u : Fin 1) :
    shapeCast S8192x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A vector of 8192 entries as a row reads, at column s, the vector at s. -/
theorem cast_row8192 {α : Type} (x : S8192.Idx → α) (h : S8192.ShapeCasts S1x8192) (u : Fin 1) (s : Fin 8192) :
    shapeCast S1x8192 x h (ix2 u s) = x (ix1 s) :=
  shapeCast_apply x h _ _ (by
    have hu : u.val = 0 := by omega
    rw [Shape.rowMajor_val_two, Shape.rowMajor_val_one]
    show s.val = u.val * 8192 + s.val
    rw [hu, Nat.zero_mul, Nat.zero_add])

/-! ## One block's row sums over the arrays' entries -/

/-- A block's row sum of exponentials is the sum of the row's exponentials over the block's columns. -/
theorem bS_read (c : Dev nD) (t : Fin cfg0.N) (p : Fin 512) (r : Fin 8192) (hr : r.val = 512 * (t.val / 2) + p.val)
    (col : Fin 4096 → Fin 8192) (hcol : ∀ q, (col q).val = 4096 * (t.val % 2) + q.val)
    (X : Cert.Spec.SX.Idx → EReal) (hX : ∀ r s, arrX m c (ix3 (0 : Fin 1) r s) = X (ix3 (0 : Fin 1) r s)) :
    bS (blk0 m c t) p = ∑ q : Fin 4096, Cert.Spec.e1 X r (col q) := by
  unfold bS Cert.Spec.e1
  refine Finset.sum_congr rfl fun q _ => ?_
  show Ideal.exp (xb0 m c t (ix3 (0 : Fin 1) p q) * Cert.Spec.two) = _
  rw [xb0_apply m c t p q r (col q) hr (hcol q), hX]

/-- The same over the columns of the row's class. -/
theorem bP_read (c : Dev nD) (t : Fin cfg0.N) (p : Fin 512) (r : Fin 8192) (hr : r.val = 512 * (t.val / 2) + p.val)
    (col : Fin 4096 → Fin 8192) (hcol : ∀ q, (col q).val = 4096 * (t.val % 2) + q.val)
    (X : Cert.Spec.SX.Idx → EReal) (hX : ∀ r s, arrX m c (ix3 (0 : Fin 1) r s) = X (ix3 (0 : Fin 1) r s))
    (CLS : Fin 8192 → BitVec 32)
    (hR : ∀ r, arrR m c (ix2 r (0 : Fin 1)) = CLS r) (hC : ∀ s, arrC m c (ix2 (0 : Fin 1) s) = CLS s) :
    bP (blk0 m c t) (blk1 m c t) (blk2 m c t) p
      = ∑ q : Fin 4096, if CLS r = CLS (col q) then Cert.Spec.e1 X r (col q) else 0 := by
  unfold bP Cert.Spec.e1
  refine Finset.sum_congr rfl fun q _ => ?_
  show (if xb1 m c t (ix2 p (0 : Fin 1)) = xb2 m c t (ix2 (0 : Fin 1) q)
    then Ideal.exp (xb0 m c t (ix3 (0 : Fin 1) p q) * Cert.Spec.two) else 0) = _
  rw [xb0_apply m c t p q r (col q) hr (hcol q), xb1_apply m c t p r hr, xb2_apply m c t q (col q) (hcol q), hX, hR, hC]

/-- The same for the squares. -/
theorem bQ_read (c : Dev nD) (t : Fin cfg0.N) (p : Fin 512) (r : Fin 8192) (hr : r.val = 512 * (t.val / 2) + p.val)
    (col : Fin 4096 → Fin 8192) (hcol : ∀ q, (col q).val = 4096 * (t.val % 2) + q.val)
    (X : Cert.Spec.SX.Idx → EReal) (hX : ∀ r s, arrX m c (ix3 (0 : Fin 1) r s) = X (ix3 (0 : Fin 1) r s))
    (CLS : Fin 8192 → BitVec 32)
    (hR : ∀ r, arrR m c (ix2 r (0 : Fin 1)) = CLS r) (hC : ∀ s, arrC m c (ix2 (0 : Fin 1) s) = CLS s) :
    bQ (blk0 m c t) (blk1 m c t) (blk2 m c t) p
      = ∑ q : Fin 4096, if CLS r = CLS (col q) then Cert.Spec.e1 X r (col q) * Cert.Spec.e1 X r (col q) else 0 := by
  unfold bQ Cert.Spec.e1
  refine Finset.sum_congr rfl fun q _ => ?_
  show (if xb1 m c t (ix2 p (0 : Fin 1)) = xb2 m c t (ix2 (0 : Fin 1) q)
    then Ideal.exp (xb0 m c t (ix3 (0 : Fin 1) p q) * Cert.Spec.two) * Ideal.exp (xb0 m c t (ix3 (0 : Fin 1) p q) * Cert.Spec.two) else 0) = _
  rw [xb0_apply m c t p q r (col q) hr (hcol q), xb1_apply m c t p r hr, xb2_apply m c t q (col q) (hcol q), hX, hR, hC]

/-! ## The three sums after the two column blocks -/

/-- The first accumulator after the last column block, at a row of the block: the whole row's sum of exponentials. -/
theorem totS (c : Dev nD) (t t' : Fin cfg0.N) (h1 : t.val % 2 = 1) (ht' : t'.val = t.val - 1) (p : Fin 512) (r : Fin 8192)
    (hr : r.val = 512 * (t.val / 2) + p.val)
    (X : Cert.Spec.SX.Idx → EReal) (hX : ∀ r s, arrX m c (ix3 (0 : Fin 1) r s) = X (ix3 (0 : Fin 1) r s)) :
    k0_pay7 (F := Ideal) (blk0 m c t) (k0_pay7 (F := Ideal) (blk0 m c t') (k0_pay3 (F := Ideal))) (ix2 p (0 : Fin 1)) = Cert.Spec.sumE X r := by
  refine (pay7_apply (blk0 m c t) (k0_pay7 (F := Ideal) (blk0 m c t') (k0_pay3 (F := Ideal))) p).trans ?_
  rw [pay7_apply (blk0 m c t') (k0_pay3 (F := Ideal)) p, pay3_apply, zero_add,
    bS_read m c t' p r (by omega) (fun q => ⟨q.val, by omega⟩) (fun q => by show q.val = _; omega) X hX,
    bS_read m c t p r hr (fun q => ⟨4096 + q.val, by omega⟩) (fun q => by show 4096 + q.val = _; omega) X hX]
  exact sum_two_blocks (fun s => Cert.Spec.e1 X r s)

/-- The second accumulator: the sum over the columns of the row's class. -/
theorem totP (c : Dev nD) (t t' : Fin cfg0.N) (h1 : t.val % 2 = 1) (ht' : t'.val = t.val - 1) (p : Fin 512) (r : Fin 8192)
    (hr : r.val = 512 * (t.val / 2) + p.val)
    (X : Cert.Spec.SX.Idx → EReal) (hX : ∀ r s, arrX m c (ix3 (0 : Fin 1) r s) = X (ix3 (0 : Fin 1) r s))
    (CLS : Fin 8192 → BitVec 32)
    (hR : ∀ r, arrR m c (ix2 r (0 : Fin 1)) = CLS r) (hC : ∀ s, arrC m c (ix2 (0 : Fin 1) s) = CLS s) :
    k0_pay9 (F := Ideal) (blk0 m c t) (blk1 m c t) (blk2 m c t) (k0_pay9 (F := Ideal) (blk0 m c t') (blk1 m c t') (blk2 m c t') (k0_pay4 (F := Ideal))) (ix2 p (0 : Fin 1)) = Cert.Spec.sumP X CLS r := by
  refine (pay9_apply (blk0 m c t) (blk1 m c t) (blk2 m c t) (k0_pay9 (F := Ideal) (blk0 m c t') (blk1 m c t') (blk2 m c t') (k0_pay4 (F := Ideal))) p).trans ?_
  rw [pay9_apply (blk0 m c t') (blk1 m c t') (blk2 m c t') (k0_pay4 (F := Ideal)) p, pay4_apply, zero_add,
    bP_read m c t' p r (by omega) (fun q => ⟨q.val, by omega⟩) (fun q => by show q.val = _; omega) X hX CLS hR hC,
    bP_read m c t p r hr (fun q => ⟨4096 + q.val, by omega⟩) (fun q => by show 4096 + q.val = _; omega) X hX CLS hR hC]
  exact sum_two_blocks (fun s => if CLS r = CLS s then Cert.Spec.e1 X r s else 0)

/-- The third accumulator: the sum of the squares over the columns of the row's class. -/
theorem totQ (c : Dev nD) (t t' : Fin cfg0.N) (h1 : t.val % 2 = 1) (ht' : t'.val = t.val - 1) (p : Fin 512) (r : Fin 8192)
    (hr : r.val = 512 * (t.val / 2) + p.val)
    (X : Cert.Spec.SX.Idx → EReal) (hX : ∀ r s, arrX m c (ix3 (0 : Fin 1) r s) = X (ix3 (0 : Fin 1) r s))
    (CLS : Fin 8192 → BitVec 32)
    (hR : ∀ r, arrR m c (ix2 r (0 : Fin 1)) = CLS r) (hC : ∀ s, arrC m c (ix2 (0 : Fin 1) s) = CLS s) :
    k0_pay1 (F := Ideal) (k0_pay6 (blk0 m c t)) (k0_pay8 (blk0 m c t) (blk1 m c t) (blk2 m c t)) (k0_pay1 (F := Ideal) (k0_pay6 (blk0 m c t')) (k0_pay8 (blk0 m c t') (blk1 m c t') (blk2 m c t')) (k0_pay5 (F := Ideal))) (ix2 p (0 : Fin 1)) = Cert.Spec.sumQ X CLS r := by
  refine (pay1_apply (blk0 m c t) (blk1 m c t) (blk2 m c t) (k0_pay1 (F := Ideal) (k0_pay6 (blk0 m c t')) (k0_pay8 (blk0 m c t') (blk1 m c t') (blk2 m c t')) (k0_pay5 (F := Ideal))) p).trans ?_
  rw [pay1_apply (blk0 m c t') (blk1 m c t') (blk2 m c t') (k0_pay5 (F := Ideal)) p, pay5_apply, zero_add,
    bQ_read m c t' p r (by omega) (fun q => ⟨q.val, by omega⟩) (fun q => by show q.val = _; omega) X hX CLS hR hC,
    bQ_read m c t p r hr (fun q => ⟨4096 + q.val, by omega⟩) (fun q => by show 4096 + q.val = _; omega) X hX CLS hR hC]
  exact sum_two_blocks (fun s => if CLS r = CLS s then Cert.Spec.e1 X r s * Cert.Spec.e1 X r s else 0)

/-! ## The stored loss -/

/-- What a point of the last column block stores at a row of its block, over any reading of the four arrays. -/
theorem out4_odd_of_reads (c : Dev nD) (t : Fin cfg0.N) (h0 : ¬t.val % 2 = 0) (p : Fin 512) (r : Fin 8192)
    (hr : r.val = 512 * (t.val / 2) + p.val)
    (X : Cert.Spec.SX.Idx → EReal) (hX : ∀ r s, arrX m c (ix3 (0 : Fin 1) r s) = X (ix3 (0 : Fin 1) r s))
    (CLS : Fin 8192 → BitVec 32)
    (hR : ∀ r, arrR m c (ix2 r (0 : Fin 1)) = CLS r) (hC : ∀ s, arrC m c (ix2 (0 : Fin 1) s) = CLS s)
    (POS : Fin 8192 → EReal) (hP : ∀ r, arrP m c (ix2 r (0 : Fin 1)) = POS r) :
    (outsAt0 (F := Ideal) m c t.val t.isLt).1 (ix2 (0 : Fin 1) p) = Cert.Spec.rowLoss X CLS POS r := by
  have h1 : t.val % 2 = 1 := by omega
  have hlt : t.val - 1 < cfg0.N := Nat.lt_of_le_of_lt (Nat.sub_le _ _) t.isLt
  refine (congrFun (outsAt0_odd m c t h0 ⟨t.val - 1, hlt⟩ rfl) (ix2 (0 : Fin 1) p)).trans ?_
  refine (pay2_apply (blk3 m c t)
    (k0_pay7 (F := Ideal) (blk0 m c t) (k0_pay7 (F := Ideal) (blk0 m c ⟨t.val - 1, hlt⟩) (k0_pay3 (F := Ideal))))
    (k0_pay9 (F := Ideal) (blk0 m c t) (blk1 m c t) (blk2 m c t) (k0_pay9 (F := Ideal) (blk0 m c ⟨t.val - 1, hlt⟩) (blk1 m c ⟨t.val - 1, hlt⟩) (blk2 m c ⟨t.val - 1, hlt⟩) (k0_pay4 (F := Ideal))))
    (k0_pay1 (F := Ideal) (k0_pay6 (blk0 m c t)) (k0_pay8 (blk0 m c t) (blk1 m c t) (blk2 m c t)) (k0_pay1 (F := Ideal) (k0_pay6 (blk0 m c ⟨t.val - 1, hlt⟩)) (k0_pay8 (blk0 m c ⟨t.val - 1, hlt⟩) (blk1 m c ⟨t.val - 1, hlt⟩) (blk2 m c ⟨t.val - 1, hlt⟩)) (k0_pay5 (F := Ideal)))) p).trans ?_
  rw [totS m c t ⟨t.val - 1, hlt⟩ h1 rfl p r hr X hX, totP m c t ⟨t.val - 1, hlt⟩ h1 rfl p r hr X hX CLS hR hC,
    totQ m c t ⟨t.val - 1, hlt⟩ h1 rfl p r hr X hX CLS hR hC]
  show Cert.Spec.lossOf _ _ _ (xb3 m c t (ix2 p (0 : Fin 1))) = _
  rw [xb3_apply m c t p r hr, hP]
  rfl

/-- THE STORED LOSS: at a point of the last column block the output window's buffer holds, at a row of the block, the
    specification's loss of that row, over the launched similarity tensor, the rows' classes and the positives'
    exponentials. -/
theorem out4_odd (m : (ℓ : Loc nD τ sig) → Buf (Elt Ideal) ℓ) (c : Dev nD) (t : Fin cfg0.N) (h0 : ¬t.val % 2 = 0) (p : Fin 512) (r : Fin 8192) (hr : r.val = 512 * (t.val / 2) + p.val) :
    (outsAt0 (F := Ideal) m c t.val t.isLt).1 (ix2 (0 : Fin 1) p)
      = Cert.Spec.rowLoss (m ((c.tc : Thread nD τ).loc main_arg0)) (fun r => rowCls (m ((c.tc : Thread nD τ).loc main_arg2)) (m ((c.tc : Thread nD τ).loc main_arg3)) (ix1 r)) (fun r => posExp (F := Ideal) (m ((c.tc : Thread nD τ).loc main_arg0)) (m ((c.tc : Thread nD τ).loc main_arg1)) (ix1 r)) r := by
  refine out4_odd_of_reads m c t h0 p r hr _ (fun r s => ?_) _ (fun r => ?_) (fun s => ?_) _ (fun r => ?_)
  · show V m c main_arg0 _ = _
    rw [V_main_arg0]
  · exact (congrFun (V_main_v17 m c) (ix2 r (0 : Fin 1))).trans (cast_col8192 _ _ r (0 : Fin 1))
  · exact (congrFun (V_main_v18 m c) (ix2 (0 : Fin 1) s)).trans (cast_row8192 _ _ (0 : Fin 1) s)
  · exact (congrFun (V_main_v40 m c) (ix2 r (0 : Fin 1))).trans (cast_col8192 _ _ r (0 : Fin 1))

end Cert.KernelIdeal.Fr

end
-- ==== Proof.KI.Value.lean ====
/-
  The kernel program's result at the extended reals. The output window is written back at the odd grid points, point t's
  block being columns 512 (t / 2) … of the [1, 8192] array; what the body left there is the rows' losses, so after the
  region the array holds every row's loss; the four lines after the region sum it from zero and divide by the number
  of rows: the mean of the rows' losses. The run of @main re-posted with that value and the four arguments as launched.
-/
import proofs.«419252_j75419625718616_3_alg».proof.Proof.KI.Blocks
import proofs.«419252_j75419625718616_3_alg».proof.Proof.KI.Terms
import proofs.«419252_j75419625718616_3_alg».proof.Proof.Spec
import proofs.«419252_j75419625718616_3_alg».proof.Proof.KI.RowLoss
import Idealize.ShloMosaic.Lib.IdealHost
import Idealize.ShloMosaic.Lib.Pipeline.Value
import Idealize.ShloMosaic.PureOps.Ideal.Laws
import Mathlib.Algebra.BigOperators.Group.Finset.Basic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- The similarity tensor as launched. -/
abbrev aX (c : Dev nD) : Cert.Spec.SX.Idx → EReal := m ((c.tc : Thread nD τ).loc main_arg0)
/-- Every row's class. -/
abbrev aCls (c : Dev nD) : Fin 8192 → BitVec 32 := fun r =>
  rowCls (m ((c.tc : Thread nD τ).loc main_arg2)) (m ((c.tc : Thread nD τ).loc main_arg3)) (ix1 r)
/-- Every row's positive's exponential. -/
abbrev aPos (c : Dev nD) : Fin 8192 → EReal := fun r =>
  posExp (F := Ideal) (m ((c.tc : Thread nD τ).loc main_arg0)) (m ((c.tc : Thread nD τ).loc main_arg1)) (ix1 r)

/-- The output array after the region: column r holds row r's loss. -/
def lossRow (c : Dev nD) : Vec Ideal S1x8192 .f32 := fun y =>
  Cert.Spec.rowLoss (aX m c) (aCls m c) (aPos m c) ⟨(y 1).val, idx2_lt1 y⟩

/-- What an odd point writes back is its block of the rows' losses. -/
theorem flushed_eq (c : Dev nD) (t : Fin cfg0.N) (hf : (cfg0.win 4).flush t = true) :
    (dats m 0 c).flushed 4 t = ((cfg0.win 4).blk t).view.read (Elt Ideal) (lossRow m c) := by
  have h1 : t.val % 2 = 1 := (flush0_4 t).mp hf
  obtain ⟨-, -, -, -, -, -, -, -, -, e0, e1⟩ := idx_facts t
  show (cfg0.win 4).cut (grid0.coords t) ((dats m 0 c).after 4 t) = _
  rw [after0_4]
  funext y
  rw [View.read_apply]
  have hy : (y 1).val < 512 := (y 1).isLt
  have hN : t.val < 32 := lt_of_lt_of_eq t.isLt (show cfg0.N = 32 from N_0)
  have hx : (cfg0.win 4).xinj (grid0.coords t) y = ix2 (0 : Fin 1) (⟨(y 1).val, hy⟩ : Fin 512) := by
    funext a
    match a with
    | ⟨0, _⟩ => exact Fin.ext (by have h0 : (y 0).val < 1 := (y 0).isLt; show (y 0).val = 0; omega)
    | ⟨1, _⟩ => rfl
  show (outsAt0 m c t.val t.isLt).1 ((cfg0.win 4).xinj (grid0.coords t) y) = _
  rw [hx, out4_odd m c t (by omega) ⟨(y 1).val, hy⟩ ⟨512 * (t.val / 2) + (y 1).val, by omega⟩ rfl]
  unfold lossRow
  congr 1
  apply Fin.ext
  show 512 * (t.val / 2) + (y 1).val = win0_4.index t (1 : Fin 2) * 512 + 1 * (y 1).val
  rw [e1]; omega

/-- An index of the output array is in point t's block iff each coordinate is in the block's range. -/
theorem mem_blk (t : Fin cfg0.N) (i : S1x8192.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v41).slice (win0_4.rect t)).set ↔ _
  rw [View.set_slice_whole, Rect.mem_set_unit]
  exact Iff.rfl

/-- Column r of the output array is in the block the point 2 (r / 512) + 1 writes back. -/
theorem cover (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hN : cfg0.N = 32 := N_0
  let t : Fin cfg0.N := ⟨2 * ((i 1).val / 512) + 1, by omega⟩
  have ht : t.val = 2 * ((i 1).val / 512) + 1 := rfl
  obtain ⟨-, -, -, -, -, -, -, -, -, e0, e1⟩ := idx_facts t
  refine ⟨t, (flush0_4 t).mpr (by omega), ?_⟩
  rw [mem_blk]
  intro a
  match a with
  | ⟨0, _⟩ => show win0_4.index t (0 : Fin 2) * 1 ≤ (i 0).val ∧ (i 0).val < win0_4.index t (0 : Fin 2) * 1 + 1; rw [e0]; omega
  | ⟨1, _⟩ => show win0_4.index t (1 : Fin 2) * 512 ≤ (i 1).val ∧ (i 1).val < win0_4.index t (1 : Fin 2) * 512 + 512; rw [e1]; omega

/-- After the region the output array holds every row's loss. -/
theorem final (c : Dev nD) : (dats m 0 c).arrAt 4 cfg0.N = lossRow m c :=
  (dats m 0 c).arrAt_eq_of_cover 4 (lossRow m c) (flushed_eq m c) cover

/-! ## The lines after the region -/

/-- The four lines after the region leave the mean of the rows' losses in the result. -/
theorem tail_eq (c : Dev nD) :
    Pipeline.afterTail₀ cfgs (dats m) 0 (V0 m) [hostOps1] c main_v43 = (fun _ => Cert.Spec.mean (aX m c) (aCls m c) (aPos m c)) := by
  unfold Pipeline.afterTail₀
  show StableHlo.after hostOps1 _ (Proc.devRef .tc main_v43) = _
  after_results
  have hW : Pipeline.withArrays (cfgs 0).spec c (V0 m c) (fun w => (dats m 0 c).arrAt w (cfgs 0).N) (Proc.devRef .tc main_v41) = lossRow m c :=
    (Pipeline.withArrays_arr spec0 launch0.win.arr_inj c _ _ 4).trans (final m c)
  rw [hW]
  funext j
  rw [hostDivf_apply, hostReduceAdd_apply, Ideal.hostReduceAdd_total _ (fun b => b.elim0)]
  rw [constant_apply, constant_apply, Ideal.ofBits_zero_f32, zero_add, sum_idx2, Fin.sum_univ_one]
  rfl

/-! ## The run, read -/

set_option backward.isDefEq.respectTransparency.types false in
/-- From any memory with zero counters every weakly fair execution of @main terminates, the result at the mean of the
    rows' losses (a function of the four arguments as launched) and the four arguments as launched. -/
theorem value_main (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = (fun _ => Cert.Spec.mean (m ((c.tc : Thread nD τ).loc main_arg0)) (fun r => rowCls (m ((c.tc : Thread nD τ).loc main_arg2)) (m ((c.tc : Thread nD τ).loc main_arg3)) (ix1 r)) (fun r => posExp (F := Ideal) (m ((c.tc : Thread nD τ).loc main_arg0)) (m ((c.tc : Thread nD τ).loc main_arg1)) (ix1 r)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v43 (Pipeline.mem_restRefs_of main_v43 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Fr

end
-- ==== Proof.RefRun.lean ====
/-
  The run of the host-only program `Cert.ReferenceIdeal`, for any float values: its @main as the list of its
  118 host operations in program order (each module-local function's operations inline at its call site, over
  that call's buffer record), the program equal to that straight line, and every weakly fair execution ending
  with each buffer at the operations' fold over the launch contents; the four argument buffers are written by
  no operation and keep their launch contents.
-/
import proofs.«419252_j75419625718616_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 118 operations in program order, the calls unfolded: `_roll_static` three (two slices, the concatenate), each `cumsum` three (the zero, its broadcast, the windowed sum), `_take` twenty-two (`_where`'s select among them), each `_where_3` / `_where_4` three (the scalar converted to its own type, broadcast, the select). -/
abbrev ops : List (HloOp τ sig (Elt F)) :=
  [ reshape main_arg0 main_v0 rfl shapeCasts_S1x8192x8192_S8192x8192,
    nullary main_v1 (iotaInDim S8192 32 0),
    nullary main_cst (constant S_ .f32 0x3F000000#32),
    unary main_cst main_v2 (broadcastInDim S8192x8192 ![] bcast_S_S8192x8192 : (⟨S_, .f32⟩ : BufTy).Contents (Elt F) → (⟨S8192x8192, .f32⟩ : BufTy).Contents (Elt F)),
    binary main_v0 main_v2 main_v3 (Host.divf : (⟨S8192x8192, .f32⟩ : BufTy).Contents (Elt F) → (⟨S8192x8192, .f32⟩ : BufTy).Contents (Elt F) → (⟨S8192x8192, .f32⟩ : BufTy).Contents (Elt F)),
    unary main_v3 main_v4 (Host.exp : (⟨S8192x8192, .f32⟩ : BufTy).Contents (Elt F) → (⟨S8192x8192, .f32⟩ : BufTy).Contents (Elt F)),
    nullary main_c (constantI S_ 32 0#32),
    unary main_c main_v5 (broadcastInDim S8192 ![] bcast_S_S8192 : (⟨S_, .i32⟩ : BufTy).Contents (Elt F) → (⟨S8192, .i32⟩ : BufTy).Contents (Elt F)),
    binary main_v1 main_v5 main_v6 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v7 (broadcastInDim S8192 ![] bcast_S_S8192 : (⟨S_, .i32⟩ : BufTy).Contents (Elt F) → (⟨S8192, .i32⟩ : BufTy).Contents (Elt F)),
    binary main_v1 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_v1 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v10 (broadcastInDim S8192 ![] bcast_S_S8192 : (⟨S_, .i32⟩ : BufTy).Contents (Elt F) → (⟨S8192, .i32⟩ : BufTy).Contents (Elt F)),
    binary main_arg1 main_v10 main_v11 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v12 (broadcastInDim S8192 ![] bcast_S_S8192 : (⟨S_, .i32⟩ : BufTy).Contents (Elt F) → (⟨S8192, .i32⟩ : BufTy).Contents (Elt F)),
    binary main_arg1 main_v12 main_v13 (addi : (⟨S8192, .i32⟩ : BufTy).Contents (Elt F) → (⟨S8192, .i32⟩ : BufTy).Contents (Elt F) → (⟨S8192, .i32⟩ : BufTy).Contents (Elt F)),
    ternary main_v11 main_v13 main_arg1 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v15 (broadcastInDim S8192x1 ![0] bcast_S8192_S8192x1_0 : (⟨S8192, .i32⟩ : BufTy).Contents (Elt F) → (⟨S8192x1, .i32⟩ : BufTy).Contents (Elt F)),
    unary main_v14 main_v16 (broadcastInDim S8192x1 ![0] bcast_S8192_S8192x1_0 : (⟨S8192, .i32⟩ : BufTy).Contents (Elt F) → (⟨S8192x1, .i32⟩ : BufTy).Contents (Elt F)),
    binary main_v15 main_v16 main_v17 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v4 main_v17 main_v18 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_3 (constant S_ .f32 0x00000000#32),
    binary main_v4 main_cst_3 main_v19 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v19 main_v18 main_v20 (subf : (⟨S8192, .f32⟩ : BufTy).Contents (Elt F) → (⟨S8192, .f32⟩ : BufTy).Contents (Elt F) → (⟨S8192, .f32⟩ : BufTy).Contents (Elt F)),
    TRef.unary (.of main_arg3 : TRef sig ⟨S128, .i32⟩) main_call0.v0 (extractStridedSlice S1 ![127] · slices_S128_S1_127),
    TRef.unary (.of main_arg3 : TRef sig ⟨S128, .i32⟩) main_call0.v1 (extractStridedSlice S127 ![0] · slices_S128_S127_0),
    TRef.binary main_call0.v0 main_call0.v1 main_call0.v2 (fun a b => concatenate S128 0 [⟨S1, a⟩, ⟨S127, b⟩] concatenates_S1_S127_S128_d0),
    nullary main_c_4 (constantI S_ 32 0#32),
    unary main_c_4 main_v22 (broadcastInDim S1 ![] bcast_S_S1 : (⟨S_, .i32⟩ : BufTy).Contents (Elt F) → (⟨S1, .i32⟩ : BufTy).Contents (Elt F)),
    nullary main_c_5 (constantI S_ 32 0#32),
    ternary main_v21 main_v22 main_c_5 main_v23 ((fun x i u => Host.scatter scatter_S128_S1_S__n_0_0_0 (fun _ b => b) x i u) : (⟨S128, .i32⟩ : BufTy).Contents (Elt F) → (⟨S1, .i32⟩ : BufTy).Contents (Elt F) → (⟨S_, .i32⟩ : BufTy).Contents (Elt F) → (⟨S128, .i32⟩ : BufTy).Contents (Elt F)),
    TRef.nullary main_call1.call0.c (constantI S_ 32 0#32),
    TRef.unary main_call1.call0.c main_call1.call0.v0 (broadcastInDim S_ ![] bcast_S_S_),
    TRef.binary (.of main_v23 : TRef sig ⟨S128, .i32⟩) main_call1.call0.v0 main_call1.call0.v1 (fun x v => Host.reduceWindow IntOp.addi ![128] ![1] ![127] ![0] x v reduceWindows_S128_S128_w128s1p127_0 h_S_),
    nullary main_c_6 (constantI S_ 32 0#32),
    unary main_c_6 main_v25 (broadcastInDim S8192 ![] bcast_S_S8192 : (⟨S_, .i32⟩ : BufTy).Contents (Elt F) → (⟨S8192, .i32⟩ : BufTy).Contents (Elt F)),
    nullary main_c_7 (constantI S_ 32 0#32),
    unary main_c_7 main_v26 (broadcastInDim S128 ![] bcast_S_S128 : (⟨S_, .i32⟩ : BufTy).Contents (Elt F) → (⟨S128, .i32⟩ : BufTy).Contents (Elt F)),
    binary main_v24 main_v26 main_v27 (cmpi .slt : (⟨S128, .i32⟩ : BufTy).Contents (Elt F) → (⟨S128, .i32⟩ : BufTy).Contents (Elt F) → (⟨S128, .i1⟩ : BufTy).Contents (Elt F)),
    nullary main_c_8 (constantI S_ 32 8192#32),
    unary main_c_8 main_v28 (broadcastInDim S128 ![] bcast_S_S128 : (⟨S_, .i32⟩ : BufTy).Contents (Elt F) → (⟨S128, .i32⟩ : BufTy).Contents (Elt F)),
    binary main_v24 main_v28 main_v29 (addi : (⟨S128, .i32⟩ : BufTy).Contents (Elt F) → (⟨S128, .i32⟩ : BufTy).Contents (Elt F) → (⟨S128, .i32⟩ : BufTy).Contents (Elt F)),
    ternary main_v27 main_v29 main_v24 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v30 main_v31 (broadcastInDim S128x1 ![0] bcast_S128_S128x1_0 : (⟨S128, .i32⟩ : BufTy).Contents (Elt F) → (⟨S128x1, .i32⟩ : BufTy).Contents (Elt F)),
    nullary main_c_9 (constantI S_ 32 1#32),
    unary main_c_9 main_v32 (broadcastInDim S128 ![] bcast_S_S128 : (⟨S_, .i32⟩ : BufTy).Contents (Elt F) → (⟨S128, .i32⟩ : BufTy).Contents (Elt F)),
    ternary main_v25 main_v31 main_v32 main_v33 ((fun x i u => Host.scatter scatter_S8192_S128x1_S128_n_0_0_1 IntOp.addi x i u) : (⟨S8192, .i32⟩ : BufTy).Contents (Elt F) → (⟨S128x1, .i32⟩ : BufTy).Contents (Elt F) → (⟨S128, .i32⟩ : BufTy).Contents (Elt F) → (⟨S8192, .i32⟩ : BufTy).Contents (Elt F)),
    TRef.nullary main_call2.call0.c (constantI S_ 32 0#32),
    TRef.unary main_call2.call0.c main_call2.call0.v0 (broadcastInDim S_ ![] bcast_S_S_),
    TRef.binary (.of main_v33 : TRef sig ⟨S8192, .i32⟩) main_call2.call0.v0 main_call2.call0.v1 (fun x v => Host.reduceWindow IntOp.addi ![8192] ![1] ![8191] ![0] x v reduceWindows_S8192_S8192_w8192s1p8191_0 h_S_),
    nullary main_c_10 (constantI S_ 32 1#32),
    unary main_c_10 main_v35 (broadcastInDim S8192 ![] bcast_S_S8192 : (⟨S_, .i32⟩ : BufTy).Contents (Elt F) → (⟨S8192, .i32⟩ : BufTy).Contents (Elt F)),
    binary main_v34 main_v35 main_v36 (subi : (⟨S8192, .i32⟩ : BufTy).Contents (Elt F) → (⟨S8192, .i32⟩ : BufTy).Contents (Elt F) → (⟨S8192, .i32⟩ : BufTy).Contents (Elt F)),
    TRef.nullary main_call3.c (constantI S_ 32 0#32),
    TRef.unary main_call3.c main_call3.v0 (broadcastInDim S8192 ![] bcast_S_S8192),
    TRef.binary (.of main_v36 : TRef sig ⟨S8192, .i32⟩) main_call3.v0 main_call3.v1 (cmpi .slt),
    TRef.nullary main_call3.c_0 (constantI S_ 32 128#32),
    TRef.unary main_call3.c_0 main_call3.v2 (broadcastInDim S8192 ![] bcast_S_S8192),
    TRef.binary (.of main_v36 : TRef sig ⟨S8192, .i32⟩) main_call3.v2 main_call3.v3 addi,
    TRef.ternary main_call3.v1 main_call3.v3 (.of main_v36 : TRef sig ⟨S8192, .i32⟩) main_call3.call0.v0 select,
    TRef.unary main_call3.call0.v0 main_call3.v5 (broadcastInDim S8192x1 ![0] bcast_S8192_S8192x1_0),
    TRef.nullary main_call3.c_1 (constantI S1 32 127#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg2 : TRef sig ⟨S128, .i32⟩) main_call3.v5 main_call3.v13 (fun x i => Host.gather gather_S128_S8192x1_S8192_n_0_n_n_0_1_1 x i),
    TRef.nullary main_call3.c_4 (constantI S_ 32 2147483648#32),
    TRef.unary main_call3.c_4 main_call3.v14 (broadcastInDim S8192 ![] bcast_S_S8192),
    TRef.ternary main_call3.v12 main_call3.v13 main_call3.v14 main_call3.v15 select,
    unary main_v37 main_v38 (broadcastInDim S8192x1 ![0] bcast_S8192_S8192x1_0 : (⟨S8192, .i32⟩ : BufTy).Contents (Elt F) → (⟨S8192x1, .i32⟩ : BufTy).Contents (Elt F)),
    unary main_v37 main_v39 (broadcastInDim S1x8192 ![1] bcast_S8192_S1x8192_1 : (⟨S8192, .i32⟩ : BufTy).Contents (Elt F) → (⟨S1x8192, .i32⟩ : BufTy).Contents (Elt F)),
    unary main_v38 main_v40 (broadcastInDim S8192x8192 ![0, 1] bcast_S8192x1_S8192x8192_0_1 : (⟨S8192x1, .i32⟩ : BufTy).Contents (Elt F) → (⟨S8192x8192, .i32⟩ : BufTy).Contents (Elt F)),
    unary main_v39 main_v41 (broadcastInDim S8192x8192 ![0, 1] bcast_S1x8192_S8192x8192_0_1 : (⟨S1x8192, .i32⟩ : BufTy).Contents (Elt F) → (⟨S8192x8192, .i32⟩ : BufTy).Contents (Elt F)),
    binary main_v40 main_v41 main_v42 (cmpi .eq : (⟨S8192x8192, .i32⟩ : BufTy).Contents (Elt F) → (⟨S8192x8192, .i32⟩ : BufTy).Contents (Elt F) → (⟨S8192x8192, .i1⟩ : BufTy).Contents (Elt F)),
    nullary main_cst_11 (constant S_ .f32 0x00000000#32),
    TRef.unary (.of main_cst_11 : TRef sig ⟨S_, .f32⟩) main_call4.v0 id,
    TRef.unary main_call4.v0 main_call4.v1 (broadcastInDim S8192x8192 ![] bcast_S_S8192x8192),
    TRef.ternary (.of main_v42 : TRef sig ⟨S8192x8192, .i1⟩) (.of main_v4 : TRef sig ⟨S8192x8192, .f32⟩) main_call4.v1 main_call4.v2 select,
    nullary main_cst_12 (constant S_ .f32 0x00000000#32),
    binary main_v43 main_cst_12 main_v44 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x3E800000#32),
    unary main_cst_13 main_v45 (broadcastInDim S8192x8192 ![] bcast_S_S8192x8192 : (⟨S_, .f32⟩ : BufTy).Contents (Elt F) → (⟨S8192x8192, .f32⟩ : BufTy).Contents (Elt F)),
    binary main_v0 main_v45 main_v46 (Host.divf : (⟨S8192x8192, .f32⟩ : BufTy).Contents (Elt F) → (⟨S8192x8192, .f32⟩ : BufTy).Contents (Elt F) → (⟨S8192x8192, .f32⟩ : BufTy).Contents (Elt F)),
    unary main_v46 main_v47 (Host.exp : (⟨S8192x8192, .f32⟩ : BufTy).Contents (Elt F) → (⟨S8192x8192, .f32⟩ : BufTy).Contents (Elt F)),
    nullary main_cst_14 (constant S_ .f32 0x00000000#32),
    TRef.unary (.of main_cst_14 : TRef sig ⟨S_, .f32⟩) main_call5.v0 id,
    TRef.unary main_call5.v0 main_call5.v1 (broadcastInDim S8192x8192 ![] bcast_S_S8192x8192),
    TRef.ternary (.of main_v42 : TRef sig ⟨S8192x8192, .i1⟩) (.of main_v47 : TRef sig ⟨S8192x8192, .f32⟩) main_call5.v1 main_call5.v2 select,
    nullary main_cst_15 (constant S_ .f32 0x00000000#32),
    binary main_v48 main_cst_15 main_v49 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_16 (constant S_ .f32 0x00000000#32),
    TRef.unary (.of main_cst_16 : TRef sig ⟨S_, .f32⟩) main_call6.v0 id,
    TRef.unary main_call6.v0 main_call6.v1 (broadcastInDim S8192x8192 ![] bcast_S_S8192x8192),
    TRef.ternary (.of main_v42 : TRef sig ⟨S8192x8192, .i1⟩) main_call6.v1 (.of main_v47 : TRef sig ⟨S8192x8192, .f32⟩) main_call6.v2 select,
    nullary main_cst_17 (constant S_ .f32 0x00000000#32),
    binary main_v50 main_cst_17 main_v51 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v44 main_v20 main_v52 (addf : (⟨S8192, .f32⟩ : BufTy).Contents (Elt F) → (⟨S8192, .f32⟩ : BufTy).Contents (Elt F) → (⟨S8192, .f32⟩ : BufTy).Contents (Elt F)),
    binary main_v18 main_v52 main_v53 (Host.divf : (⟨S8192, .f32⟩ : BufTy).Contents (Elt F) → (⟨S8192, .f32⟩ : BufTy).Contents (Elt F) → (⟨S8192, .f32⟩ : BufTy).Contents (Elt F)),
    unary main_v53 main_v54 (Host.log : (⟨S8192, .f32⟩ : BufTy).Contents (Elt F) → (⟨S8192, .f32⟩ : BufTy).Contents (Elt F)),
    unary main_v54 main_v55 (Host.negf : (⟨S8192, .f32⟩ : BufTy).Contents (Elt F) → (⟨S8192, .f32⟩ : BufTy).Contents (Elt F)),
    binary main_v49 main_v20 main_v56 (addf : (⟨S8192, .f32⟩ : BufTy).Contents (Elt F) → (⟨S8192, .f32⟩ : BufTy).Contents (Elt F) → (⟨S8192, .f32⟩ : BufTy).Contents (Elt F)),
    binary main_v49 main_v56 main_v57 (Host.divf : (⟨S8192, .f32⟩ : BufTy).Contents (Elt F) → (⟨S8192, .f32⟩ : BufTy).Contents (Elt F) → (⟨S8192, .f32⟩ : BufTy).Contents (Elt F)),
    unary main_v57 main_v58 (Host.log : (⟨S8192, .f32⟩ : BufTy).Contents (Elt F) → (⟨S8192, .f32⟩ : BufTy).Contents (Elt F)),
    unary main_v58 main_v59 (Host.negf : (⟨S8192, .f32⟩ : BufTy).Contents (Elt F) → (⟨S8192, .f32⟩ : BufTy).Contents (Elt F)),
    binary main_v55 main_v59 main_v60 (addf : (⟨S8192, .f32⟩ : BufTy).Contents (Elt F) → (⟨S8192, .f32⟩ : BufTy).Contents (Elt F) → (⟨S8192, .f32⟩ : BufTy).Contents (Elt F)),
    nullary main_cst_18 (constant S_ .f32 0x00000000#32),
    binary main_v60 main_cst_18 main_v61 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_19 (constant S_ .f32 0x46000000#32),
    binary main_v61 main_cst_19 main_v62 (Host.divf : (⟨S_, .f32⟩ : BufTy).Contents (Elt F) → (⟨S_, .f32⟩ : BufTy).Contents (Elt F) → (⟨S_, .f32⟩ : BufTy).Contents (Elt F)) ]

set_option maxRecDepth 4096 in
set_option maxHeartbeats 4000000 in
/-- @main is that straight line: the two windows and the functions' definitions unfolded at their calls, both sides
    are one chain of `hlo` steps once sequencing is reassociated. -/
theorem main_eq (c : Dev nD) : main (F := F) c = seq ops := by
  simp only [main, main_part0, main_part1, fn_roll_static.body, fn_cumsum.body, fn_cumsum_0.body, fn_cumsum_1.body,
    fn_cumsum_2.body, fn_where.body, fn_take.body, fn_where_3.body, fn_where_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., nullary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., binary_bufs_sub .., binary_bufs_sub .., unary_bufs_sub .., unary_bufs_sub .., binary_bufs_sub ..,
    nullary_bufs_sub .., unary_bufs_sub .., nullary_bufs_sub .., ternary_bufs_sub .., nullary_bufs_sub .., unary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    unary_bufs_sub .., unary_bufs_sub .., unary_bufs_sub .., unary_bufs_sub .., binary_bufs_sub .., nullary_bufs_sub ..,
    unary_bufs_sub .., unary_bufs_sub .., ternary_bufs_sub .., nullary_bufs_sub .., binary_bufs_sub .., nullary_bufs_sub ..,
    unary_bufs_sub .., binary_bufs_sub .., unary_bufs_sub .., nullary_bufs_sub .., unary_bufs_sub .., unary_bufs_sub ..,
    ternary_bufs_sub .., nullary_bufs_sub .., binary_bufs_sub .., nullary_bufs_sub .., unary_bufs_sub .., unary_bufs_sub ..,
    ternary_bufs_sub .., nullary_bufs_sub .., binary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., nullary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The argument buffers: no operation writes them. -/

set_option maxRecDepth 8192 in
set_option maxHeartbeats 1000000 in
theorem arg0_eq (V : Valuation τ sig (Elt F)) :
    after ops V (main_arg0 : DevRef τ sig) = V (main_arg0 : DevRef τ sig) := by
  simp only [after_cons, after_nil]
  rfl

set_option maxRecDepth 8192 in
set_option maxHeartbeats 1000000 in
theorem arg1_eq (V : Valuation τ sig (Elt F)) :
    after ops V (main_arg1 : DevRef τ sig) = V (main_arg1 : DevRef τ sig) := by
  simp only [after_cons, after_nil]
  rfl

set_option maxRecDepth 8192 in
set_option maxHeartbeats 1000000 in
theorem arg2_eq (V : Valuation τ sig (Elt F)) :
    after ops V (main_arg2 : DevRef τ sig) = V (main_arg2 : DevRef τ sig) := by
  simp only [after_cons, after_nil]
  rfl

set_option maxRecDepth 8192 in
set_option maxHeartbeats 1000000 in
theorem arg3_eq (V : Valuation τ sig (Elt F)) :
    after ops V (main_arg3 : DevRef τ sig) = V (main_arg3 : DevRef τ sig) := by
  simp only [after_cons, after_nil]
  rfl

/-- Every weakly fair execution of @main terminates with the four argument buffers at their launch contents. -/
theorem frame_ref (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_arg0).trans (arg0_eq _), (h c main_arg1).trans (arg1_eq _),
      (h c main_arg2).trans (arg2_eq _), (h c main_arg3).trans (arg3_eq _)⟩)
    (run_main m ρ)

end Cert.ReferenceIdeal.Hand

end
-- ==== Proof.RefTerms.lean ====
/-
  Two pure terms of the reference, for any float values, each the composition of the reference's own operations in
  program order with their printed arguments:
    rowCls a2 a3  the class label of every row: the classes a2 repeated by the group sizes a3 up to 8192 rows
                  (the sizes rolled by one, their first entry zeroed, summed cumulatively into the groups' first rows;
                  a one added at each first row, summed cumulatively, minus one: the row's group; the class taken there);
    posExp x a1   the exponential of x / 0.5 gathered at (row, a1(row)), both index columns wrapped when negative.
-/
import proofs.«419252_j75419625718616_3_alg».proof.Proof.Gen.ReferenceIdeal

noncomputable section

namespace Cert.ReferenceIdeal.Hand

open Cert.ReferenceIdeal Cert.ReferenceIdeal.Gen Idealize.ShloMosaic

variable {F : FTy → Type} [FloatOps F]

/-- The group sizes rolled by one place: the last first. -/
def rolled (a3 : IVec S128 32) : IVec S128 32 :=
  concatenate S128 0
    [⟨S1, extractStridedSlice S1 ![127] a3 slices_S128_S1_127⟩, ⟨S127, extractStridedSlice S127 ![0] a3 slices_S128_S127_0⟩]
    concatenates_S1_S127_S128_d0

/-- The groups' first rows: the rolled sizes with a zero written at place 0, summed cumulatively. -/
def starts (a3 : IVec S128 32) : IVec S128 32 :=
  Host.reduceWindow IntOp.addi ![128] ![1] ![127] ![0]
    (Host.scatter scatter_S128_S1_S__n_0_0_0 (fun _ b => b) (rolled a3)
      (broadcastInDim S1 ![] bcast_S_S1 (constantI S_ 32 0#32)) (constantI S_ 32 0#32))
    (broadcastInDim S_ ![] bcast_S_S_ (constantI S_ 32 0#32))
    reduceWindows_S128_S128_w128s1p127_0 h_S_

/-- The first rows wrapped when negative, as a column of scatter indices. -/
def startCol (a3 : IVec S128 32) : IVec S128x1 32 :=
  broadcastInDim S128x1 ![0] bcast_S128_S128x1_0
    (select (cmpi .slt (starts a3) (broadcastInDim S128 ![] bcast_S_S128 (constantI S_ 32 0#32)))
      (addi (starts a3) (broadcastInDim S128 ![] bcast_S_S128 (constantI S_ 32 8192#32)))
      (starts a3))

/-- Every row's group: a one added at each group's first row of a zero vector, summed cumulatively, minus one. -/
def groupOf (a3 : IVec S128 32) : IVec S8192 32 :=
  subi
    (Host.reduceWindow IntOp.addi ![8192] ![1] ![8191] ![0]
      (Host.scatter scatter_S8192_S128x1_S128_n_0_0_1 IntOp.addi
        (broadcastInDim S8192 ![] bcast_S_S8192 (constantI S_ 32 0#32)) (startCol a3)
        (broadcastInDim S128 ![] bcast_S_S128 (constantI S_ 32 1#32)))
      (broadcastInDim S_ ![] bcast_S_S_ (constantI S_ 32 0#32))
      reduceWindows_S8192_S8192_w8192s1p8191_0 h_S_)
    (broadcastInDim S8192 ![] bcast_S_S8192 (constantI S_ 32 1#32))

/-- The groups wrapped when negative, as a column of gather indices. -/
def groupCol (a3 : IVec S128 32) : IVec S8192x1 32 :=
  broadcastInDim S8192x1 ![0] bcast_S8192_S8192x1_0
    (select (cmpi .slt (groupOf a3) (broadcastInDim S8192 ![] bcast_S_S8192 (constantI S_ 32 0#32)))
      (addi (groupOf a3) (broadcastInDim S8192 ![] bcast_S_S8192 (constantI S_ 32 128#32)))
      (groupOf a3))

/-- The class label of every row: the class of the row's group where the group is within 0 … 127, the fill value
    elsewhere. -/
def rowCls (a2 a3 : IVec S128 32) : IVec S8192 32 :=
  select
    (Host.reduce IntOp.andi
      (andi (cmpi .sge (groupCol a3) (broadcastInDim S8192x1 ![] bcast_S_S8192x1 (constantI S_ 32 0#32)))
        (cmpi .sle (groupCol a3)
          (broadcastInDim S8192x1 ![0, 1] bcast_S1x1_S8192x1_0_1
            (broadcastInDim S1x1 ![1] bcast_S1_S1x1_1 (constantI S1 32 127#32)))))
      (constantI S_ 1 1#1) reducesTo_S8192x1_S8192_d1 h_S_)
    (Host.gather gather_S128_S8192x1_S8192_n_0_n_n_0_1_1 a2 (groupCol a3))
    (broadcastInDim S8192 ![] bcast_S_S8192 (constantI S_ 32 2147483648#32))

/-- The exponential at the first temperature of the whole matrix: exp(x / 0.5). -/
def expMat (x : FVec F S1x8192x8192 .f32) : FVec F S8192x8192 .f32 :=
  Host.exp
    (Host.divf (shapeCast S8192x8192 x shapeCasts_S1x8192x8192_S8192x8192)
      (broadcastInDim S8192x8192 ![] bcast_S_S8192x8192 (constant S_ .f32 0x3F000000#32)))

/-- A vector of indices into 8192 places, 8192 added where negative. -/
def wrapped (a : IVec S8192 32) : IVec S8192 32 :=
  select (cmpi .slt a (broadcastInDim S8192 ![] bcast_S_S8192 (constantI S_ 32 0#32)))
    (addi a (broadcastInDim S8192 ![] bcast_S_S8192 (constantI S_ 32 8192#32))) a

/-- The (row, column) pairs the positives are read at: the rows' own numbers beside a1, both wrapped. -/
def posIdx (a1 : IVec S8192 32) : IVec S8192x2 32 :=
  concatenate S8192x2 1
    [⟨S8192x1, broadcastInDim S8192x1 ![0] bcast_S8192_S8192x1_0 (wrapped (iotaInDim S8192 32 0))⟩,
     ⟨S8192x1, broadcastInDim S8192x1 ![0] bcast_S8192_S8192x1_0 (wrapped a1)⟩]
    concatenates_S8192x1_S8192x1_S8192x2_d1

/-- The positives' exponentials: exp(x / 0.5) gathered at (row, a1(row)). -/
def posExp (x : FVec F S1x8192x8192 .f32) (a1 : IVec S8192 32) : FVec F S8192 .f32 :=
  Host.gather gather_S8192x8192_S8192x2_S8192_n_01_n_n_01_1_11 (expMat x) (posIdx a1)

end Cert.ReferenceIdeal.Hand

end
-- ==== Proof.RefOut.lean ====
/-
  The reference's result as one closed term of the four arguments' contents, for any float values: the class mask,
  the exponentials at the second temperature, the masked rows' sums, the rows' losses and their mean, each the
  reference's own operations in program order with their printed arguments.
-/
import proofs.«419252_j75419625718616_3_alg».proof.Proof.RefTerms

noncomputable section

namespace Cert.ReferenceIdeal.Hand

open Cert.ReferenceIdeal Cert.ReferenceIdeal.Gen Idealize.ShloMosaic

variable {F : FTy → Type} [FloatOps F]

/-- The class mask: row r and column c of one class. -/
def maskM (a2 a3 : IVec S128 32) : IVec S8192x8192 1 :=
  cmpi .eq
    (broadcastInDim S8192x8192 ![0, 1] bcast_S8192x1_S8192x8192_0_1
      (broadcastInDim S8192x1 ![0] bcast_S8192_S8192x1_0 (rowCls a2 a3)))
    (broadcastInDim S8192x8192 ![0, 1] bcast_S1x8192_S8192x8192_0_1
      (broadcastInDim S1x8192 ![1] bcast_S8192_S1x8192_1 (rowCls a2 a3)))

/-- The exponential at the second temperature of the whole matrix: exp(x / 0.25). -/
def expMat2 (x : FVec F S1x8192x8192 .f32) : FVec F S8192x8192 .f32 :=
  Host.exp
    (Host.divf (shapeCast S8192x8192 x shapeCasts_S1x8192x8192_S8192x8192)
      (broadcastInDim S8192x8192 ![] bcast_S_S8192x8192 (constant S_ .f32 0x3E800000#32)))

/-- A matrix kept where the mask holds, zero elsewhere. -/
def masked (m : IVec S8192x8192 1) (e : FVec F S8192x8192 .f32) : FVec F S8192x8192 .f32 :=
  select m e (broadcastInDim S8192x8192 ![] bcast_S_S8192x8192 (id (constant S_ .f32 0x00000000#32)))

/-- The rows' sums of a matrix, from zero. -/
def rowSums (e : FVec F S8192x8192 .f32) : FVec F S8192 .f32 :=
  Host.reduceAdd e (constant S_ .f32 0x00000000#32) reducesTo_S8192x8192_S8192_d1 h_S_

/-- The rows' sums of exponentials without the positives. -/
def negDen (x : FVec F S1x8192x8192 .f32) (a1 : IVec S8192 32) : FVec F S8192 .f32 :=
  subf (rowSums (expMat x)) (posExp x a1)

/-- The rows' losses. -/
def lossVec (x : FVec F S1x8192x8192 .f32) (a1 : IVec S8192 32) (a2 a3 : IVec S128 32) : FVec F S8192 .f32 :=
  addf
    (Host.negf (Host.log (Host.divf (posExp x a1) (addf (rowSums (masked (maskM a2 a3) (expMat x))) (negDen x a1)))))
    (Host.negf (Host.log (Host.divf (rowSums (masked (maskM a2 a3) (expMat2 x)))
      (addf (rowSums (masked (maskM a2 a3) (expMat2 x))) (negDen x a1)))))

/-- The reference's result: the losses' sum from zero, divided by the number of rows. -/
def refOut (x : FVec F S1x8192x8192 .f32) (a1 : IVec S8192 32) (a2 a3 : IVec S128 32) : FVec F S_ .f32 :=
  Host.divf (Host.reduceAdd (lossVec x a1 a2 a3) (constant S_ .f32 0x00000000#32) reducesTo_S8192_S_d0 h_S_)
    (constant S_ .f32 0x46000000#32)

end Cert.ReferenceIdeal.Hand

end
-- ==== Proof.RefFold.lean ====
/-
  The reference's 118 operations folded over any contents and read at the result buffer are the closed term of the
  four arguments' contents: the operations are taken in three stretches (the exponentials and the positives; the rows'
  classes, itself in seven steps; the mask, the masked sums, the losses and their mean), each folded over any contents
  and read at the few buffers the later stretches read.
-/
import proofs.«419252_j75419625718616_3_alg».proof.Proof.RefRun
import proofs.«419252_j75419625718616_3_alg».proof.Proof.RefOut
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations in three stretches: the exponentials and the positives; the rows' classes; the mask, the
    masked sums and the losses. -/
abbrev opsA : List (HloOp τ sig (Elt F)) :=
  [ reshape main_arg0 main_v0 rfl shapeCasts_S1x8192x8192_S8192x8192,
    nullary main_v1 (iotaInDim S8192 32 0),
    nullary main_cst (constant S_ .f32 0x3F000000#32),
    unary main_cst main_v2 (broadcastInDim S8192x8192 ![] bcast_S_S8192x8192 : (⟨S_, .f32⟩ : BufTy).Contents (Elt F) → (⟨S8192x8192, .f32⟩ : BufTy).Contents (Elt F)),
    binary main_v0 main_v2 main_v3 (Host.divf : (⟨S8192x8192, .f32⟩ : BufTy).Contents (Elt F) → (⟨S8192x8192, .f32⟩ : BufTy).Contents (Elt F) → (⟨S8192x8192, .f32⟩ : BufTy).Contents (Elt F)),
    unary main_v3 main_v4 (Host.exp : (⟨S8192x8192, .f32⟩ : BufTy).Contents (Elt F) → (⟨S8192x8192, .f32⟩ : BufTy).Contents (Elt F)),
    nullary main_c (constantI S_ 32 0#32),
    unary main_c main_v5 (broadcastInDim S8192 ![] bcast_S_S8192 : (⟨S_, .i32⟩ : BufTy).Contents (Elt F) → (⟨S8192, .i32⟩ : BufTy).Contents (Elt F)),
    binary main_v1 main_v5 main_v6 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v7 (broadcastInDim S8192 ![] bcast_S_S8192 : (⟨S_, .i32⟩ : BufTy).Contents (Elt F) → (⟨S8192, .i32⟩ : BufTy).Contents (Elt F)),
    binary main_v1 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_v1 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v10 (broadcastInDim S8192 ![] bcast_S_S8192 : (⟨S_, .i32⟩ : BufTy).Contents (Elt F) → (⟨S8192, .i32⟩ : BufTy).Contents (Elt F)),
    binary main_arg1 main_v10 main_v11 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v12 (broadcastInDim S8192 ![] bcast_S_S8192 : (⟨S_, .i32⟩ : BufTy).Contents (Elt F) → (⟨S8192, .i32⟩ : BufTy).Contents (Elt F)),
    binary main_arg1 main_v12 main_v13 (addi : (⟨S8192, .i32⟩ : BufTy).Contents (Elt F) → (⟨S8192, .i32⟩ : BufTy).Contents (Elt F) → (⟨S8192, .i32⟩ : BufTy).Contents (Elt F)),
    ternary main_v11 main_v13 main_arg1 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v15 (broadcastInDim S8192x1 ![0] bcast_S8192_S8192x1_0 : (⟨S8192, .i32⟩ : BufTy).Contents (Elt F) → (⟨S8192x1, .i32⟩ : BufTy).Contents (Elt F)),
    unary main_v14 main_v16 (broadcastInDim S8192x1 ![0] bcast_S8192_S8192x1_0 : (⟨S8192, .i32⟩ : BufTy).Contents (Elt F) → (⟨S8192x1, .i32⟩ : BufTy).Contents (Elt F)),
    binary main_v15 main_v16 main_v17 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v4 main_v17 main_v18 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_3 (constant S_ .f32 0x00000000#32),
    binary main_v4 main_cst_3 main_v19 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v19 main_v18 main_v20 (subf : (⟨S8192, .f32⟩ : BufTy).Contents (Elt F) → (⟨S8192, .f32⟩ : BufTy).Contents (Elt F) → (⟨S8192, .f32⟩ : BufTy).Contents (Elt F)) ]

abbrev opsB : List (HloOp τ sig (Elt F)) :=
  [ TRef.unary (.of main_arg3 : TRef sig ⟨S128, .i32⟩) main_call0.v0 (extractStridedSlice S1 ![127] · slices_S128_S1_127),
    TRef.unary (.of main_arg3 : TRef sig ⟨S128, .i32⟩) main_call0.v1 (extractStridedSlice S127 ![0] · slices_S128_S127_0),
    TRef.binary main_call0.v0 main_call0.v1 main_call0.v2 (fun a b => concatenate S128 0 [⟨S1, a⟩, ⟨S127, b⟩] concatenates_S1_S127_S128_d0),
    nullary main_c_4 (constantI S_ 32 0#32),
    unary main_c_4 main_v22 (broadcastInDim S1 ![] bcast_S_S1 : (⟨S_, .i32⟩ : BufTy).Contents (Elt F) → (⟨S1, .i32⟩ : BufTy).Contents (Elt F)),
    nullary main_c_5 (constantI S_ 32 0#32),
    ternary main_v21 main_v22 main_c_5 main_v23 ((fun x i u => Host.scatter scatter_S128_S1_S__n_0_0_0 (fun _ b => b) x i u) : (⟨S128, .i32⟩ : BufTy).Contents (Elt F) → (⟨S1, .i32⟩ : BufTy).Contents (Elt F) → (⟨S_, .i32⟩ : BufTy).Contents (Elt F) → (⟨S128, .i32⟩ : BufTy).Contents (Elt F)),
    TRef.nullary main_call1.call0.c (constantI S_ 32 0#32),
    TRef.unary main_call1.call0.c main_call1.call0.v0 (broadcastInDim S_ ![] bcast_S_S_),
    TRef.binary (.of main_v23 : TRef sig ⟨S128, .i32⟩) main_call1.call0.v0 main_call1.call0.v1 (fun x v => Host.reduceWindow IntOp.addi ![128] ![1] ![127] ![0] x v reduceWindows_S128_S128_w128s1p127_0 h_S_),
    nullary main_c_6 (constantI S_ 32 0#32),
    unary main_c_6 main_v25 (broadcastInDim S8192 ![] bcast_S_S8192 : (⟨S_, .i32⟩ : BufTy).Contents (Elt F) → (⟨S8192, .i32⟩ : BufTy).Contents (Elt F)),
    nullary main_c_7 (constantI S_ 32 0#32),
    unary main_c_7 main_v26 (broadcastInDim S128 ![] bcast_S_S128 : (⟨S_, .i32⟩ : BufTy).Contents (Elt F) → (⟨S128, .i32⟩ : BufTy).Contents (Elt F)),
    binary main_v24 main_v26 main_v27 (cmpi .slt : (⟨S128, .i32⟩ : BufTy).Contents (Elt F) → (⟨S128, .i32⟩ : BufTy).Contents (Elt F) → (⟨S128, .i1⟩ : BufTy).Contents (Elt F)),
    nullary main_c_8 (constantI S_ 32 8192#32),
    unary main_c_8 main_v28 (broadcastInDim S128 ![] bcast_S_S128 : (⟨S_, .i32⟩ : BufTy).Contents (Elt F) → (⟨S128, .i32⟩ : BufTy).Contents (Elt F)),
    binary main_v24 main_v28 main_v29 (addi : (⟨S128, .i32⟩ : BufTy).Contents (Elt F) → (⟨S128, .i32⟩ : BufTy).Contents (Elt F) → (⟨S128, .i32⟩ : BufTy).Contents (Elt F)),
    ternary main_v27 main_v29 main_v24 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v30 main_v31 (broadcastInDim S128x1 ![0] bcast_S128_S128x1_0 : (⟨S128, .i32⟩ : BufTy).Contents (Elt F) → (⟨S128x1, .i32⟩ : BufTy).Contents (Elt F)),
    nullary main_c_9 (constantI S_ 32 1#32),
    unary main_c_9 main_v32 (broadcastInDim S128 ![] bcast_S_S128 : (⟨S_, .i32⟩ : BufTy).Contents (Elt F) → (⟨S128, .i32⟩ : BufTy).Contents (Elt F)),
    ternary main_v25 main_v31 main_v32 main_v33 ((fun x i u => Host.scatter scatter_S8192_S128x1_S128_n_0_0_1 IntOp.addi x i u) : (⟨S8192, .i32⟩ : BufTy).Contents (Elt F) → (⟨S128x1, .i32⟩ : BufTy).Contents (Elt F) → (⟨S128, .i32⟩ : BufTy).Contents (Elt F) → (⟨S8192, .i32⟩ : BufTy).Contents (Elt F)),
    TRef.nullary main_call2.call0.c (constantI S_ 32 0#32),
    TRef.unary main_call2.call0.c main_call2.call0.v0 (broadcastInDim S_ ![] bcast_S_S_),
    TRef.binary (.of main_v33 : TRef sig ⟨S8192, .i32⟩) main_call2.call0.v0 main_call2.call0.v1 (fun x v => Host.reduceWindow IntOp.addi ![8192] ![1] ![8191] ![0] x v reduceWindows_S8192_S8192_w8192s1p8191_0 h_S_),
    nullary main_c_10 (constantI S_ 32 1#32),
    unary main_c_10 main_v35 (broadcastInDim S8192 ![] bcast_S_S8192 : (⟨S_, .i32⟩ : BufTy).Contents (Elt F) → (⟨S8192, .i32⟩ : BufTy).Contents (Elt F)),
    binary main_v34 main_v35 main_v36 (subi : (⟨S8192, .i32⟩ : BufTy).Contents (Elt F) → (⟨S8192, .i32⟩ : BufTy).Contents (Elt F) → (⟨S8192, .i32⟩ : BufTy).Contents (Elt F)),
    TRef.nullary main_call3.c (constantI S_ 32 0#32),
    TRef.unary main_call3.c main_call3.v0 (broadcastInDim S8192 ![] bcast_S_S8192),
    TRef.binary (.of main_v36 : TRef sig ⟨S8192, .i32⟩) main_call3.v0 main_call3.v1 (cmpi .slt),
    TRef.nullary main_call3.c_0 (constantI S_ 32 128#32),
    TRef.unary main_call3.c_0 main_call3.v2 (broadcastInDim S8192 ![] bcast_S_S8192),
    TRef.binary (.of main_v36 : TRef sig ⟨S8192, .i32⟩) main_call3.v2 main_call3.v3 addi,
    TRef.ternary main_call3.v1 main_call3.v3 (.of main_v36 : TRef sig ⟨S8192, .i32⟩) main_call3.call0.v0 select,
    TRef.unary main_call3.call0.v0 main_call3.v5 (broadcastInDim S8192x1 ![0] bcast_S8192_S8192x1_0),
    TRef.nullary main_call3.c_1 (constantI S1 32 127#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg2 : TRef sig ⟨S128, .i32⟩) main_call3.v5 main_call3.v13 (fun x i => Host.gather gather_S128_S8192x1_S8192_n_0_n_n_0_1_1 x i),
    TRef.nullary main_call3.c_4 (constantI S_ 32 2147483648#32),
    TRef.unary main_call3.c_4 main_call3.v14 (broadcastInDim S8192 ![] bcast_S_S8192),
    TRef.ternary main_call3.v12 main_call3.v13 main_call3.v14 main_call3.v15 select ]

abbrev opsC : List (HloOp τ sig (Elt F)) :=
  [ unary main_v37 main_v38 (broadcastInDim S8192x1 ![0] bcast_S8192_S8192x1_0 : (⟨S8192, .i32⟩ : BufTy).Contents (Elt F) → (⟨S8192x1, .i32⟩ : BufTy).Contents (Elt F)),
    unary main_v37 main_v39 (broadcastInDim S1x8192 ![1] bcast_S8192_S1x8192_1 : (⟨S8192, .i32⟩ : BufTy).Contents (Elt F) → (⟨S1x8192, .i32⟩ : BufTy).Contents (Elt F)),
    unary main_v38 main_v40 (broadcastInDim S8192x8192 ![0, 1] bcast_S8192x1_S8192x8192_0_1 : (⟨S8192x1, .i32⟩ : BufTy).Contents (Elt F) → (⟨S8192x8192, .i32⟩ : BufTy).Contents (Elt F)),
    unary main_v39 main_v41 (broadcastInDim S8192x8192 ![0, 1] bcast_S1x8192_S8192x8192_0_1 : (⟨S1x8192, .i32⟩ : BufTy).Contents (Elt F) → (⟨S8192x8192, .i32⟩ : BufTy).Contents (Elt F)),
    binary main_v40 main_v41 main_v42 (cmpi .eq : (⟨S8192x8192, .i32⟩ : BufTy).Contents (Elt F) → (⟨S8192x8192, .i32⟩ : BufTy).Contents (Elt F) → (⟨S8192x8192, .i1⟩ : BufTy).Contents (Elt F)),
    nullary main_cst_11 (constant S_ .f32 0x00000000#32),
    TRef.unary (.of main_cst_11 : TRef sig ⟨S_, .f32⟩) main_call4.v0 id,
    TRef.unary main_call4.v0 main_call4.v1 (broadcastInDim S8192x8192 ![] bcast_S_S8192x8192),
    TRef.ternary (.of main_v42 : TRef sig ⟨S8192x8192, .i1⟩) (.of main_v4 : TRef sig ⟨S8192x8192, .f32⟩) main_call4.v1 main_call4.v2 select,
    nullary main_cst_12 (constant S_ .f32 0x00000000#32),
    binary main_v43 main_cst_12 main_v44 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_13 (constant S_ .f32 0x3E800000#32),
    unary main_cst_13 main_v45 (broadcastInDim S8192x8192 ![] bcast_S_S8192x8192 : (⟨S_, .f32⟩ : BufTy).Contents (Elt F) → (⟨S8192x8192, .f32⟩ : BufTy).Contents (Elt F)),
    binary main_v0 main_v45 main_v46 (Host.divf : (⟨S8192x8192, .f32⟩ : BufTy).Contents (Elt F) → (⟨S8192x8192, .f32⟩ : BufTy).Contents (Elt F) → (⟨S8192x8192, .f32⟩ : BufTy).Contents (Elt F)),
    unary main_v46 main_v47 (Host.exp : (⟨S8192x8192, .f32⟩ : BufTy).Contents (Elt F) → (⟨S8192x8192, .f32⟩ : BufTy).Contents (Elt F)),
    nullary main_cst_14 (constant S_ .f32 0x00000000#32),
    TRef.unary (.of main_cst_14 : TRef sig ⟨S_, .f32⟩) main_call5.v0 id,
    TRef.unary main_call5.v0 main_call5.v1 (broadcastInDim S8192x8192 ![] bcast_S_S8192x8192),
    TRef.ternary (.of main_v42 : TRef sig ⟨S8192x8192, .i1⟩) (.of main_v47 : TRef sig ⟨S8192x8192, .f32⟩) main_call5.v1 main_call5.v2 select,
    nullary main_cst_15 (constant S_ .f32 0x00000000#32),
    binary main_v48 main_cst_15 main_v49 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_16 (constant S_ .f32 0x00000000#32),
    TRef.unary (.of main_cst_16 : TRef sig ⟨S_, .f32⟩) main_call6.v0 id,
    TRef.unary main_call6.v0 main_call6.v1 (broadcastInDim S8192x8192 ![] bcast_S_S8192x8192),
    TRef.ternary (.of main_v42 : TRef sig ⟨S8192x8192, .i1⟩) main_call6.v1 (.of main_v47 : TRef sig ⟨S8192x8192, .f32⟩) main_call6.v2 select,
    nullary main_cst_17 (constant S_ .f32 0x00000000#32),
    binary main_v50 main_cst_17 main_v51 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    binary main_v44 main_v20 main_v52 (addf : (⟨S8192, .f32⟩ : BufTy).Contents (Elt F) → (⟨S8192, .f32⟩ : BufTy).Contents (Elt F) → (⟨S8192, .f32⟩ : BufTy).Contents (Elt F)),
    binary main_v18 main_v52 main_v53 (Host.divf : (⟨S8192, .f32⟩ : BufTy).Contents (Elt F) → (⟨S8192, .f32⟩ : BufTy).Contents (Elt F) → (⟨S8192, .f32⟩ : BufTy).Contents (Elt F)),
    unary main_v53 main_v54 (Host.log : (⟨S8192, .f32⟩ : BufTy).Contents (Elt F) → (⟨S8192, .f32⟩ : BufTy).Contents (Elt F)),
    unary main_v54 main_v55 (Host.negf : (⟨S8192, .f32⟩ : BufTy).Contents (Elt F) → (⟨S8192, .f32⟩ : BufTy).Contents (Elt F)),
    binary main_v49 main_v20 main_v56 (addf : (⟨S8192, .f32⟩ : BufTy).Contents (Elt F) → (⟨S8192, .f32⟩ : BufTy).Contents (Elt F) → (⟨S8192, .f32⟩ : BufTy).Contents (Elt F)),
    binary main_v49 main_v56 main_v57 (Host.divf : (⟨S8192, .f32⟩ : BufTy).Contents (Elt F) → (⟨S8192, .f32⟩ : BufTy).Contents (Elt F) → (⟨S8192, .f32⟩ : BufTy).Contents (Elt F)),
    unary main_v57 main_v58 (Host.log : (⟨S8192, .f32⟩ : BufTy).Contents (Elt F) → (⟨S8192, .f32⟩ : BufTy).Contents (Elt F)),
    unary main_v58 main_v59 (Host.negf : (⟨S8192, .f32⟩ : BufTy).Contents (Elt F) → (⟨S8192, .f32⟩ : BufTy).Contents (Elt F)),
    binary main_v55 main_v59 main_v60 (addf : (⟨S8192, .f32⟩ : BufTy).Contents (Elt F) → (⟨S8192, .f32⟩ : BufTy).Contents (Elt F) → (⟨S8192, .f32⟩ : BufTy).Contents (Elt F)),
    nullary main_cst_18 (constant S_ .f32 0x00000000#32),
    binary main_v60 main_cst_18 main_v61 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_19 (constant S_ .f32 0x46000000#32),
    binary main_v61 main_cst_19 main_v62 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ opsC) := rfl

theorem after_app : ∀ (l₁ l₂ : List (HloOp τ sig (Elt F))) (V : Valuation τ sig (Elt F)), after (l₁ ++ l₂) V = after l₂ (after l₁ V)
  | [], _, _ => rfl
  | op :: l₁, l₂, V => after_app l₁ l₂ (op.result V)

set_option maxRecDepth 8192 in
set_option maxHeartbeats 4000000 in
theorem A_v0 (W : Valuation τ sig (Elt F)) :
    after (opsA (F := F)) W (main_v0 : DevRef τ sig) = shapeCast S8192x8192 (W (main_arg0 : DevRef τ sig)) shapeCasts_S1x8192x8192_S8192x8192 := by
  after_results_simp
  rfl

set_option maxRecDepth 8192 in
set_option maxHeartbeats 4000000 in
theorem A_v4 (W : Valuation τ sig (Elt F)) :
    after (opsA (F := F)) W (main_v4 : DevRef τ sig) = expMat (W (main_arg0 : DevRef τ sig)) := by
  after_results_simp
  rfl

set_option maxRecDepth 8192 in
set_option maxHeartbeats 4000000 in
theorem A_v18 (W : Valuation τ sig (Elt F)) :
    after (opsA (F := F)) W (main_v18 : DevRef τ sig) = posExp (W (main_arg0 : DevRef τ sig)) (W (main_arg1 : DevRef τ sig)) := by
  after_results_simp
  rfl

set_option maxRecDepth 8192 in
set_option maxHeartbeats 4000000 in
theorem A_v20 (W : Valuation τ sig (Elt F)) :
    after (opsA (F := F)) W (main_v20 : DevRef τ sig) = negDen (W (main_arg0 : DevRef τ sig)) (W (main_arg1 : DevRef τ sig)) := by
  after_results_simp
  rfl

set_option maxRecDepth 8192 in
set_option maxHeartbeats 4000000 in
theorem A_arg2 (W : Valuation τ sig (Elt F)) :
    after (opsA (F := F)) W (main_arg2 : DevRef τ sig) = W (main_arg2 : DevRef τ sig) := by
  after_results_simp

set_option maxRecDepth 8192 in
set_option maxHeartbeats 4000000 in
theorem A_arg3 (W : Valuation τ sig (Elt F)) :
    after (opsA (F := F)) W (main_arg3 : DevRef τ sig) = W (main_arg3 : DevRef τ sig) := by
  after_results_simp
abbrev opsB1 : List (HloOp τ sig (Elt F)) :=
  [ TRef.unary (.of main_arg3 : TRef sig ⟨S128, .i32⟩) main_call0.v0 (extractStridedSlice S1 ![127] · slices_S128_S1_127),
    TRef.unary (.of main_arg3 : TRef sig ⟨S128, .i32⟩) main_call0.v1 (extractStridedSlice S127 ![0] · slices_S128_S127_0),
    TRef.binary main_call0.v0 main_call0.v1 main_call0.v2 (fun a b => concatenate S128 0 [⟨S1, a⟩, ⟨S127, b⟩] concatenates_S1_S127_S128_d0) ]

abbrev opsB2 : List (HloOp τ sig (Elt F)) :=
  [ nullary main_c_4 (constantI S_ 32 0#32),
    unary main_c_4 main_v22 (broadcastInDim S1 ![] bcast_S_S1 : (⟨S_, .i32⟩ : BufTy).Contents (Elt F) → (⟨S1, .i32⟩ : BufTy).Contents (Elt F)),
    nullary main_c_5 (constantI S_ 32 0#32),
    ternary main_v21 main_v22 main_c_5 main_v23 ((fun x i u => Host.scatter scatter_S128_S1_S__n_0_0_0 (fun _ b => b) x i u) : (⟨S128, .i32⟩ : BufTy).Contents (Elt F) → (⟨S1, .i32⟩ : BufTy).Contents (Elt F) → (⟨S_, .i32⟩ : BufTy).Contents (Elt F) → (⟨S128, .i32⟩ : BufTy).Contents (Elt F)) ]

abbrev opsB3 : List (HloOp τ sig (Elt F)) :=
  [ TRef.nullary main_call1.call0.c (constantI S_ 32 0#32),
    TRef.unary main_call1.call0.c main_call1.call0.v0 (broadcastInDim S_ ![] bcast_S_S_),
    TRef.binary (.of main_v23 : TRef sig ⟨S128, .i32⟩) main_call1.call0.v0 main_call1.call0.v1 (fun x v => Host.reduceWindow IntOp.addi ![128] ![1] ![127] ![0] x v reduceWindows_S128_S128_w128s1p127_0 h_S_) ]

abbrev opsB4 : List (HloOp τ sig (Elt F)) :=
  [ nullary main_c_6 (constantI S_ 32 0#32),
    unary main_c_6 main_v25 (broadcastInDim S8192 ![] bcast_S_S8192 : (⟨S_, .i32⟩ : BufTy).Contents (Elt F) → (⟨S8192, .i32⟩ : BufTy).Contents (Elt F)),
    nullary main_c_7 (constantI S_ 32 0#32),
    unary main_c_7 main_v26 (broadcastInDim S128 ![] bcast_S_S128 : (⟨S_, .i32⟩ : BufTy).Contents (Elt F) → (⟨S128, .i32⟩ : BufTy).Contents (Elt F)),
    binary main_v24 main_v26 main_v27 (cmpi .slt : (⟨S128, .i32⟩ : BufTy).Contents (Elt F) → (⟨S128, .i32⟩ : BufTy).Contents (Elt F) → (⟨S128, .i1⟩ : BufTy).Contents (Elt F)),
    nullary main_c_8 (constantI S_ 32 8192#32),
    unary main_c_8 main_v28 (broadcastInDim S128 ![] bcast_S_S128 : (⟨S_, .i32⟩ : BufTy).Contents (Elt F) → (⟨S128, .i32⟩ : BufTy).Contents (Elt F)),
    binary main_v24 main_v28 main_v29 (addi : (⟨S128, .i32⟩ : BufTy).Contents (Elt F) → (⟨S128, .i32⟩ : BufTy).Contents (Elt F) → (⟨S128, .i32⟩ : BufTy).Contents (Elt F)),
    ternary main_v27 main_v29 main_v24 main_v30 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v30 main_v31 (broadcastInDim S128x1 ![0] bcast_S128_S128x1_0 : (⟨S128, .i32⟩ : BufTy).Contents (Elt F) → (⟨S128x1, .i32⟩ : BufTy).Contents (Elt F)),
    nullary main_c_9 (constantI S_ 32 1#32),
    unary main_c_9 main_v32 (broadcastInDim S128 ![] bcast_S_S128 : (⟨S_, .i32⟩ : BufTy).Contents (Elt F) → (⟨S128, .i32⟩ : BufTy).Contents (Elt F)),
    ternary main_v25 main_v31 main_v32 main_v33 ((fun x i u => Host.scatter scatter_S8192_S128x1_S128_n_0_0_1 IntOp.addi x i u) : (⟨S8192, .i32⟩ : BufTy).Contents (Elt F) → (⟨S128x1, .i32⟩ : BufTy).Contents (Elt F) → (⟨S128, .i32⟩ : BufTy).Contents (Elt F) → (⟨S8192, .i32⟩ : BufTy).Contents (Elt F)) ]

abbrev opsB5 : List (HloOp τ sig (Elt F)) :=
  [ TRef.nullary main_call2.call0.c (constantI S_ 32 0#32),
    TRef.unary main_call2.call0.c main_call2.call0.v0 (broadcastInDim S_ ![] bcast_S_S_),
    TRef.binary (.of main_v33 : TRef sig ⟨S8192, .i32⟩) main_call2.call0.v0 main_call2.call0.v1 (fun x v => Host.reduceWindow IntOp.addi ![8192] ![1] ![8191] ![0] x v reduceWindows_S8192_S8192_w8192s1p8191_0 h_S_) ]

abbrev opsB6 : List (HloOp τ sig (Elt F)) :=
  [ nullary main_c_10 (constantI S_ 32 1#32),
    unary main_c_10 main_v35 (broadcastInDim S8192 ![] bcast_S_S8192 : (⟨S_, .i32⟩ : BufTy).Contents (Elt F) → (⟨S8192, .i32⟩ : BufTy).Contents (Elt F)),
    binary main_v34 main_v35 main_v36 (subi : (⟨S8192, .i32⟩ : BufTy).Contents (Elt F) → (⟨S8192, .i32⟩ : BufTy).Contents (Elt F) → (⟨S8192, .i32⟩ : BufTy).Contents (Elt F)) ]

abbrev opsB7 : List (HloOp τ sig (Elt F)) :=
  [ TRef.nullary main_call3.c (constantI S_ 32 0#32),
    TRef.unary main_call3.c main_call3.v0 (broadcastInDim S8192 ![] bcast_S_S8192),
    TRef.binary (.of main_v36 : TRef sig ⟨S8192, .i32⟩) main_call3.v0 main_call3.v1 (cmpi .slt),
    TRef.nullary main_call3.c_0 (constantI S_ 32 128#32),
    TRef.unary main_call3.c_0 main_call3.v2 (broadcastInDim S8192 ![] bcast_S_S8192),
    TRef.binary (.of main_v36 : TRef sig ⟨S8192, .i32⟩) main_call3.v2 main_call3.v3 addi,
    TRef.ternary main_call3.v1 main_call3.v3 (.of main_v36 : TRef sig ⟨S8192, .i32⟩) main_call3.call0.v0 select,
    TRef.unary main_call3.call0.v0 main_call3.v5 (broadcastInDim S8192x1 ![0] bcast_S8192_S8192x1_0),
    TRef.nullary main_call3.c_1 (constantI S1 32 127#32),
    TRef.nullary main_call3.c_2 (constantI S_ 32 0#32),
    TRef.unary main_call3.c_2 main_call3.v6 (broadcastInDim S8192x1 ![] bcast_S_S8192x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S8192x1 ![0, 1] bcast_S1x1_S8192x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S8192x1_S8192_d1 h_S_),
    TRef.binary (.of main_arg2 : TRef sig ⟨S128, .i32⟩) main_call3.v5 main_call3.v13 (fun x i => Host.gather gather_S128_S8192x1_S8192_n_0_n_n_0_1_1 x i),
    TRef.nullary main_call3.c_4 (constantI S_ 32 2147483648#32),
    TRef.unary main_call3.c_4 main_call3.v14 (broadcastInDim S8192 ![] bcast_S_S8192),
    TRef.ternary main_call3.v12 main_call3.v13 main_call3.v14 main_call3.v15 select ]

/-- The groups' first rows wrapped when negative, as a column of scatter indices, of any first rows. -/
def startColOf (s : IVec S128 32) : IVec S128x1 32 :=
  broadcastInDim S128x1 ![0] bcast_S128_S128x1_0
    (select (cmpi .slt s (broadcastInDim S128 ![] bcast_S_S128 (constantI S_ 32 0#32)))
      (addi s (broadcastInDim S128 ![] bcast_S_S128 (constantI S_ 32 8192#32))) s)

/-- The rows' groups wrapped when negative, as a column of gather indices, of any groups. -/
def groupColOf (g : IVec S8192 32) : IVec S8192x1 32 :=
  broadcastInDim S8192x1 ![0] bcast_S8192_S8192x1_0
    (select (cmpi .slt g (broadcastInDim S8192 ![] bcast_S_S8192 (constantI S_ 32 0#32)))
      (addi g (broadcastInDim S8192 ![] bcast_S_S8192 (constantI S_ 32 128#32))) g)

/-- The class of every row from the class table and any rows' groups. -/
def rowClsOf (a2 : IVec S128 32) (g : IVec S8192 32) : IVec S8192 32 :=
  select
    (Host.reduce IntOp.andi
      (andi (cmpi .sge (groupColOf g) (broadcastInDim S8192x1 ![] bcast_S_S8192x1 (constantI S_ 32 0#32)))
        (cmpi .sle (groupColOf g)
          (broadcastInDim S8192x1 ![0, 1] bcast_S1x1_S8192x1_0_1
            (broadcastInDim S1x1 ![1] bcast_S1_S1x1_1 (constantI S1 32 127#32)))))
      (constantI S_ 1 1#1) reducesTo_S8192x1_S8192_d1 h_S_)
    (Host.gather gather_S128_S8192x1_S8192_n_0_n_n_0_1_1 a2 (groupColOf g))
    (broadcastInDim S8192 ![] bcast_S_S8192 (constantI S_ 32 2147483648#32))

/-- The rows' groups from any first rows. -/
def groupOfStarts (s : IVec S128 32) : IVec S8192 32 :=
  subi
    (Host.reduceWindow IntOp.addi ![8192] ![1] ![8191] ![0]
      (Host.scatter scatter_S8192_S128x1_S128_n_0_0_1 IntOp.addi
        (broadcastInDim S8192 ![] bcast_S_S8192 (constantI S_ 32 0#32)) (startColOf s)
        (broadcastInDim S128 ![] bcast_S_S128 (constantI S_ 32 1#32)))
      (broadcastInDim S_ ![] bcast_S_S_ (constantI S_ 32 0#32))
      reduceWindows_S8192_S8192_w8192s1p8191_0 h_S_)
    (broadcastInDim S8192 ![] bcast_S_S8192 (constantI S_ 32 1#32))

theorem rowCls_eq (a2 a3 : IVec S128 32) : rowCls a2 a3 = rowClsOf a2 (groupOfStarts (starts a3)) := rfl

set_option maxRecDepth 200000 in
set_option maxHeartbeats 8000000 in
attribute [local irreducible] Host.reduce Host.gather Host.scatter Host.reduceWindow concatenate in
/-- The sizes rolled by one. -/
theorem B1_v21 (W : Valuation τ sig (Elt F)) :
    (after (opsB1 (F := F)) W (main_v21 : DevRef τ sig) : IVec S128 32) = rolled (W (main_arg3 : DevRef τ sig) : IVec S128 32) := by
  after_results_simp
  rfl

set_option maxRecDepth 200000 in
set_option maxHeartbeats 8000000 in
attribute [local irreducible] Host.reduce Host.gather Host.scatter Host.reduceWindow concatenate in
/-- A zero written at place 0. -/
theorem B2_v23 (W : Valuation τ sig (Elt F)) :
    (after (opsB2 (F := F)) W (main_v23 : DevRef τ sig) : IVec S128 32) = Host.scatter scatter_S128_S1_S__n_0_0_0 (fun _ b => b) (W (main_v21 : DevRef τ sig) : IVec S128 32) (broadcastInDim S1 ![] bcast_S_S1 (constantI S_ 32 0#32)) (constantI S_ 32 0#32) := by
  after_results_simp
  rfl

set_option maxRecDepth 200000 in
set_option maxHeartbeats 8000000 in
attribute [local irreducible] Host.reduce Host.gather Host.scatter Host.reduceWindow concatenate in
/-- The cumulative sum: the groups' first rows. -/
theorem B3_v24 (W : Valuation τ sig (Elt F)) :
    (after (opsB3 (F := F)) W (main_v24 : DevRef τ sig) : IVec S128 32) = Host.reduceWindow IntOp.addi ![128] ![1] ![127] ![0] (W (main_v23 : DevRef τ sig) : IVec S128 32) (broadcastInDim S_ ![] bcast_S_S_ (constantI S_ 32 0#32)) reduceWindows_S128_S128_w128s1p127_0 h_S_ := by
  after_results_simp
  rfl

set_option maxRecDepth 200000 in
set_option maxHeartbeats 8000000 in
attribute [local irreducible] Host.reduce Host.gather Host.scatter Host.reduceWindow concatenate in
/-- A one added at each group's wrapped first row. -/
theorem B4_v33 (W : Valuation τ sig (Elt F)) :
    (after (opsB4 (F := F)) W (main_v33 : DevRef τ sig) : IVec S8192 32) = Host.scatter scatter_S8192_S128x1_S128_n_0_0_1 IntOp.addi (broadcastInDim S8192 ![] bcast_S_S8192 (constantI S_ 32 0#32)) (startColOf (W (main_v24 : DevRef τ sig) : IVec S128 32)) (broadcastInDim S128 ![] bcast_S_S128 (constantI S_ 32 1#32)) := by
  after_results_simp
  rfl

set_option maxRecDepth 200000 in
set_option maxHeartbeats 8000000 in
attribute [local irreducible] Host.reduce Host.gather Host.scatter Host.reduceWindow concatenate in
/-- The cumulative sum. -/
theorem B5_v34 (W : Valuation τ sig (Elt F)) :
    (after (opsB5 (F := F)) W (main_v34 : DevRef τ sig) : IVec S8192 32) = Host.reduceWindow IntOp.addi ![8192] ![1] ![8191] ![0] (W (main_v33 : DevRef τ sig) : IVec S8192 32) (broadcastInDim S_ ![] bcast_S_S_ (constantI S_ 32 0#32)) reduceWindows_S8192_S8192_w8192s1p8191_0 h_S_ := by
  after_results_simp
  rfl

set_option maxRecDepth 200000 in
set_option maxHeartbeats 8000000 in
attribute [local irreducible] Host.reduce Host.gather Host.scatter Host.reduceWindow concatenate in
/-- Minus one: the rows' groups. -/
theorem B6_v36 (W : Valuation τ sig (Elt F)) :
    (after (opsB6 (F := F)) W (main_v36 : DevRef τ sig) : IVec S8192 32) = subi (W (main_v34 : DevRef τ sig) : IVec S8192 32) (broadcastInDim S8192 ![] bcast_S_S8192 (constantI S_ 32 1#32)) := by
  after_results_simp

set_option maxRecDepth 200000 in
set_option maxHeartbeats 8000000 in
attribute [local irreducible] Host.reduce Host.gather Host.scatter Host.reduceWindow concatenate in
/-- The class taken at each row's group. -/
theorem B7_v37 (W : Valuation τ sig (Elt F)) :
    (after (opsB7 (F := F)) W (main_v37 : DevRef τ sig) : IVec S8192 32) = rowClsOf (W (main_arg2 : DevRef τ sig) : IVec S128 32) (W (main_v36 : DevRef τ sig) : IVec S8192 32) := by
  after_results_simp
  rfl

theorem B1_arg2 (W : Valuation τ sig (Elt F)) :
    after (opsB1 (F := F)) W (main_arg2 : DevRef τ sig) = W (main_arg2 : DevRef τ sig) := by
  after_results_simp

theorem B2_arg2 (W : Valuation τ sig (Elt F)) :
    after (opsB2 (F := F)) W (main_arg2 : DevRef τ sig) = W (main_arg2 : DevRef τ sig) := by
  after_results_simp

theorem B3_arg2 (W : Valuation τ sig (Elt F)) :
    after (opsB3 (F := F)) W (main_arg2 : DevRef τ sig) = W (main_arg2 : DevRef τ sig) := by
  after_results_simp

theorem B4_arg2 (W : Valuation τ sig (Elt F)) :
    after (opsB4 (F := F)) W (main_arg2 : DevRef τ sig) = W (main_arg2 : DevRef τ sig) := by
  after_results_simp

theorem B5_arg2 (W : Valuation τ sig (Elt F)) :
    after (opsB5 (F := F)) W (main_arg2 : DevRef τ sig) = W (main_arg2 : DevRef τ sig) := by
  after_results_simp

theorem B6_arg2 (W : Valuation τ sig (Elt F)) :
    after (opsB6 (F := F)) W (main_arg2 : DevRef τ sig) = W (main_arg2 : DevRef τ sig) := by
  after_results_simp

theorem opsB_split : (opsB : List (HloOp τ sig (Elt F))) = opsB1 ++ (opsB2 ++ (opsB3 ++ (opsB4 ++ (opsB5 ++ (opsB6 ++ opsB7))))) := rfl

set_option maxRecDepth 200000 in
set_option maxHeartbeats 4000000 in
attribute [local irreducible] Host.reduce Host.gather Host.scatter Host.reduceWindow concatenate in
/-- The second stretch leaves the rows' classes. -/
theorem B_v37 (W : Valuation τ sig (Elt F)) :
    (after (opsB (F := F)) W (main_v37 : DevRef τ sig) : IVec S8192 32)
      = rowCls (W (main_arg2 : DevRef τ sig) : IVec S128 32) (W (main_arg3 : DevRef τ sig) : IVec S128 32) := by
  rw [opsB_split, after_app, after_app, after_app, after_app, after_app, after_app]
  rw [B7_v37, B6_v36, B5_v34, B4_v33, B3_v24, B2_v23, B1_v21, B6_arg2, B5_arg2, B4_arg2, B3_arg2, B2_arg2, B1_arg2, rowCls_eq]
  rfl

set_option maxRecDepth 8192 in
set_option maxHeartbeats 4000000 in
theorem B_v0 (W : Valuation τ sig (Elt F)) :
    after (opsB (F := F)) W (main_v0 : DevRef τ sig) = W (main_v0 : DevRef τ sig) := by
  after_results_simp

set_option maxRecDepth 8192 in
set_option maxHeartbeats 4000000 in
theorem B_v4 (W : Valuation τ sig (Elt F)) :
    after (opsB (F := F)) W (main_v4 : DevRef τ sig) = W (main_v4 : DevRef τ sig) := by
  after_results_simp

set_option maxRecDepth 8192 in
set_option maxHeartbeats 4000000 in
theorem B_v18 (W : Valuation τ sig (Elt F)) :
    after (opsB (F := F)) W (main_v18 : DevRef τ sig) = W (main_v18 : DevRef τ sig) := by
  after_results_simp

set_option maxRecDepth 8192 in
set_option maxHeartbeats 4000000 in
theorem B_v20 (W : Valuation τ sig (Elt F)) :
    after (opsB (F := F)) W (main_v20 : DevRef τ sig) = W (main_v20 : DevRef τ sig) := by
  after_results_simp

set_option maxRecDepth 200000 in
set_option maxHeartbeats 2000000 in
/-- The last stretch: from the exponentials, the positives, the rows' sums without the positives and the rows' classes
    to the result. -/
theorem C_v62 (W : Valuation τ sig (Elt F)) (x : FVec F S1x8192x8192 .f32) (a1 : IVec S8192 32) (a2 a3 : IVec S128 32)
    (h0 : W (main_v0 : DevRef τ sig) = shapeCast S8192x8192 x shapeCasts_S1x8192x8192_S8192x8192)
    (h4 : W (main_v4 : DevRef τ sig) = expMat x) (h18 : W (main_v18 : DevRef τ sig) = posExp x a1)
    (h20 : W (main_v20 : DevRef τ sig) = negDen x a1) (h37 : W (main_v37 : DevRef τ sig) = rowCls a2 a3) :
    after (opsC (F := F)) W (main_v62 : DevRef τ sig) = refOut x a1 a2 a3 := by
  after_results_simp
  rw [h0, h4, h18, h20, h37]
  rfl

/-- The fold of the reference's operations at the result buffer, over any contents and any float values. -/
theorem fold_v62_any (V : Valuation τ sig (Elt F)) :
    after (ops (F := F)) V (main_v62 : DevRef τ sig)
      = refOut (F := F) (V (main_arg0 : DevRef τ sig)) (V (main_arg1 : DevRef τ sig)) (V (main_arg2 : DevRef τ sig)) (V (main_arg3 : DevRef τ sig)) := by
  rw [ops_split, after_app, after_app]
  exact C_v62 (after opsB (after opsA V)) (V (main_arg0 : DevRef τ sig)) (V (main_arg1 : DevRef τ sig)) (V (main_arg2 : DevRef τ sig)) (V (main_arg3 : DevRef τ sig))
    ((B_v0 _).trans (A_v0 V)) ((B_v4 _).trans (A_v4 V)) ((B_v18 _).trans (A_v18 V)) ((B_v20 _).trans (A_v20 V))
    ((B_v37 _).trans (by rw [A_arg2, A_arg3]))

/-- The same over the extended reals. -/
theorem fold_v62 (V : Valuation τ sig (Elt Ideal)) :
    StableHlo.after (ops (F := Ideal)) V (main_v62 : DevRef τ sig)
      = refOut (F := Ideal) (V (main_arg0 : DevRef τ sig)) (V (main_arg1 : DevRef τ sig)) (V (main_arg2 : DevRef τ sig)) (V (main_arg3 : DevRef τ sig)) :=
  fold_v62_any V

end Cert.ReferenceIdeal.Hand

end
-- ==== Proof.RefAlg.lean ====
/-
  The scalar algebra of the reference's reading over the extended reals, for every extended real (no finiteness):
  dividing by the literal 1/2 is multiplying by the literal 2; the exponential of x divided by the literal 1/4 is the
  square of the exponential of x times 2; a negation is a subtraction from zero.
-/
import Idealize.ShloMosaic.PureOps.Ideal
import Idealize.ShloMosaic.PureOps.Ideal.Laws
import Mathlib.Analysis.SpecialFunctions.Exp

namespace Cert.ReferenceIdeal.Hand

open Idealize.ShloMosaic

/-- The f32 pattern 0x3F000000 is 1/2. -/
theorem lit_half : Ideal.ofBits .f32 0x3F000000#32 = ((1 / 2 : ℝ) : EReal) := by
  simp [Ideal.ofBits, Ideal.ieee]
  rw [← EReal.coe_mul]; congr 1; norm_num

/-- The f32 pattern 0x3E800000 is 1/4. -/
theorem lit_quarter : Ideal.ofBits .f32 0x3E800000#32 = ((1 / 4 : ℝ) : EReal) := by
  simp [Ideal.ofBits, Ideal.ieee]
  rw [← EReal.coe_mul]; congr 1; norm_num

/-- The f32 pattern 0x40000000 is 2. -/
theorem lit_two : Ideal.ofBits .f32 0x40000000#32 = ((2 : ℝ) : EReal) := by
  simp [Ideal.ofBits, Ideal.ieee]
  rw [← EReal.coe_mul]; congr 1; norm_num

/-- Dividing by 1/2 is multiplying by 2. -/
theorem div_half (x : EReal) :
    Ideal.div x (Ideal.ofBits .f32 0x3F000000#32) = x * Ideal.ofBits .f32 0x40000000#32 := by
  rw [lit_half, lit_two, Ideal.div_coe (by norm_num)]
  norm_num

/-- Dividing by 1/4 is multiplying by 4. -/
theorem div_quarter (x : EReal) :
    Ideal.div x (Ideal.ofBits .f32 0x3E800000#32) = x * ((4 : ℝ) : EReal) := by
  rw [lit_quarter, Ideal.div_coe (by norm_num)]
  norm_num

/-- The exponential at the second temperature is the square of the exponential at the first. -/
theorem exp_div_quarter (x : EReal) :
    Ideal.exp (Ideal.div x (Ideal.ofBits .f32 0x3E800000#32))
      = Ideal.exp (x * Ideal.ofBits .f32 0x40000000#32) * Ideal.exp (x * Ideal.ofBits .f32 0x40000000#32) := by
  rw [div_quarter, lit_two]
  induction x using EReal.rec with
  | bot =>
    have h4 : (⊥ : EReal) * ((4 : ℝ) : EReal) = ⊥ := EReal.bot_mul_coe_of_pos (by norm_num)
    have h2 : (⊥ : EReal) * ((2 : ℝ) : EReal) = ⊥ := EReal.bot_mul_coe_of_pos (by norm_num)
    rw [h4, h2, Ideal.exp_bot, zero_mul]
  | top =>
    have h4 : (⊤ : EReal) * ((4 : ℝ) : EReal) = ⊤ := EReal.top_mul_coe_of_pos (by norm_num)
    have h2 : (⊤ : EReal) * ((2 : ℝ) : EReal) = ⊤ := EReal.top_mul_coe_of_pos (by norm_num)
    rw [h4, h2, Ideal.exp_top, EReal.top_mul_top]
  | coe r =>
    rw [← EReal.coe_mul, ← EReal.coe_mul, Ideal.exp_coe, Ideal.exp_coe, ← EReal.coe_mul, ← Real.exp_add]
    congr 2
    ring

/-- A negation is a subtraction from zero. -/
theorem neg_eq_zero_sub (y : EReal) : -y = 0 - y := (zero_sub y).symm

end Cert.ReferenceIdeal.Hand
-- ==== Proof.RefRead.lean ====
/-
  The reference's closed term read at the extended reals, index by index: the exponentials are the common form's
  e(r,c) and its square, the masked rows' sums its P and Q, a row's loss its loss(r), and the result the mean.
-/
import proofs.«419252_j75419625718616_3_alg».proof.Proof.RefOut
import proofs.«419252_j75419625718616_3_alg».proof.Proof.RefAlg
import proofs.«419252_j75419625718616_3_alg».proof.Proof.Spec
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.Pipeline.Value
import Idealize.ShloMosaic.Lib.Affine

noncomputable section

namespace Cert.ReferenceIdeal.Hand

open Cert.ReferenceIdeal Cert.ReferenceIdeal.Gen Idealize.ShloMosaic Idealize.ShloMosaic.ValueIdx

/-- The exponential at the first temperature, at (r, c): e(r,c). -/
theorem expMat_apply (x : FVec Ideal S1x8192x8192 .f32) (r c : Fin 8192) :
    expMat (F := Ideal) x (ix2 r c) = Cert.Spec.e1 x r c := by
  show Ideal.exp (Ideal.div (shapeCast S8192x8192 x shapeCasts_S1x8192x8192_S8192x8192 (ix2 r c))
    (Ideal.ofBits .f32 0x3F000000#32)) = _
  rw [shapeCast_1ab_ab_apply, div_half]
  rfl

/-- The exponential at the second temperature, at (r, c): e(r,c) squared. -/
theorem expMat2_apply (x : FVec Ideal S1x8192x8192 .f32) (r c : Fin 8192) :
    expMat2 (F := Ideal) x (ix2 r c) = Cert.Spec.e1 x r c * Cert.Spec.e1 x r c := by
  show Ideal.exp (Ideal.div (shapeCast S8192x8192 x shapeCasts_S1x8192x8192_S8192x8192 (ix2 r c))
    (Ideal.ofBits .f32 0x3E800000#32)) = _
  rw [shapeCast_1ab_ab_apply, exp_div_quarter]
  rfl

theorem reduces_rows : S8192x8192.Reduces [1] S8192 := by decide

/-- A row's sum from zero is the sum over the row's columns. -/
theorem rowSums_apply (e : FVec Ideal S8192x8192 .f32) (r : Fin 8192) :
    rowSums (F := Ideal) e (ix1 r) = ∑ c : Fin 8192, e (ix2 r c) := by
  show Ideal.hostReduceAdd reducesTo_S8192x8192_S8192_d1 e (Ideal.ofBits .f32 0x00000000#32) (ix1 r) = _
  rw [Ideal.hostReduceAdd_single reducesTo_S8192x8192_S8192_d1 reduces_rows, Ideal.ofBits_zero_f32, zero_add]
  refine Finset.sum_congr rfl fun c _ => congrArg e (funext fun a => ?_)
  match a with
  | ⟨0, _⟩ => exact Fin.ext rfl
  | ⟨1, _⟩ => exact Fin.ext rfl

/-- The class mask at (r, c): the comparison of the two rows' classes. -/
theorem maskM_apply (a2 a3 : IVec S128 32) (r c : Fin 8192) :
    maskM a2 a3 (ix2 r c) = IntOp.cmpi .eq (rowCls a2 a3 (ix1 r)) (rowCls a2 a3 (ix1 c)) := by
  show IntOp.cmpi .eq
      (broadcastInDim S8192x8192 ![0, 1] bcast_S8192x1_S8192x8192_0_1
        (broadcastInDim S8192x1 ![0] bcast_S8192_S8192x1_0 (rowCls a2 a3)) (ix2 r c))
      (broadcastInDim S8192x8192 ![0, 1] bcast_S1x8192_S8192x8192_0_1
        (broadcastInDim S1x8192 ![1] bcast_S8192_S1x8192_1 (rowCls a2 a3)) (ix2 r c)) = _
  rw [broadcastInDim_apply _ _ _ (ix2 r c) (ix2 r (0 : Fin 1)) (fun a => match a with | ⟨0, _⟩ => rfl | ⟨1, _⟩ => rfl),
    broadcastInDim_apply _ _ _ (ix2 r (0 : Fin 1)) (ix1 r) (fun a => match a with | ⟨0, _⟩ => rfl),
    broadcastInDim_apply _ _ _ (ix2 r c) (ix2 (0 : Fin 1) c) (fun a => match a with | ⟨0, _⟩ => rfl | ⟨1, _⟩ => rfl),
    broadcastInDim_apply _ _ _ (ix2 (0 : Fin 1) c) (ix1 c) (fun a => match a with | ⟨0, _⟩ => rfl)]

/-- A masked matrix at (r, c): the entry where the rows' classes agree, zero elsewhere. -/
theorem masked_apply (a2 a3 : IVec S128 32) (e : FVec Ideal S8192x8192 .f32) (r c : Fin 8192) :
    masked (F := Ideal) (maskM a2 a3) e (ix2 r c)
      = if rowCls a2 a3 (ix1 r) = rowCls a2 a3 (ix1 c) then e (ix2 r c) else 0 := by
  show Scalar.select (maskM a2 a3 (ix2 r c)) (e (ix2 r c)) (Ideal.ofBits .f32 0x00000000#32) = _
  rw [maskM_apply, Ideal.ofBits_zero_f32]
  exact if_congr IntOp.cmpi_eq rfl rfl

/-- A row's loss is the common form's loss(r), the row's class and positive read off the two opaque terms. -/
theorem lossVec_apply (x : FVec Ideal S1x8192x8192 .f32) (a1 : IVec S8192 32) (a2 a3 : IVec S128 32) (r : Fin 8192) :
    lossVec (F := Ideal) x a1 a2 a3 (ix1 r)
      = Cert.Spec.rowLoss x (fun r => rowCls a2 a3 (ix1 r)) (fun r => posExp (F := Ideal) x a1 (ix1 r)) r := by
  show -(Ideal.log (Ideal.div (posExp (F := Ideal) x a1 (ix1 r))
        (rowSums (F := Ideal) (masked (maskM a2 a3) (expMat x)) (ix1 r)
          + (rowSums (F := Ideal) (expMat x) (ix1 r) - posExp (F := Ideal) x a1 (ix1 r)))))
      + -(Ideal.log (Ideal.div (rowSums (F := Ideal) (masked (maskM a2 a3) (expMat2 x)) (ix1 r))
        (rowSums (F := Ideal) (masked (maskM a2 a3) (expMat2 x)) (ix1 r)
          + (rowSums (F := Ideal) (expMat x) (ix1 r) - posExp (F := Ideal) x a1 (ix1 r))))) = _
  rw [rowSums_apply, rowSums_apply, rowSums_apply, neg_eq_zero_sub, neg_eq_zero_sub]
  simp only [masked_apply, expMat_apply, expMat2_apply]
  rfl

/-- A sum over the rows' indices is the sum over the rows' numbers. -/
theorem sum_rows (f : S8192.Idx → EReal) : ∑ i, f i = ∑ r : Fin 8192, f (ix1 r) :=
  (Equiv.sum_comp (idxEquiv1 (n := 8192)).symm f).symm

/-- The reference's result is the mean of the rows' losses. -/
theorem refOut_eq (x : FVec Ideal S1x8192x8192 .f32) (a1 : IVec S8192 32) (a2 a3 : IVec S128 32) :
    refOut (F := Ideal) x a1 a2 a3
      = fun _ => Cert.Spec.mean x (fun r => rowCls a2 a3 (ix1 r)) (fun r => posExp (F := Ideal) x a1 (ix1 r)) := by
  funext j
  show Ideal.div (Ideal.hostReduceAdd reducesTo_S8192_S_d0 (lossVec (F := Ideal) x a1 a2 a3)
      (Ideal.ofBits .f32 0x00000000#32) j) (Ideal.ofBits .f32 0x46000000#32) = _
  rw [Ideal.hostReduceAdd_total reducesTo_S8192_S_d0 (fun b => b.elim0), Ideal.ofBits_zero_f32, zero_add, sum_rows]
  unfold Cert.Spec.mean
  exact congrArg (fun s => Ideal.div s _) (Finset.sum_congr rfl fun r _ => lossVec_apply x a1 a2 a3 r)

end Cert.ReferenceIdeal.Hand

end
-- ==== Proof.RefValue.lean ====
/-
  The reference's result buffer over the extended reals: the operations' fold at the result is the closed term of
  the four arguments' contents, and that term read index by index is the common form's mean of the rows' losses,
  the rows' classes and the positives' exponentials read off the two opaque terms.
-/
import proofs.«419252_j75419625718616_3_alg».proof.Proof.RefFold
import proofs.«419252_j75419625718616_3_alg».proof.Proof.RefRead
import proofs.«419252_j75419625718616_3_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

/-- After the reference's operations the result buffer holds, at its one index, the mean of the rows' losses. -/
theorem v62_eq (V : Valuation τ sig (Elt Ideal)) :
    StableHlo.after (ops (F := Ideal)) V (main_v62 : DevRef τ sig)
      = fun _ => Cert.Spec.mean (V (main_arg0 : DevRef τ sig))
          (fun r => rowCls (V (main_arg2 : DevRef τ sig)) (V (main_arg3 : DevRef τ sig)) (Idealize.ShloMosaic.ValueIdx.ix1 r))
          (fun r => posExp (F := Ideal) (V (main_arg0 : DevRef τ sig)) (V (main_arg1 : DevRef τ sig))
            (Idealize.ShloMosaic.ValueIdx.ix1 r)) :=
  (fold_v62 V).trans
    (refOut_eq (V (main_arg0 : DevRef τ sig)) (V (main_arg1 : DevRef τ sig)) (V (main_arg2 : DevRef τ sig))
      (V (main_arg3 : DevRef τ sig)))

end Cert.ReferenceIdeal.Hand

end
-- ==== Proof.Bridge.lean ====
/-
  The two programs' host chains agree: the rows' classes are the same term, and the positives' exponentials agree
  because the kernel program reads x[0, row, a1(row)] from the rank-3 tensor and then takes exp(2 ·), while the
  reference takes exp(· / 0.5) of the matrix and then reads (row, a1(row)): the same entry, and dividing by 1/2 is
  multiplying by 2.
-/
import proofs.«419252_j75419625718616_3_alg».proof.Proof.KI.Terms
import proofs.«419252_j75419625718616_3_alg».proof.Proof.RefTerms
import proofs.«419252_j75419625718616_3_alg».proof.Proof.RefAlg
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx

/-- The rows' classes: the two programs compute them by the same operations. -/
theorem rowCls_eq (a2 a3 : IVec (⟨1, ![128]⟩ : Shape) 32) :
    Cert.KernelIdeal.Fr.rowCls a2 a3 = Cert.ReferenceIdeal.Hand.rowCls a2 a3 := rfl

/-! ## A gather of single entries: the operand index on a collapsed axis -/

/-- On a collapsed axis in the start index map that is not a batching axis, the operand index is the start index's
    component for that axis, read signed and clamped. -/
theorem operandIdx_collapsed {s si t : Shape} (d : GatherDims s si t) {w : Nat} (j : t.Idx) (idx : IVec si w) (a : Fin s.rank)
    (hb : a ∉ d.operandBatchingDims) (hc : a ∈ d.collapsedSliceDims) (ha : a ∈ d.startIndexMap) :
    (d.operandIdx j idx a).val
      = min (idx (d.siIdx j ⟨d.startIndexMap.idxOf a, List.idxOf_lt_length_iff.2 ha⟩)).toInt.toNat (s.size a - d.sliceSizes a) := by
  show d.start j idx a + d.batchCoord j a + d.offCoord j a = _
  rw [d.batchCoord_eq_zero j a hb, d.offCoord_eq_zero j a (fun h => ((d.mem_sKept a).mp h).1 hc), Nat.add_zero]
  unfold GatherDims.start
  rw [dif_pos ha]

/-- The kernel program's gather at row `r`: the operand's row coordinate. -/
theorem kernel_opIdx_row (idx : IVec Cert.KernelIdeal.S8192x3 32) (r : Fin 8192) :
    (Cert.KernelIdeal.gather_S1x8192x8192_S8192x3_S8192_n_012_n_n_012_1_111.operandIdx (ix1 r) idx 1).val
      = min (idx (ix2 r (1 : Fin 3))).toInt.toNat 8191 := by
  refine (operandIdx_collapsed _ (ix1 r) idx 1 (by decide) (by decide) (by decide)).trans ?_
  have hsi : ∀ hlt, Cert.KernelIdeal.gather_S1x8192x8192_S8192x3_S8192_n_012_n_n_012_1_111.siIdx (ix1 r)
      ⟨List.idxOf (1 : Fin 3) Cert.KernelIdeal.gather_S1x8192x8192_S8192x3_S8192_n_012_n_n_012_1_111.startIndexMap, hlt⟩
        = ix2 r (1 : Fin 3) := by
    intro hlt
    funext b; refine Fin.ext ?_
    match b with
    | ⟨0, _⟩ => rfl
    | ⟨1, _⟩ => rfl
  rw [hsi]
  rfl

/-- The kernel program's gather at row `r`: the operand's column coordinate. -/
theorem kernel_opIdx_col (idx : IVec Cert.KernelIdeal.S8192x3 32) (r : Fin 8192) :
    (Cert.KernelIdeal.gather_S1x8192x8192_S8192x3_S8192_n_012_n_n_012_1_111.operandIdx (ix1 r) idx 2).val
      = min (idx (ix2 r (2 : Fin 3))).toInt.toNat 8191 := by
  refine (operandIdx_collapsed _ (ix1 r) idx 2 (by decide) (by decide) (by decide)).trans ?_
  have hsi : ∀ hlt, Cert.KernelIdeal.gather_S1x8192x8192_S8192x3_S8192_n_012_n_n_012_1_111.siIdx (ix1 r)
      ⟨List.idxOf (2 : Fin 3) Cert.KernelIdeal.gather_S1x8192x8192_S8192x3_S8192_n_012_n_n_012_1_111.startIndexMap, hlt⟩
        = ix2 r (2 : Fin 3) := by
    intro hlt
    funext b; refine Fin.ext ?_
    match b with
    | ⟨0, _⟩ => rfl
    | ⟨1, _⟩ => rfl
  rw [hsi]
  rfl

/-- The reference's gather at row `r`: the operand's row coordinate. -/
theorem reference_opIdx_row (idx : IVec Cert.ReferenceIdeal.S8192x2 32) (r : Fin 8192) :
    (Cert.ReferenceIdeal.gather_S8192x8192_S8192x2_S8192_n_01_n_n_01_1_11.operandIdx (ix1 r) idx 0).val
      = min (idx (ix2 r (0 : Fin 2))).toInt.toNat 8191 := by
  refine (operandIdx_collapsed _ (ix1 r) idx 0 (by decide) (by decide) (by decide)).trans ?_
  have hsi : ∀ hlt, Cert.ReferenceIdeal.gather_S8192x8192_S8192x2_S8192_n_01_n_n_01_1_11.siIdx (ix1 r)
      ⟨List.idxOf (0 : Fin 2) Cert.ReferenceIdeal.gather_S8192x8192_S8192x2_S8192_n_01_n_n_01_1_11.startIndexMap, hlt⟩
        = ix2 r (0 : Fin 2) := by
    intro hlt
    funext b; refine Fin.ext ?_
    match b with
    | ⟨0, _⟩ => rfl
    | ⟨1, _⟩ => rfl
  rw [hsi]
  rfl

/-- The reference's gather at row `r`: the operand's column coordinate. -/
theorem reference_opIdx_col (idx : IVec Cert.ReferenceIdeal.S8192x2 32) (r : Fin 8192) :
    (Cert.ReferenceIdeal.gather_S8192x8192_S8192x2_S8192_n_01_n_n_01_1_11.operandIdx (ix1 r) idx 1).val
      = min (idx (ix2 r (1 : Fin 2))).toInt.toNat 8191 := by
  refine (operandIdx_collapsed _ (ix1 r) idx 1 (by decide) (by decide) (by decide)).trans ?_
  have hsi : ∀ hlt, Cert.ReferenceIdeal.gather_S8192x8192_S8192x2_S8192_n_01_n_n_01_1_11.siIdx (ix1 r)
      ⟨List.idxOf (1 : Fin 2) Cert.ReferenceIdeal.gather_S8192x8192_S8192x2_S8192_n_01_n_n_01_1_11.startIndexMap, hlt⟩
        = ix2 r (1 : Fin 2) := by
    intro hlt
    funext b; refine Fin.ext ?_
    match b with
    | ⟨0, _⟩ => rfl
    | ⟨1, _⟩ => rfl
  rw [hsi]
  rfl

/-! ## The index columns -/

/-- A vector broadcast into a column reads, at `(r, u)`, the vector at `r`. -/
theorem column_apply {α : Type} (v : (⟨1, ![8192]⟩ : Shape).Idx → α)
    (h : (⟨1, ![8192]⟩ : Shape).BroadcastsInDim ⟨2, ![8192, 1]⟩ ![0]) (r : Fin 8192) (u : Fin 1) :
    broadcastInDim ⟨2, ![8192, 1]⟩ ![0] h v (ix2 r u) = v (ix1 r) := by
  refine broadcastInDim_apply _ h v (ix2 r u) (ix1 r) fun a => ?_
  match a with
  | ⟨0, _⟩ => exact (if_neg (show ¬ ((8192 : ℕ) = 1) by decide)).symm

/-- Three columns side by side: the middle one at `(r, 1)`. -/
theorem three_columns_1 {α : Type} (c0 c1 c2 : (⟨2, ![8192, 1]⟩ : Shape).Idx → α)
    (h : Shape.Concatenates [(⟨2, ![8192, 1]⟩ : Shape), ⟨2, ![8192, 1]⟩, ⟨2, ![8192, 1]⟩] ⟨2, ![8192, 3]⟩ 1) (r : Fin 8192) :
    concatenate ⟨2, ![8192, 3]⟩ 1 [⟨⟨2, ![8192, 1]⟩, c0⟩, ⟨⟨2, ![8192, 1]⟩, c1⟩, ⟨⟨2, ![8192, 1]⟩, c2⟩] h (ix2 r (1 : Fin 3))
      = c1 (ix2 r (0 : Fin 1)) := by
  refine concatenate_apply_piece (t := ⟨2, ![8192, 3]⟩) 1 [⟨⟨2, ![8192, 1]⟩, c0⟩, ⟨⟨2, ![8192, 1]⟩, c1⟩, ⟨⟨2, ![8192, 1]⟩, c2⟩] h (ix2 r (1 : Fin 3)) 1 (by show (1 : ℕ) < 3; decide) ⟨2, ![8192, 1]⟩ c1 rfl rfl 1 rfl (ix2 r (0 : Fin 1)) ?_ rfl
  intro b hb
  match b, hb with
  | ⟨0, _⟩, _ => rfl
  | ⟨1, _⟩, hb => exact absurd (Fin.ext rfl) hb

/-- Three columns side by side: the last one at `(r, 2)`. -/
theorem three_columns_2 {α : Type} (c0 c1 c2 : (⟨2, ![8192, 1]⟩ : Shape).Idx → α)
    (h : Shape.Concatenates [(⟨2, ![8192, 1]⟩ : Shape), ⟨2, ![8192, 1]⟩, ⟨2, ![8192, 1]⟩] ⟨2, ![8192, 3]⟩ 1) (r : Fin 8192) :
    concatenate ⟨2, ![8192, 3]⟩ 1 [⟨⟨2, ![8192, 1]⟩, c0⟩, ⟨⟨2, ![8192, 1]⟩, c1⟩, ⟨⟨2, ![8192, 1]⟩, c2⟩] h (ix2 r (2 : Fin 3))
      = c2 (ix2 r (0 : Fin 1)) := by
  refine concatenate_apply_piece (t := ⟨2, ![8192, 3]⟩) 1 [⟨⟨2, ![8192, 1]⟩, c0⟩, ⟨⟨2, ![8192, 1]⟩, c1⟩, ⟨⟨2, ![8192, 1]⟩, c2⟩] h (ix2 r (2 : Fin 3)) 2 (by show (2 : ℕ) < 3; decide) ⟨2, ![8192, 1]⟩ c2 rfl rfl 2 rfl (ix2 r (0 : Fin 1)) ?_ rfl
  intro b hb
  match b, hb with
  | ⟨0, _⟩, _ => rfl
  | ⟨1, _⟩, hb => exact absurd (Fin.ext rfl) hb

/-- Two columns side by side: the first one at `(r, 0)`. -/
theorem two_columns_0 {α : Type} (c0 c1 : (⟨2, ![8192, 1]⟩ : Shape).Idx → α)
    (h : Shape.Concatenates [(⟨2, ![8192, 1]⟩ : Shape), ⟨2, ![8192, 1]⟩] ⟨2, ![8192, 2]⟩ 1) (r : Fin 8192) :
    concatenate ⟨2, ![8192, 2]⟩ 1 [⟨⟨2, ![8192, 1]⟩, c0⟩, ⟨⟨2, ![8192, 1]⟩, c1⟩] h (ix2 r (0 : Fin 2))
      = c0 (ix2 r (0 : Fin 1)) := by
  refine concatenate_apply_piece (t := ⟨2, ![8192, 2]⟩) 1 [⟨⟨2, ![8192, 1]⟩, c0⟩, ⟨⟨2, ![8192, 1]⟩, c1⟩] h (ix2 r (0 : Fin 2)) 0 (by show (0 : ℕ) < 2; decide) ⟨2, ![8192, 1]⟩ c0 rfl rfl 0 rfl (ix2 r (0 : Fin 1)) ?_ rfl
  intro b hb
  match b, hb with
  | ⟨0, _⟩, _ => rfl
  | ⟨1, _⟩, hb => exact absurd (Fin.ext rfl) hb

/-- Two columns side by side: the second one at `(r, 1)`. -/
theorem two_columns_1 {α : Type} (c0 c1 : (⟨2, ![8192, 1]⟩ : Shape).Idx → α)
    (h : Shape.Concatenates [(⟨2, ![8192, 1]⟩ : Shape), ⟨2, ![8192, 1]⟩] ⟨2, ![8192, 2]⟩ 1) (r : Fin 8192) :
    concatenate ⟨2, ![8192, 2]⟩ 1 [⟨⟨2, ![8192, 1]⟩, c0⟩, ⟨⟨2, ![8192, 1]⟩, c1⟩] h (ix2 r (1 : Fin 2))
      = c1 (ix2 r (0 : Fin 1)) := by
  refine concatenate_apply_piece (t := ⟨2, ![8192, 2]⟩) 1 [⟨⟨2, ![8192, 1]⟩, c0⟩, ⟨⟨2, ![8192, 1]⟩, c1⟩] h (ix2 r (1 : Fin 2)) 1 (by show (1 : ℕ) < 2; decide) ⟨2, ![8192, 1]⟩ c1 rfl rfl 1 rfl (ix2 r (0 : Fin 1)) ?_ rfl
  intro b hb
  match b, hb with
  | ⟨0, _⟩, _ => rfl
  | ⟨1, _⟩, hb => exact absurd (Fin.ext rfl) hb

/-- The kernel program's index triples: the row entry is the wrapped row number. -/
theorem kernel_posIdx_row (a1 : IVec (⟨1, ![8192]⟩ : Shape) 32) (r : Fin 8192) :
    Cert.KernelIdeal.Fr.posIdx a1 (ix2 r (1 : Fin 3))
      = Cert.KernelIdeal.Fr.wrapped (iotaInDim ⟨1, ![8192]⟩ 32 0) (ix1 r) := by
  unfold Cert.KernelIdeal.Fr.posIdx
  refine (three_columns_1 _ _ _ _ r).trans ?_
  exact column_apply _ _ r 0

/-- The kernel program's index triples: the column entry is the wrapped a1. -/
theorem kernel_posIdx_col (a1 : IVec (⟨1, ![8192]⟩ : Shape) 32) (r : Fin 8192) :
    Cert.KernelIdeal.Fr.posIdx a1 (ix2 r (2 : Fin 3)) = Cert.KernelIdeal.Fr.wrapped a1 (ix1 r) := by
  unfold Cert.KernelIdeal.Fr.posIdx
  refine (three_columns_2 _ _ _ _ r).trans ?_
  exact column_apply _ _ r 0

/-- The reference's index pairs: the row entry is the wrapped row number. -/
theorem reference_posIdx_row (a1 : IVec (⟨1, ![8192]⟩ : Shape) 32) (r : Fin 8192) :
    Cert.ReferenceIdeal.Hand.posIdx a1 (ix2 r (0 : Fin 2))
      = Cert.KernelIdeal.Fr.wrapped (iotaInDim ⟨1, ![8192]⟩ 32 0) (ix1 r) := by
  unfold Cert.ReferenceIdeal.Hand.posIdx
  refine (two_columns_0 _ _ _ r).trans ?_
  exact column_apply _ _ r 0

/-- The reference's index pairs: the column entry is the wrapped a1. -/
theorem reference_posIdx_col (a1 : IVec (⟨1, ![8192]⟩ : Shape) 32) (r : Fin 8192) :
    Cert.ReferenceIdeal.Hand.posIdx a1 (ix2 r (1 : Fin 2)) = Cert.KernelIdeal.Fr.wrapped a1 (ix1 r) := by
  unfold Cert.ReferenceIdeal.Hand.posIdx
  refine (two_columns_1 _ _ _ r).trans ?_
  exact column_apply _ _ r 0

/-- The positives' exponentials agree. -/
theorem posExp_eq (x : FVec Ideal (⟨3, ![1, 8192, 8192]⟩ : Shape) .f32) (a1 : IVec (⟨1, ![8192]⟩ : Shape) 32) :
    Cert.KernelIdeal.Fr.posExp (F := Ideal) x a1 = Cert.ReferenceIdeal.Hand.posExp (F := Ideal) x a1 := by
  funext j
  obtain ⟨r, rfl⟩ : ∃ r : Fin 8192, j = ix1 r := ⟨j 0, eq_ix1 j⟩
  show Ideal.exp (x (Cert.KernelIdeal.gather_S1x8192x8192_S8192x3_S8192_n_012_n_n_012_1_111.operandIdx (ix1 r)
        (Cert.KernelIdeal.Fr.posIdx a1)) * Ideal.ofBits .f32 0x40000000#32)
    = Ideal.exp (Ideal.div (shapeCast Cert.ReferenceIdeal.S8192x8192 x Cert.ReferenceIdeal.Gen.shapeCasts_S1x8192x8192_S8192x8192
        (Cert.ReferenceIdeal.gather_S8192x8192_S8192x2_S8192_n_01_n_n_01_1_11.operandIdx (ix1 r)
          (Cert.ReferenceIdeal.Hand.posIdx a1))) (Ideal.ofBits .f32 0x3F000000#32))
  rw [Cert.ReferenceIdeal.Hand.div_half]
  congr 2
  symm
  refine shapeCast_apply x _ _ _ ?_
  rw [Shape.rowMajor_val_three, Shape.rowMajor_val_two]
  have h0 := (Cert.KernelIdeal.gather_S1x8192x8192_S8192x3_S8192_n_012_n_n_012_1_111.operandIdx (ix1 r)
        (Cert.KernelIdeal.Fr.posIdx a1) 0).isLt
  rw [kernel_opIdx_row, kernel_opIdx_col, reference_opIdx_row, reference_opIdx_col,
    kernel_posIdx_row, kernel_posIdx_col, reference_posIdx_row, reference_posIdx_col]
  show (_ * 8192 + _) * 8192 + _ = _ * 8192 + _
  have h0' : (Cert.KernelIdeal.gather_S1x8192x8192_S8192x3_S8192_n_012_n_n_012_1_111.operandIdx (ix1 r)
        (Cert.KernelIdeal.Fr.posIdx a1) 0).val = 0 := by
    change _ < 1 at h0
    omega
  rw [h0']
  omega

end Cert.Bridge

end
-- ==== Proof.lean ====
/-
  The certificate's claim, assembled. Both programs compute, over the extended reals, the mean over the N = 8192 rows of
    loss(r) = -log(pos(r) / (P(r) + (S(r) - pos(r)))) - log(Q(r) / (Q(r) + (S(r) - pos(r)))),
  S, P, Q the row's sums of e = exp(2x), of e over the row's class, and of e^2 over the row's class (Proof/Spec.lean).
  The kernel accumulates the three sums over two column blocks in scratch buffers carried from one grid point to the
  next and finishes each row block at its last column block (Proof/KI: the frame by hand, the body run symbolically per
  control case, the accumulators' contents followed point by point, the output array read block by block); the
  reference sums whole rows (Proof/RefRun.lean, Proof/RefValue.lean). The two agree because a sum over 8192 columns is
  the sum of its two halves, x / 0.5 = 2x and exp(x / 0.25) = exp(2x)^2 on every extended real, 0 - y = -y, and the
  positive's exponential may be gathered before or after the pointwise exponential (Proof/Bridge.lean); finiteness of
  the input is not needed. The three frames: the kernel's at both instances from its run (Proof/K, Proof/KI), the
  reference's from its run. The idealization rewrote nothing, so its conjunct is trivial.
-/
import proofs.«419252_j75419625718616_3_alg».proof.Defs
import proofs.«419252_j75419625718616_3_alg».proof.Proof.Gen.Kernel
import proofs.«419252_j75419625718616_3_alg».proof.Proof.Gen.KernelIdeal
import proofs.«419252_j75419625718616_3_alg».proof.Proof.Gen.ReferenceIdeal
import proofs.«419252_j75419625718616_3_alg».proof.Proof.Gen.Pre_finite_inputs
import proofs.«419252_j75419625718616_3_alg».proof.Proof.K.Frame
import proofs.«419252_j75419625718616_3_alg».proof.Proof.KI.Frame
import proofs.«419252_j75419625718616_3_alg».proof.Proof.KI.Value
import proofs.«419252_j75419625718616_3_alg».proof.Proof.RefRun
import proofs.«419252_j75419625718616_3_alg».proof.Proof.RefValue
import proofs.«419252_j75419625718616_3_alg».proof.Proof.Bridge

noncomputable section

namespace Cert.Proof

open Idealize.ShloMosaic Idealize.ShloMosaic.TcCoe Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ => Cert.ReferenceIdeal.Hand.frame_ref (F := Ideal) m ρ

/-- Both runs end with the mean loss of the same similarity matrix, class vector and positives' exponentials: the kernel's
    by its value leg, the reference's by its run read back; the class vectors are one chain of integer operations on both
    sides and the positives' exponentials agree index by index. -/
theorem algebraic : Cert.algebraic_KernelIdeal_ReferenceIdeal := by
  intro m g m' g' _ hagree
  refine ⟨_, Cert.KernelIdeal.Fr.value_main m g, ?_⟩
  refine (θ_run Cert.ReferenceIdeal.defs _ _).mono (fun r h c => ⟨?_, ?_, ?_, ?_, ?_⟩)
    (Cert.ReferenceIdeal.Hand.run_main (F := Ideal) m' g')
  · rw [h c Cert.ReferenceIdeal.main_v62, Cert.ReferenceIdeal.Hand.v62_eq]
    show (fun _ => Cert.Spec.mean (m' ((c.tc : Thread Cert.ReferenceIdeal.nD Cert.ReferenceIdeal.τ).loc Cert.ReferenceIdeal.main_arg0)) _ _) = _
    rw [(hagree c).1]
    simp only [← Cert.Bridge.rowCls_eq, ← Cert.Bridge.posExp_eq]
    have e0 : StableHlo.launchContents m' c (Proc.devRef .tc Cert.ReferenceIdeal.main_arg0) = m ((c.tc : Thread Cert.KernelIdeal.nD Cert.KernelIdeal.τ).loc Cert.KernelIdeal.main_arg0) := (hagree c).1
    have e1 : StableHlo.launchContents m' c (Proc.devRef .tc Cert.ReferenceIdeal.main_arg1) = m ((c.tc : Thread Cert.KernelIdeal.nD Cert.KernelIdeal.τ).loc Cert.KernelIdeal.main_arg1) := (hagree c).2.1
    have e2 : StableHlo.launchContents m' c (Proc.devRef .tc Cert.ReferenceIdeal.main_arg2) = m ((c.tc : Thread Cert.KernelIdeal.nD Cert.KernelIdeal.τ).loc Cert.KernelIdeal.main_arg2) := (hagree c).2.2.1
    have e3 : StableHlo.launchContents m' c (Proc.devRef .tc Cert.ReferenceIdeal.main_arg3) = m ((c.tc : Thread Cert.KernelIdeal.nD Cert.KernelIdeal.τ).loc Cert.KernelIdeal.main_arg3) := (hagree c).2.2.2
    rw [e0, e1, e2, e3]
    rfl
  · exact (h c Cert.ReferenceIdeal.main_arg0).trans (Cert.ReferenceIdeal.Hand.arg0_eq _)
  · exact (h c Cert.ReferenceIdeal.main_arg1).trans (Cert.ReferenceIdeal.Hand.arg1_eq _)
  · exact (h c Cert.ReferenceIdeal.main_arg2).trans (Cert.ReferenceIdeal.Hand.arg2_eq _)
  · exact (h c Cert.ReferenceIdeal.main_arg3).trans (Cert.ReferenceIdeal.Hand.arg3_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
